-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S1000000x4 : Shape := ⟨2, ![1000000, 4]⟩
abbrev S2x4000000 : Shape := ⟨2, ![2, 4000000]⟩
abbrev S4000000x2 : Shape := ⟨2, ![4000000, 2]⟩
abbrev S1000000 : Shape := ⟨1, ![1000000]⟩
abbrev S1x4 : Shape := ⟨2, ![1, 4]⟩
abbrev S1x2 : Shape := ⟨2, ![1, 2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S1000000x4 : S_.BroadcastsInDim S1000000x4 (![] : Fin 0 → Fin S1000000x4.rank)
  reducesTo_S1000000x4_S_d0_1 : S1000000x4.ReducesTo [0, 1] S_
  bcast_S_S4000000x2 : S_.BroadcastsInDim S4000000x2 (![] : Fin 0 → Fin S4000000x2.rank)
  reducesTo_S4000000x2_S_d0_1 : S4000000x2.ReducesTo [0, 1] S_
  bcast_S_S1000000 : S_.BroadcastsInDim S1000000 (![] : Fin 0 → Fin S1000000.rank)
  reducesTo_S1000000_S_d0 : S1000000.ReducesTo [0] S_
  bcast_S_S1x4 : S_.BroadcastsInDim S1x4 (![] : Fin 0 → Fin S1x4.rank)
  reducesTo_S1x4_S_d0_1 : S1x4.ReducesTo [0, 1] S_
  bcast_S_S1x2 : S_.BroadcastsInDim S1x2 (![] : Fin 0 → Fin S1x2.rank)
  reducesTo_S1x2_S_d0_1 : S1x2.ReducesTo [0, 1] S_

variable [Facts]

def fn_part2 {F : FTy → Type} [FloatOps F] (main_arg9 : FVec F S1x2 .f32) (main_arg10 : FVec F S1x2 .f32) (main_v33 : IVec S_ 1) : IVec S_ 1 :=
  let main_v34 : FVec F S1x2 .f32 := Host.absf main_arg9
  let main_cst_12 : FVec F S_ .f32 := constant S_ .f32 0x7F800000#32
  let main_v35 : FVec F S1x2 .f32 := broadcastInDim S1x2 ![] bcast_S_S1x2 main_cst_12
  let main_v36 : IVec S1x2 1 := cmpf .olt main_v34 main_v35
  let main_c_13 : IVec S_ 1 := constantI S_ 1 1#1
  let main_v37 : IVec S_ 1 := (fun x v => Host.reduce IntOp.andi x v reducesTo_S1x2_S_d0_1 h_S_) main_v36 main_c_13
  let main_v38 : IVec S_ 1 := andi main_v33 main_v37
  let main_v39 : FVec F S1x2 .f32 := Host.absf main_arg10
  let main_cst_14 : FVec F S_ .f32 := constant S_ .f32 0x7F800000#32
  let main_v40 : FVec F S1x2 .f32 := broadcastInDim S1x2 ![] bcast_S_S1x2 main_cst_14
  let main_v41 : IVec S1x2 1 := cmpf .olt main_v39 main_v40
  let main_c_15 : IVec S_ 1 := constantI S_ 1 1#1
  let main_v42 : IVec S_ 1 := (fun x v => Host.reduce IntOp.andi x v reducesTo_S1x2_S_d0_1 h_S_) main_v41 main_c_15
  let main_v43 : IVec S_ 1 := andi main_v38 main_v42
  main_v43

def fn_part1 {F : FTy → Type} [FloatOps F] (main_arg6 : FVec F S1000000 .f32) (main_arg7 : FVec F S1x4 .f32) (main_arg8 : FVec F S1x4 .f32) (main_arg9 : FVec F S1x2 .f32) (main_arg10 : FVec F S1x2 .f32) (main_v13 : IVec S_ 1) (main_v16 : IVec S4000000x2 1) : IVec S_ 1 :=
  let main_c_5 : IVec S_ 1 := constantI S_ 1 1#1
  let main_v17 : IVec S_ 1 := (fun x v => Host.reduce IntOp.andi x v reducesTo_S4000000x2_S_d0_1 h_S_) main_v16 main_c_5
  let main_v18 : IVec S_ 1 := andi main_v13 main_v17
  let main_v19 : FVec F S1000000 .f32 := Host.absf main_arg6
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1x4 .f32 := Host.absf main_arg7
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  let main_v29 : FVec F S1x4 .f32 := Host.absf main_arg8
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  fn_part2 (F := F) main_arg9 main_arg10 main_v33

def fn {F : FTy → Type} [FloatOps F] (main_arg0 : FVec F S1000000x2 .f32) (main_arg1 : FVec F S1000000x4 .f32) (main_arg2 : FVec F S1000000x4 .f32) (main_arg3 : IVec S2x4000000 32) (main_arg4 : FVec F S4000000x2 .f32) (main_arg5 : IVec S1000000 32) (main_arg6 : FVec F S1000000 .f32) (main_arg7 : FVec F S1x4 .f32) (main_arg8 : FVec F S1x4 .f32) (main_arg9 : FVec F S1x2 .f32) (main_arg10 : FVec F S1x2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S1000000x4 .f32 := Host.absf main_arg1
  let main_cst_0 : FVec F S_ .f32 := constant S_ .f32 0x7F800000#32
  let main_v5 : FVec F S1000000x4 .f32 := broadcastInDim S1000000x4 ![] bcast_S_S1000000x4 main_cst_0
  let main_v6 : IVec S1000000x4 1 := cmpf .olt main_v4 main_v5
  let main_c_1 : IVec S_ 1 := constantI S_ 1 1#1
  let main_v7 : IVec S_ 1 := (fun x v => Host.reduce IntOp.andi x v reducesTo_S1000000x4_S_d0_1 h_S_) main_v6 main_c_1
  let main_v8 : IVec S_ 1 := andi main_v3 main_v7
  let main_v9 : FVec F S1000000x4 .f32 := Host.absf main_arg2
  let main_cst_2 : FVec F S_ .f32 := constant S_ .f32 0x7F800000#32
  let main_v10 : FVec F S1000000x4 .f32 := broadcastInDim S1000000x4 ![] bcast_S_S1000000x4 main_cst_2
  let main_v11 : IVec S1000000x4 1 := cmpf .olt main_v9 main_v10
  let main_c_3 : IVec S_ 1 := constantI S_ 1 1#1
  let main_v12 : IVec S_ 1 := (fun x v => Host.reduce IntOp.andi x v reducesTo_S1000000x4_S_d0_1 h_S_) main_v11 main_c_3
  let main_v13 : IVec S_ 1 := andi main_v8 main_v12
  let main_v14 : FVec F S4000000x2 .f32 := Host.absf main_arg4
  let main_cst_4 : FVec F S_ .f32 := constant S_ .f32 0x7F800000#32
  let main_v15 : FVec F S4000000x2 .f32 := broadcastInDim S4000000x2 ![] bcast_S_S4000000x2 main_cst_4
  let main_v16 : IVec S4000000x2 1 := cmpf .olt main_v14 main_v15
  fn_part1 (F := F) main_arg6 main_arg7 main_arg8 main_arg9 main_arg10 main_v13 main_v16
-- ==== Kernel.lean ====
abbrev S1000000x2 : Shape := ⟨2, ![1000000, 2]⟩
abbrev S1000000x4 : Shape := ⟨2, ![1000000, 4]⟩
abbrev S2x4000000 : Shape := ⟨2, ![2, 4000000]⟩
abbrev S4000000x2 : Shape := ⟨2, ![4000000, 2]⟩
abbrev S1000000 : Shape := ⟨1, ![1000000]⟩
abbrev S1x4 : Shape := ⟨2, ![1, 4]⟩
abbrev S1x2 : Shape := ⟨2, ![1, 2]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S6400x2 : Shape := ⟨2, ![6400, 2]⟩
abbrev S6400x1 : Shape := ⟨2, ![6400, 1]⟩
abbrev S1000000x1 : Shape := ⟨2, ![1000000, 1]⟩
abbrev S1x1 : Shape := ⟨2, ![1, 1]⟩
abbrev S5000x2 : Shape := ⟨2, ![5000, 2]⟩
abbrev S5000x4 : Shape := ⟨2, ![5000, 4]⟩
abbrev S5000x1 : Shape := ⟨2, ![5000, 1]⟩
abbrev S1x5000x2 : Shape := ⟨3, ![1, 5000, 2]⟩
abbrev S1 : Shape := ⟨1, ![1]⟩
abbrev S1x1x1 : Shape := ⟨3, ![1, 1, 1]⟩
abbrev S1x5000x1 : Shape := ⟨3, ![1, 5000, 1]⟩

abbrev nBuf : Space → Nat
  | .hbm => 77
  | .vmem => 31
  | .smem => 0
  | _ => 0

abbrev bufTy : (tb : Table) → Fin (tcTables nBuf tb) → BufTy
  | .hbm, ⟨0, _⟩ => ⟨S1000000x2, .f32⟩
  | .hbm, ⟨1, _⟩ => ⟨S1000000x4, .f32⟩
  | .hbm, ⟨2, _⟩ => ⟨S1000000x4, .f32⟩
  | .hbm, ⟨3, _⟩ => ⟨S2x4000000, .i32⟩
  | .hbm, ⟨4, _⟩ => ⟨S4000000x2, .f32⟩
  | .hbm, ⟨5, _⟩ => ⟨S1000000, .i32⟩
  | .hbm, ⟨6, _⟩ => ⟨S1000000, .f32⟩
  | .hbm, ⟨7, _⟩ => ⟨S1x4, .f32⟩
  | .hbm, ⟨8, _⟩ => ⟨S1x4, .f32⟩
  | .hbm, ⟨9, _⟩ => ⟨S1x2, .f32⟩
  | .hbm, ⟨10, _⟩ => ⟨S1x2, .f32⟩
  | .hbm, ⟨11, _⟩ => ⟨S1x4000000, .i32⟩
  | .hbm, ⟨12, _⟩ => ⟨S4000000, .i32⟩
  | .hbm, ⟨13, _⟩ => ⟨S1x4000000, .i32⟩
  | .hbm, ⟨14, _⟩ => ⟨S4000000, .i32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000x2, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000x2, .f32⟩
  | .hbm, ⟨33, _⟩ => ⟨S4000000x2, .f32⟩
  | .hbm, ⟨34, _⟩ => ⟨S4000000x2, .f32⟩
  | .hbm, ⟨35, _⟩ => ⟨S_, .f32⟩
  | .hbm, ⟨36, _⟩ => ⟨S1000000x2, .f32⟩
  | .hbm, ⟨37, _⟩ => ⟨S4000000x1, .i32⟩
  | .hbm, ⟨38, _⟩ => ⟨S1000000x2, .f32⟩
  | .hbm, ⟨39, _⟩ => ⟨S_, .f32⟩
  | .hbm, ⟨40, _⟩ => ⟨S1000000x2, .f32⟩
  | .hbm, ⟨41, _⟩ => ⟨S4000000x1, .i32⟩
  | .hbm, ⟨42, _⟩ => ⟨S1000000x2, .f32⟩
  | .hbm, ⟨43, _⟩ => ⟨S1000000x2, .f32⟩
  | .hbm, ⟨44, _⟩ => ⟨S1000000x1, .i32⟩
  | .hbm, ⟨45, _⟩ => ⟨S1000000x1, .f32⟩
  | .hbm, ⟨46, _⟩ => ⟨S1x1, .f32⟩
  | .hbm, ⟨47, _⟩ => ⟨S1x1, .f32⟩
  | .hbm, ⟨48, _⟩ => ⟨S1x1, .f32⟩
  | .hbm, ⟨49, _⟩ => ⟨S1x1, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S6400x2, .f32⟩
  | .local _ .vmem, ⟨1, _⟩ => ⟨S6400x2, .f32⟩
  | .local _ .vmem, ⟨2, _⟩ => ⟨S6400x2, .f32⟩
  | .local _ .vmem, ⟨3, _⟩ => ⟨S6400x2, .f32⟩
  | .local _ .vmem, ⟨4, _⟩ => ⟨S6400x2, .f32⟩
  | .local _ .vmem, ⟨5, _⟩ => ⟨S6400x2, .f32⟩
  | .local _ .vmem, ⟨6, _⟩ => ⟨S1x2, .f32⟩
  | .local _ .vmem, ⟨7, _⟩ => ⟨S1x2, .f32⟩
  | .local _ .vmem, ⟨8, _⟩ => ⟨S6400x2, .f32⟩
  | .local _ .vmem, ⟨9, _⟩ => ⟨S6400x2, .f32⟩
  | .local _ .vmem, ⟨10, _⟩ => ⟨S6400x2, .f32⟩
  | .local _ .vmem, ⟨11, _⟩ => ⟨S6400x2, .f32⟩
  | .local _ .vmem, ⟨12, _⟩ => ⟨S5000x2, .f32⟩
  | .local _ .vmem, ⟨13, _⟩ => ⟨S5000x2, .f32⟩
  | .local _ .vmem, ⟨14, _⟩ => ⟨S5000x4, .f32⟩
  | .local _ .vmem, ⟨15, _⟩ => ⟨S5000x4, .f32⟩
  | .local _ .vmem, ⟨16, _⟩ => ⟨S5000x4, .f32⟩
  | .local _ .vmem, ⟨17, _⟩ => ⟨S5000x4, .f32⟩
  | .local _ .vmem, ⟨18, _⟩ => ⟨S5000x2, .f32⟩
  | .local _ .vmem, ⟨19, _⟩ => ⟨S5000x2, .f32⟩
  | .local _ .vmem, ⟨20, _⟩ => ⟨S5000x1, .i32⟩
  | .local _ .vmem, ⟨21, _⟩ => ⟨S5000x1, .i32⟩
  | .local _ .vmem, ⟨22, _⟩ => ⟨S5000x1, .f32⟩
  | .local _ .vmem, ⟨23, _⟩ => ⟨S5000x1, .f32⟩
  | .local _ .vmem, ⟨24, _⟩ => ⟨S1x4, .f32⟩
  | .local _ .vmem, ⟨25, _⟩ => ⟨S1x4, .f32⟩
  | .local _ .vmem, ⟨26, _⟩ => ⟨S1x1, .f32⟩
  | .local _ .vmem, ⟨27, _⟩ => ⟨S1x1, .f32⟩
  | .local _ .vmem, ⟨28, _⟩ => ⟨S1x1, .f32⟩
  | .local _ .vmem, ⟨29, _⟩ => ⟨S1x1, .f32⟩
  | .local _ .vmem, ⟨30, _⟩ => ⟨S1x1, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev main_v28_3 : Ref sig .tc := ⟨.hbm, 49, rfl⟩
abbrev main_v28_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_call0_v0 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6400x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S6400x2_S6400x2_0_0 : ∀ a, (![0, 0] : Fin 2 → Nat) a + S6400x2.size a ≤ S6400x2.size a
  h_S6400x2 : 0 < S6400x2.numel
  shapeCasts_S6400x2_S6400x2 : S6400x2.ShapeCasts S6400x2
  inb_S1x2_S1x2_0_0 : ∀ a, (![0, 0] : Fin 2 → Nat) a + S1x2.size a ≤ S1x2.size a
  h_S1x2 : 0 < S1x2.numel
  broadcasts_S1x2_S6400x2 : S1x2.Broadcasts S6400x2
  slices_S6400x2_o0_0_S6400x1 : S6400x2.Slices ![0, 0] S6400x1
  slices_S6400x2_o0_1_S6400x1 : S6400x2.Slices ![0, 1] S6400x1
  inb_S6400x2_S6400x1_0_0 : ∀ a, (![0, 0] : Fin 2 → Nat) a + S6400x1.size a ≤ S6400x2.size a
  h_S6400x1 : 0 < S6400x1.numel
  inb_S6400x2_S6400x1_0_1 : ∀ a, (![0, 1] : Fin 2 → Nat) a + S6400x1.size a ≤ S6400x2.size a
  bcast_S_S1000000x2 : S_.BroadcastsInDim S1000000x2 (![] : Fin 0 → Fin S1000000x2.rank)
  shapeCasts_S1000000_S1000000x1 : S1000000.ShapeCasts S1000000x1
  inb_S1x1_S1x1_0_0 : ∀ a, (![0, 0] : Fin 2 → Nat) a + S1x1.size a ≤ S1x1.size a
  h_S1x1 : 0 < S1x1.numel
  inb_S5000x2_S5000x2_0_0 : ∀ a, (![0, 0] : Fin 2 → Nat) a + S5000x2.size a ≤ S5000x2.size a
  h_S5000x2 : 0 < S5000x2.numel
  inb_S5000x4_S5000x4_0_0 : ∀ a, (![0, 0] : Fin 2 → Nat) a + S5000x4.size a ≤ S5000x4.size a
  h_S5000x4 : 0 < S5000x4.numel
  shapeCasts_S5000x2_S5000x2 : S5000x2.ShapeCasts S5000x2
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x4_S1x4_0_0 : ∀ a, (![0, 0] : Fin 2 → Nat) a + S1x4.size a ≤ S1x4.size a
  h_S1x4 : 0 < S1x4.numel
  slices_S5000x4_o0_2_S5000x2 : S5000x4.Slices ![0, 2] S5000x2
  shapeCasts_S5000x2_S1x5000x2 : S5000x2.ShapeCasts S1x5000x2
  reduces_S1x5000x2_S1 : S1x5000x2.Reduces [1, 2] S1
  shapeCasts_S1_S1x1x1 : S1.ShapeCasts S1x1x1
  inpos_S1x1x1_p0_0_0 : ∀ a, (![0, 0, 0] : Fin 3 → Nat) a < S1x1x1.size a
  slices_S5000x4_o0_0_S5000x2 : S5000x4.Slices ![0, 0] S5000x2
  slices_S1x4_o0_0_S1x2 : S1x4.Slices ![0, 0] S1x2
  broadcasts_S1x2_S5000x2 : S1x2.Broadcasts S5000x2
  slices_S1x4_o0_2_S1x2 : S1x4.Slices ![0, 2] S1x2
  slices_S5000x2_o0_0_S5000x1 : S5000x2.Slices ![0, 0] S5000x1
  slices_S5000x2_o0_1_S5000x1 : S5000x2.Slices ![0, 1] S5000x1
  natLt_1_32 : 1 < 32
  shapeCasts_S5000x1_S1x5000x1 : S5000x1.ShapeCasts S1x5000x1
  reduces_S1x5000x1_S1 : S1x5000x1.Reduces [1, 2] S1
  shapeCasts_S1x1_S1x1 : S1x1.ShapeCasts S1x1
  shapeCasts_S1x1_S_ : S1x1.ShapeCasts S_
  gather_S1000000x2_S4000000x1_S4000000x2_1_0_n_n_0_1_12_wf : GatherDims.WF S1000000x2 S4000000x1 S4000000x2 [1] [0] [] [0] [] 1 ![1, 2]
  scatter_S1000000x2_S4000000x1_S4000000x2_1_0_0_1_wf : ScatterDims.WF S1000000x2 S4000000x1 S4000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x2.size a ≤ S4000000x2.size a
  hwx0_0 : ∀ i : grid0.Coords, EltTy.bits .f32 = 32 ∨ (Rect.block (s := S4000000x2) S6400x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x2.size a ≤ S4000000x2.size a
  hwx0_1 : ∀ i : grid0.Coords, EltTy.bits .f32 = 32 ∨ (Rect.block (s := S4000000x2) S6400x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x2.size a ≤ S4000000x2.size a
  hwx0_2 : ∀ i : grid0.Coords, EltTy.bits .f32 = 32 ∨ (Rect.block (s := S4000000x2) S6400x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x2.size a ≤ S4000000x2.size a
  hwx0_5 : ∀ i : grid0.Coords, EltTy.bits .f32 = 32 ∨ (Rect.block (s := S4000000x2) S6400x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x2.size a ≤ S4000000x2.size a
  hwx0_6 : ∀ i : grid0.Coords, EltTy.bits .f32 = 32 ∨ (Rect.block (s := S4000000x2) S6400x2.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S1000000x2.size a
  hwx1_0 : ∀ i : grid1.Coords, EltTy.bits .f32 = 32 ∨ (Rect.block (s := S1000000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x4.size a ≤ S1000000x4.size a
  hwx1_1 : ∀ i : grid1.Coords, EltTy.bits .f32 = 32 ∨ (Rect.block (s := S1000000x4) S5000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S1000000x4.size a
  hwx1_2 : ∀ i : grid1.Coords, EltTy.bits .f32 = 32 ∨ (Rect.block (s := S1000000x4) S5000x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S1000000x2.size a
  hwx1_3 : ∀ i : grid1.Coords, EltTy.bits .f32 = 32 ∨ (Rect.block (s := S1000000x2) S5000x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S1000000x1.size a
  hwx1_4 : ∀ i : grid1.Coords, EltTy.bits .i32 = 32 ∨ (Rect.block (s := S1000000x1) S5000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S1000000x1.size a
  hwx1_5 : ∀ i : grid1.Coords, EltTy.bits .f32 = 32 ∨ (Rect.block (s := S1000000x1) S5000x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x4.size a ≤ S1x4.size a
  hwx1_6 : ∀ i : grid1.Coords, EltTy.bits .f32 = 32 ∨ (Rect.block (s := S1x4) S1x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4.size a ≤ S1x4.size a
  hwx1_7 : ∀ i : grid1.Coords, EltTy.bits .f32 = 32 ∨ (Rect.block (s := S1x4) S1x4.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)

variable [Facts₀]

def gather_S1000000x2_S4000000x1_S4000000x2_1_0_n_n_0_1_12 : GatherDims S1000000x2 S4000000x1 S4000000x2 where
  offsetDims := [1]
  collapsedSliceDims := [0]
  operandBatchingDims := []
  startIndicesBatchingDims := []
  startIndexMap := [0]
  indexVectorDim := 1
  sliceSizes := ![1, 2]
  wf := gather_S1000000x2_S4000000x1_S4000000x2_1_0_n_n_0_1_12_wf
def scatter_S1000000x2_S4000000x1_S4000000x2_1_0_0_1 : ScatterDims S1000000x2 S4000000x1 S4000000x2 where
  updateWindowDims := [1]
  insertedWindowDims := [0]
  scatterDimsToOperandDims := [0]
  indexVectorDim := 1
  wf := scatter_S1000000x2_S4000000x1_S4000000x2_1_0_0_1_wf

abbrev win0_0 : Pipeline.Window sig grid0 :=
  Pipeline.Window.ofSpec (Memref.whole main_v10) S6400x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6400x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S6400x2.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S6400x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S1x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S1x4.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28_0) S1x1.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28_1) S1x1.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v28_2) S1x1.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v28_3) S1x1.size cc1_transform_11 reads1_11 true true 1 stage1_11 sem1_11
    hrank1 hreads1_11 hinb1_11 nbuf1_11 (Memref.isWhole_whole _) hwx1_11 hstage1_11

abbrev win1_12 : Pipeline.Window sig grid1 :=
  Pipeline.Window.ofSpec (Memref.whole main_v28_4) S1x1.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S1000000x2 : Shape := ⟨2, ![1000000, 2]⟩
abbrev S1000000x4 : Shape := ⟨2, ![1000000, 4]⟩
abbrev S2x4000000 : Shape := ⟨2, ![2, 4000000]⟩
abbrev S4000000x2 : Shape := ⟨2, ![4000000, 2]⟩
abbrev S1000000 : Shape := ⟨1, ![1000000]⟩
abbrev S1x4 : Shape := ⟨2, ![1, 4]⟩
abbrev S1x2 : Shape := ⟨2, ![1, 2]⟩
abbrev S_ : Shape := ⟨0, ![]⟩
abbrev S1x4000000 : Shape := ⟨2, ![1, 4000000]⟩
abbrev S4000000 : Shape := ⟨1, ![4000000]⟩
abbrev S8000000 : Shape := ⟨1, ![8000000]⟩
abbrev S8000000x2 : Shape := ⟨2, ![8000000, 2]⟩
abbrev S8000000x1 : Shape := ⟨2, ![8000000, 1]⟩
abbrev S1000000x1 : Shape := ⟨2, ![1000000, 1]⟩

abbrev nBuf : Space → Nat
  | .hbm => 156
  | .vmem => 0
  | .smem => 0
  | _ => 0

abbrev hbmTy0_0 (i : Nat) : BufTy := match i % 128 with
  | 0 => ⟨S1000000x2, .f32⟩
  | 1 => ⟨S1000000x4, .f32⟩
  | 2 => ⟨S1000000x4, .f32⟩
  | 3 => ⟨S2x4000000, .i32⟩
  | 4 => ⟨S4000000x2, .f32⟩
  | 5 => ⟨S1000000, .i32⟩
  | 6 => ⟨S1000000, .f32⟩
  | 7 => ⟨S1x4, .f32⟩
  | 8 => ⟨S1x4, .f32⟩
  | 9 => ⟨S1x2, .f32⟩
  | 10 => ⟨S1x2, .f32⟩
  | 11 => ⟨S1000000x2, .f32⟩
  | 12 => ⟨S1000000x2, .f32⟩
  | 13 => ⟨S1000000x2, .f32⟩
  | 14 => ⟨S1000000x2, .f32⟩
  | 15 => ⟨S1000000x2, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1000000x2, .f32⟩
  | 24 => ⟨S1x2, .f32⟩
  | 25 => ⟨S_, .f32⟩
  | 26 => ⟨S1x2, .f32⟩
  | 27 => ⟨S1x2, .f32⟩
  | 28 => ⟨S1000000x2, .f32⟩
  | 29 => ⟨S1000000x2, .f32⟩
  | 30 => ⟨S1x2, .f32⟩
  | 31 => ⟨S1000000x2, .f32⟩
  | 32 => ⟨S1000000x2, .f32⟩
  | 33 => ⟨S_, .f32⟩
  | 34 => ⟨S1x2, .f32⟩
  | 35 => ⟨S1x2, .f32⟩
  | 36 => ⟨S4000000x2, .f32⟩
  | 37 => ⟨S4000000x2, .f32⟩
  | 38 => ⟨S4000000x2, .f32⟩
  | 39 => ⟨S4000000x2, .f32⟩
  | 40 => ⟨S1x4000000, .i32⟩
  | 41 => ⟨S4000000, .i32⟩
  | 42 => ⟨S1x4000000, .i32⟩
  | 43 => ⟨S4000000, .i32⟩
  | 44 => ⟨S8000000, .i32⟩
  | 45 => ⟨S1x4000000, .i32⟩
  | 46 => ⟨S4000000, .i32⟩
  | 47 => ⟨S1x4000000, .i32⟩
  | 48 => ⟨S4000000, .i32⟩
  | 49 => ⟨S8000000, .i32⟩
  | 50 => ⟨S8000000x2, .f32⟩
  | 51 => ⟨S_, .i32⟩
  | 52 => ⟨S8000000, .i32⟩
  | 53 => ⟨S8000000, .i1⟩
  | 54 => ⟨S_, .i32⟩
  | 55 => ⟨S8000000, .i32⟩
  | 56 => ⟨S8000000, .i32⟩
  | 57 => ⟨S8000000, .i32⟩
  | 58 => ⟨S8000000x1, .i32⟩
  | 59 => ⟨S8000000x2, .f32⟩
  | 60 => ⟨S_, .i32⟩
  | 61 => ⟨S8000000, .i32⟩
  | 62 => ⟨S8000000, .i1⟩
  | 63 => ⟨S_, .i32⟩
  | 64 => ⟨S8000000, .i32⟩
  | 65 => ⟨S8000000, .i32⟩
  | 66 => ⟨S8000000, .i32⟩
  | 67 => ⟨S8000000x1, .i32⟩
  | 68 => ⟨S8000000x2, .f32⟩
  | 69 => ⟨S8000000x1, .f32⟩
  | 70 => ⟨S8000000, .f32⟩
  | 71 => ⟨S8000000x1, .f32⟩
  | 72 => ⟨S8000000, .f32⟩
  | 73 => ⟨S8000000x1, .f32⟩
  | 74 => ⟨S8000000, .f32⟩
  | 75 => ⟨S8000000x1, .f32⟩
  | 76 => ⟨S8000000, .f32⟩
  | 77 => ⟨S8000000x1, .f32⟩
  | 78 => ⟨S8000000, .f32⟩
  | 79 => ⟨S8000000x1, .f32⟩
  | 80 => ⟨S8000000, .f32⟩
  | 81 => ⟨S8000000, .f32⟩
  | 82 => ⟨S8000000, .f32⟩
  | 83 => ⟨S8000000, .f32⟩
  | 84 => ⟨S8000000, .f32⟩
  | 85 => ⟨S8000000, .f32⟩
  | 86 => ⟨S8000000, .f32⟩
  | 87 => ⟨S8000000, .f32⟩
  | 88 => ⟨S8000000, .f32⟩
  | 89 => ⟨S8000000, .f32⟩
  | 90 => ⟨S8000000, .f32⟩
  | 91 => ⟨S8000000, .f32⟩
  | 92 => ⟨S8000000, .f32⟩
  | 93 => ⟨S8000000, .f32⟩
  | 94 => ⟨S8000000, .f32⟩
  | 95 => ⟨S8000000, .f32⟩
  | 96 => ⟨S8000000, .f32⟩
  | 97 => ⟨S8000000, .f32⟩
  | 98 => ⟨S8000000, .f32⟩
  | 99 => ⟨S8000000x1, .f32⟩
  | 100 => ⟨S8000000x1, .f32⟩
  | 101 => ⟨S8000000x2, .f32⟩
  | 102 => ⟨S_, .f32⟩
  | 103 => ⟨S1000000x2, .f32⟩
  | 104 => ⟨S8000000x1, .i32⟩
  | 105 => ⟨S1000000x2, .f32⟩
  | 106 => ⟨S1000000x2, .f32⟩
  | 107 => ⟨S1000000x2, .f32⟩
  | 108 => ⟨S_, .f32⟩
  | 109 => ⟨S_, .f32⟩
  | 110 => ⟨S_, .f32⟩
  | 111 => ⟨S_, .f32⟩
  | 112 => ⟨S1x2, .f32⟩
  | 113 => ⟨S_, .f32⟩
  | 114 => ⟨S1x2, .f32⟩
  | 115 => ⟨S1x2, .f32⟩
  | 116 => ⟨S1000000x2, .f32⟩
  | 117 => ⟨S1000000x2, .f32⟩
  | 118 => ⟨S1x2, .f32⟩
  | 119 => ⟨S1000000x2, .f32⟩
  | 120 => ⟨S1000000x2, .f32⟩
  | 121 => ⟨S1000000x1, .f32⟩
  | 122 => ⟨S1000000, .f32⟩
  | 123 => ⟨S1000000, .f32⟩
  | 124 => ⟨S1000000x1, .f32⟩
  | 125 => ⟨S1000000, .f32⟩
  | 126 => ⟨S1000000, .f32⟩
  | 127 => ⟨S1000000, .f32⟩
  | _ => ⟨S1000000x2, .f32⟩

abbrev hbmTy0_1 (i : Nat) : BufTy := match i % 128 with
  | 0 => ⟨S_, .i32⟩
  | 1 => ⟨S1000000, .i32⟩
  | 2 => ⟨S1000000, .i1⟩
  | 3 => ⟨S1000000, .f32⟩
  | 4 => ⟨S_, .f32⟩
  | 5 => ⟨S_, .f32⟩
  | 6 => ⟨S1000000, .f32⟩
  | 7 => ⟨S1000000, .f32⟩
  | 8 => ⟨S1000000, .f32⟩
  | 9 => ⟨S1000000, .f32⟩
  | 10 => ⟨S_, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | _ => ⟨S1000000x2, .f32⟩

abbrev hbmTy (i : Nat) : BufTy := match i / 128 with
  | 0 => hbmTy0_0 i
  | 1 => hbmTy0_1 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_7 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_8 : Ref sig .tc := ⟨.hbm, 108, rfl⟩
abbrev main_v87 : Ref sig .tc := ⟨.hbm, 109, rfl⟩
abbrev main_cst_9 : Ref sig .tc := ⟨.hbm, 110, rfl⟩
abbrev main_v88 : Ref sig .tc := ⟨.hbm, 111, rfl⟩
abbrev main_v89 : Ref sig .tc := ⟨.hbm, 112, rfl⟩
abbrev main_cst_10 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_11 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_12 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_13 : Ref sig .tc := ⟨.hbm, 138, rfl⟩
abbrev main_v112 : Ref sig .tc := ⟨.hbm, 139, rfl⟩
abbrev main_cst_14 : Ref sig .tc := ⟨.hbm, 140, rfl⟩
abbrev main_v113 : Ref sig .tc := ⟨.hbm, 141, rfl⟩
abbrev main_cst_15 : Ref sig .tc := ⟨.hbm, 142, rfl⟩
abbrev main_v114 : Ref sig .tc := ⟨.hbm, 143, rfl⟩
abbrev main_v115 : Ref sig .tc := ⟨.hbm, 144, rfl⟩
abbrev main_cst_16 : Ref sig .tc := ⟨.hbm, 145, rfl⟩
abbrev main_call0_v0 : Ref sig .tc := ⟨.hbm, 146, rfl⟩
abbrev main_v116 : Ref sig .tc := ⟨.hbm, 147, rfl⟩
abbrev main_cst_17 : Ref sig .tc := ⟨.hbm, 148, rfl⟩
abbrev main_v117 : Ref sig .tc := ⟨.hbm, 149, rfl⟩
abbrev main_cst_18 : Ref sig .tc := ⟨.hbm, 150, rfl⟩
abbrev main_v118 : Ref sig .tc := ⟨.hbm, 151, rfl⟩
abbrev main_v119 : Ref sig .tc := ⟨.hbm, 152, rfl⟩
abbrev main_cst_19 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]

class Facts₀ : Prop where
  slices_S1000000x4_S1000000x2_0_2 : S1000000x4.Slices ![0, 2] S1000000x2
  reducesTo_S1000000x2_S_d0_1 : S1000000x2.ReducesTo [0, 1] S_
  h_S_ : 0 < S_.numel
  slices_S1000000x4_S1000000x2_0_0 : S1000000x4.Slices ![0, 0] S1000000x2
  slices_S1x4_S1x2_0_0 : S1x4.Slices ![0, 0] S1x2
  bcast_S_S1x2 : S_.BroadcastsInDim S1x2 (![] : Fin 0 → Fin S1x2.rank)
  bcast_S1x2_S1000000x2_0_1 : S1x2.BroadcastsInDim S1000000x2 (![0, 1] : Fin 2 → Fin S1000000x2.rank)
  bcast_S1x2_S4000000x2_0_1 : S1x2.BroadcastsInDim S4000000x2 (![0, 1] : Fin 2 → Fin S4000000x2.rank)
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S4000000_S4000000_S8000000_d0 : Shape.Concatenates [S4000000, S4000000] S8000000 0
  concatenates_S4000000x2_S4000000x2_S8000000x2_d0 : Shape.Concatenates [S4000000x2, S4000000x2] S8000000x2 0
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  concatenates_S8000000x1_S8000000x1_S8000000x2_d1 : Shape.Concatenates [S8000000x1, S8000000x1] S8000000x2 1
  bcast_S_S1000000x2 : S_.BroadcastsInDim S1000000x2 (![] : Fin 0 → Fin S1000000x2.rank)
  slices_S1x4_S1x2_0_2 : S1x4.Slices ![0, 2] S1x2
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  reducesTo_S1000000_S_d0 : S1000000.ReducesTo [0] S_
  gather_S1000000x2_S8000000x1_S8000000x2_1_0_n_n_0_1_12_wf : GatherDims.WF S1000000x2 S8000000x1 S8000000x2 [1] [0] [] [0] [] 1 ![1, 2]
  scatter_S1000000x2_S8000000x1_S8000000x2_1_0_0_1_wf : ScatterDims.WF S1000000x2 S8000000x1 S8000000x2 [1] [0] [0] 1

variable [Facts₀]

def gather_S1000000x2_S8000000x1_S8000000x2_1_0_n_n_0_1_12 : GatherDims S1000000x2 S8000000x1 S8000000x2 where
  offsetDims := [1]
  collapsedSliceDims := [0]
  operandBatchingDims := []
  startIndicesBatchingDims := []
  startIndexMap := [0]
  indexVectorDim := 1
  sliceSizes := ![1, 2]
  wf := gather_S1000000x2_S8000000x1_S8000000x2_1_0_n_n_0_1_12_wf
def scatter_S1000000x2_S8000000x1_S8000000x2_1_0_0_1 : ScatterDims S1000000x2 S8000000x1 S8000000x2 where
  updateWindowDims := [1]
  insertedWindowDims := [0]
  scatterDimsToOperandDims := [0]
  indexVectorDim := 1
  wf := scatter_S1000000x2_S8000000x1_S8000000x2_1_0_0_1_wf

class Facts : Prop extends Facts₀ where

variable [Facts]
-- ==== Proof.Spec.lean ====
/-
  The loss, written once over the extended reals.

  From node values `pe` (two columns, e and f), targets `ty` and weights `mk` (four columns), edge end points `ei`
  (two rows of index words), edge attributes `ea`, bus kinds `bt`, target magnitudes `tv` and the four normalisation
  rows, four numbers are computed:
    • the weighted squared error of (e, f) against the targets' last two columns, over the weights' sum plus a constant;
    • the power imbalance: each edge, in both directions, sends its end point a pair (P, Q) computed from the two end
      points' (e, f) and the edge's (g, b); a node's pair is the sum of what it is sent, and the imbalance is the mean
      square of the de-normalised first two target columns plus that pair;
    • the mean, over the nodes whose kind is 1, of | e'² + f'² − tv² | with (e', f') the de-normalised node values
      (zero when there is no such node);
    • the three combined with weights.
  Every sum here is a finite sum in the extended reals, whose addition is commutative and associative for all values,
  so the order and grouping in which a program adds the same terms does not matter.
  An index word names a row in two ways: for READING a row it is first shifted by the row count when negative and then
  clamped into range (`rowOf`); for ADDING into a row it is read signed as it is, and a word naming no row adds nothing.
-/
import Idealize.ShloMosaic.PureOps.Ideal
import Idealize.ShloMosaic.Lib.ValueIdx

noncomputable section

namespace Cert.Spec

open Idealize.ShloMosaic Idealize.ShloMosaic.ValueIdx

/-! ## The arrays -/

abbrev N2 : Type := (⟨2, ![1000000, 2]⟩ : Shape).Idx → EReal
abbrev N4 : Type := (⟨2, ![1000000, 4]⟩ : Shape).Idx → EReal
abbrev E2 : Type := (⟨2, ![4000000, 2]⟩ : Shape).Idx → EReal
abbrev R4 : Type := (⟨2, ![1, 4]⟩ : Shape).Idx → EReal
abbrev R2 : Type := (⟨2, ![1, 2]⟩ : Shape).Idx → EReal
abbrev EI : Type := (⟨2, ![2, 4000000]⟩ : Shape).Idx → BitVec 32
/-- A scalar result. -/
abbrev S0 : Shape := ⟨0, ![]⟩
abbrev Sc : Type := FVec Ideal S0 .f32
/-- A number as a scalar array. -/
def sc (x : EReal) : Sc := fun _ => x

/-- The small constant added to each normalisation scale. -/
def eps : EReal := Ideal.ofBits .f32 0x33D6BF95#32

/-- Column `j` of the first two, and of the last two, of four columns. -/
def lo (j : Fin 2) : Fin 4 := ⟨j.val, by omega⟩
def hi (j : Fin 2) : Fin 4 := ⟨2 + j.val, by omega⟩

/-! ## The node sums -/

/-- The weighted squared error of (e, f) against the targets' last two columns. -/
def sumSq (pe : N2) (ty mk : N4) : EReal :=
  ∑ r : Fin 1000000, ∑ j : Fin 2,
    (pe (ix2 r j) - ty (ix2 r (hi j))) * (pe (ix2 r j) - ty (ix2 r (hi j))) * mk (ix2 r (hi j))

/-- The sum of the weights' last two columns. -/
def sumMask (mk : N4) : EReal := ∑ r : Fin 1000000, ∑ j : Fin 2, mk (ix2 r (hi j))

/-- The de-normalised target of the first two columns plus the node's summed pair. -/
def imbalance (ty : N4) (xs xm : R4) (nf : N2) (r : Fin 1000000) (j : Fin 2) : EReal :=
  (ty (ix2 r (lo j)) * (xs (ix2 0 (lo j)) + eps) + xm (ix2 0 (lo j))) + nf (ix2 r j)

/-- The sum of the squared imbalances. -/
def sumPhys (ty : N4) (xs xm : R4) (nf : N2) : EReal :=
  ∑ r : Fin 1000000, ∑ j : Fin 2, imbalance ty xs xm nf r j * imbalance ty xs xm nf r j

/-- The de-normalised node value, column `j`. -/
def efReal (pe : N2) (xs xm : R4) (r : Fin 1000000) (j : Fin 2) : EReal :=
  pe (ix2 r j) * (xs (ix2 0 (hi j)) + eps) + xm (ix2 0 (hi j))

/-- One when the bus kind is 1, else zero. -/
def isPv (w : BitVec 32) : EReal := (((IntOp.cmpi .eq w 1#32).toNat : ℝ) : EReal)

/-- e'² + f'² − tv², before the absolute value. -/
def vmDiff (pe : N2) (xs xm : R4) (tv : Fin 1000000 → EReal) (r : Fin 1000000) : EReal :=
  (efReal pe xs xm r 0 * efReal pe xs xm r 0 + efReal pe xs xm r 1 * efReal pe xs xm r 1) - tv r * tv r

/-- The sum, over the nodes of kind 1, of the absolute magnitude error. -/
def sumPv (pe : N2) (xs xm : R4) (tv : Fin 1000000 → EReal) (bt : Fin 1000000 → BitVec 32) : EReal :=
  ∑ r : Fin 1000000, max (vmDiff pe xs xm tv r) (-(vmDiff pe xs xm tv r)) * isPv (bt r)

/-- The number of nodes of kind 1. -/
def cnt (bt : Fin 1000000 → BitVec 32) : EReal := ∑ r : Fin 1000000, isPv (bt r)

/-! ## The edges -/

/-- The de-normalised edge attribute, column `j` (g at 0, b at 1). -/
def gb (ea : E2) (es em : R2) (e : Fin 4000000) (j : Fin 2) : EReal :=
  ea (ix2 e j) * (es (ix2 0 j) + eps) + em (ix2 0 j)

/-- The pair an edge sends the end point `i` from the other end point `j`: P, then Q. -/
def flowP (ei fi ej fj g b : EReal) : EReal :=
  g * ((ei * ei + fi * fi) - (ei * ej + fi * fj)) - b * (fi * ej - ei * fj)
def flowQ (ei fi ej fj g b : EReal) : EReal :=
  (-b) * ((ei * ei + fi * fi) - (ei * ej + fi * fj)) - g * (fi * ej - ei * fj)

/-- The pairs of all edges, from the receiving end points' rows `xi` and the other end points' rows `xj`. -/
def msg (xi xj ea : E2) (es em : R2) : E2 := fun i =>
  if (i 1).val = 0 then
    flowP (xi (ix2 (n0 := 4000000) (n1 := 2) (i 0) 0)) (xi (ix2 (n0 := 4000000) (n1 := 2) (i 0) 1))
      (xj (ix2 (n0 := 4000000) (n1 := 2) (i 0) 0)) (xj (ix2 (n0 := 4000000) (n1 := 2) (i 0) 1))
      (gb ea es em (i 0) 0) (gb ea es em (i 0) 1)
  else
    flowQ (xi (ix2 (n0 := 4000000) (n1 := 2) (i 0) 0)) (xi (ix2 (n0 := 4000000) (n1 := 2) (i 0) 1))
      (xj (ix2 (n0 := 4000000) (n1 := 2) (i 0) 0)) (xj (ix2 (n0 := 4000000) (n1 := 2) (i 0) 1))
      (gb ea es em (i 0) 0) (gb ea es em (i 0) 1)

/-- An index word made ready for reading a row: shifted by the row count when negative. -/
def normw (w : BitVec 32) : BitVec 32 := Scalar.select (IntOp.cmpi .slt w 0#32) (IntOp.addi w 1000000#32) w

/-- The row an index word reads: the shifted word, read signed, clamped into the rows. -/
def rowOf (w : BitVec 32) : Fin 1000000 :=
  ⟨min (normw w).toInt.toNat 999999, Nat.lt_succ_of_le (Nat.min_le_right _ _)⟩

/-- The node rows at the edges' end points `s` (0: first row of `ei`, 1: second). -/
def gath (pe : N2) (ei : EI) (s : Fin 2) : E2 := fun i =>
  pe (ix2 (rowOf (ei (ix2 (n0 := 2) (n1 := 4000000) s (i 0)))) (i 1))

/-- A node's summed pair: what the edges whose first end point it is send forward, plus what those whose second end
    point it is send backward; the end point words read signed, unshifted. -/
def nodeFlow (ei : EI) (fwd bwd : E2) : N2 := fun i =>
  (∑ e ∈ Finset.univ.filter (fun e : Fin 4000000 => (ei (ix2 0 e)).toInt = ((i 0).val : ℤ)),
      fwd (ix2 (n0 := 4000000) (n1 := 2) e (i 1)))
  + (∑ e ∈ Finset.univ.filter (fun e : Fin 4000000 => (ei (ix2 1 e)).toInt = ((i 0).val : ℤ)),
      bwd (ix2 (n0 := 4000000) (n1 := 2) e (i 1)))

/-- The pairs sent to the first end points, and to the second. -/
def fwdOf (pe : N2) (ei : EI) (ea : E2) (es em : R2) : E2 := msg (gath pe ei 0) (gath pe ei 1) ea es em
def bwdOf (pe : N2) (ei : EI) (ea : E2) (es em : R2) : E2 := msg (gath pe ei 1) (gath pe ei 0) ea es em
def nodeFlowOf (pe : N2) (ei : EI) (ea : E2) (es em : R2) : N2 := nodeFlow ei (fwdOf pe ei ea es em) (bwdOf pe ei ea es em)

/-! ## From the five sums to the four results -/

def lossMse (sq mk : Sc) : Sc := Host.divf sq (addf mk (constant (F := Ideal) S0 .f32 0x358637BD#32))
def lossPhys (ph : Sc) : Sc := Host.divf ph (constant (F := Ideal) S0 .f32 0x49F42400#32)
def lossPv (pv cn : Sc) : Sc :=
  select (cmpf .ogt cn (constant (F := Ideal) S0 .f32 0x00000000#32))
    (Host.divf pv (maximumf cn (constant (F := Ideal) S0 .f32 0x3F800000#32)))
    (constant (F := Ideal) S0 .f32 0x00000000#32)
def total (mse ph pv : Sc) : Sc :=
  addf (addf (mulf (constant (F := Ideal) S0 .f32 0x3F4CCCCD#32) mse) (mulf (constant (F := Ideal) S0 .f32 0x3E4CCCCD#32) ph))
    (mulf (constant (F := Ideal) S0 .f32 0x3DCCCCCD#32) pv)

/-! ## The four results of the eleven inputs -/

def rMse (pe : N2) (ty mk : N4) : Sc := lossMse (sc (sumSq pe ty mk)) (sc (sumMask mk))
def rPhys (pe : N2) (ty : N4) (ei : EI) (ea : E2) (xm xs : R4) (em es : R2) : Sc :=
  lossPhys (sc (sumPhys ty xs xm (nodeFlowOf pe ei ea es em)))
def rPv (pe : N2) (bt : Fin 1000000 → BitVec 32) (tv : Fin 1000000 → EReal) (xm xs : R4) : Sc :=
  lossPv (sc (sumPv pe xs xm tv bt)) (sc (cnt bt))
def rTotal (pe : N2) (ty mk : N4) (ei : EI) (ea : E2) (bt : Fin 1000000 → BitVec 32) (tv : Fin 1000000 → EReal)
    (xm xs : R4) (em es : R2) : Sc :=
  total (rMse pe ty mk) (rPhys pe ty ei ea xm xs em es) (rPv pe bt tv xm xs)

end Cert.Spec

end
-- ==== Proof.KTail.lean ====
/-
  The host operations after the second grid: the five one-element outputs are read as scalars, the weighted squared error
  is divided by the weights' sum plus a constant, the imbalance sum by the number of summed entries, the magnitude sum by
  the larger of the count and one (and replaced by zero when the count is not positive), and the three are combined with
  weights. These are the specification's `lossMse`, `lossPhys`, `lossPv` and `total` applied to the five scalars.
-/
import proofs.«161120_j88115549044894_1_alg».proof.Proof.Gen.KernelIdeal.Frame
import proofs.«161120_j88115549044894_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen

variable (m : (ℓ : Loc nD τ sig) → Buf (Elt Ideal) ℓ) (ρ : Dev nD → PrngReg)

/-- A one-element array read as a scalar. -/
abbrev s11 (x : FVec Ideal S1x1 .f32) : Cert.Spec.Sc := shapeCast S_ x shapeCasts_S1x1_S_

/-- The five scalars the second grid leaves. -/
abbrev oSq (c : Dev nD) : Cert.Spec.Sc := s11 ((dat1 (F := Ideal) (V3 m ρ) c).arrAt 8 cfg1.N)
abbrev oMask (c : Dev nD) : Cert.Spec.Sc := s11 ((dat1 (F := Ideal) (V3 m ρ) c).arrAt 9 cfg1.N)
abbrev oPhys (c : Dev nD) : Cert.Spec.Sc := s11 ((dat1 (F := Ideal) (V3 m ρ) c).arrAt 10 cfg1.N)
abbrev oPv (c : Dev nD) : Cert.Spec.Sc := s11 ((dat1 (F := Ideal) (V3 m ρ) c).arrAt 11 cfg1.N)
abbrev oCnt (c : Dev nD) : Cert.Spec.Sc := s11 ((dat1 (F := Ideal) (V3 m ρ) c).arrAt 12 cfg1.N)

/-- The second grid's output arrays, at the boundary after it. -/
theorem W4_sq (c : Dev nD) : W4 m ρ c (Proc.devRef .tc main_v28_0) = (dat1 (F := Ideal) (V3 m ρ) c).arrAt 8 cfg1.N := W4_arr m ρ c 8
theorem W4_mask (c : Dev nD) : W4 m ρ c (Proc.devRef .tc main_v28_1) = (dat1 (F := Ideal) (V3 m ρ) c).arrAt 9 cfg1.N := W4_arr m ρ c 9
theorem W4_phys (c : Dev nD) : W4 m ρ c (Proc.devRef .tc main_v28_2) = (dat1 (F := Ideal) (V3 m ρ) c).arrAt 10 cfg1.N := W4_arr m ρ c 10
theorem W4_pv (c : Dev nD) : W4 m ρ c (Proc.devRef .tc main_v28_3) = (dat1 (F := Ideal) (V3 m ρ) c).arrAt 11 cfg1.N := W4_arr m ρ c 11
theorem W4_cnt (c : Dev nD) : W4 m ρ c (Proc.devRef .tc main_v28_4) = (dat1 (F := Ideal) (V3 m ρ) c).arrAt 12 cfg1.N := W4_arr m ρ c 12

theorem W7_mse (c : Dev nD) :
    W7 m ρ c (Proc.devRef .tc main_v35) = Cert.Spec.lossMse (oSq m ρ c) (oMask m ρ c) := by
  show StableHlo.after hostOps2_2 (StableHlo.after hostOps2_1 (StableHlo.after hostOps2 (W4 m ρ c))) (Proc.devRef .tc main_v35) = _
  after_results
  rw [W4_sq, W4_mask]
  rfl

theorem W7_phys (c : Dev nD) :
    W7 m ρ c (Proc.devRef .tc main_v36) = Cert.Spec.lossPhys (oPhys m ρ c) := by
  show StableHlo.after hostOps2_2 (StableHlo.after hostOps2_1 (StableHlo.after hostOps2 (W4 m ρ c))) (Proc.devRef .tc main_v36) = _
  after_results
  rw [W4_phys]
  rfl

theorem W7_pv (c : Dev nD) :
    W7 m ρ c (Proc.devRef .tc main_v40) = Cert.Spec.lossPv (oPv m ρ c) (oCnt m ρ c) := by
  show StableHlo.after hostOps2_2 (StableHlo.after hostOps2_1 (StableHlo.after hostOps2 (W4 m ρ c))) (Proc.devRef .tc main_v40) = _
  after_results_simp
  rw [W4_pv, W4_cnt]
  unfold oPv oCnt
  generalize (dat1 (F := Ideal) (V3 m ρ) c).arrAt 11 cfg1.N = a11
  generalize (dat1 (F := Ideal) (V3 m ρ) c).arrAt 12 cfg1.N = a12
  simp only [StableHlo.TRef.ofBuf, StableHlo.TRef.toBuf, cast_eq]
  rfl

set_option maxHeartbeats 2000000 in
theorem W7_total (c : Dev nD) :
    W7 m ρ c (Proc.devRef .tc main_v45)
      = Cert.Spec.total (Cert.Spec.lossMse (oSq m ρ c) (oMask m ρ c)) (Cert.Spec.lossPhys (oPhys m ρ c))
          (Cert.Spec.lossPv (oPv m ρ c) (oCnt m ρ c)) := by
  show StableHlo.after hostOps2_2 (StableHlo.after hostOps2_1 (StableHlo.after hostOps2 (W4 m ρ c))) (Proc.devRef .tc main_v45) = _
  after_results_simp
  rw [W4_sq, W4_mask, W4_phys, W4_pv, W4_cnt]
  unfold oSq oMask oPhys oPv oCnt
  generalize (dat1 (F := Ideal) (V3 m ρ) c).arrAt 8 cfg1.N = a8
  generalize (dat1 (F := Ideal) (V3 m ρ) c).arrAt 9 cfg1.N = a9
  generalize (dat1 (F := Ideal) (V3 m ρ) c).arrAt 10 cfg1.N = a10
  generalize (dat1 (F := Ideal) (V3 m ρ) c).arrAt 11 cfg1.N = a11
  generalize (dat1 (F := Ideal) (V3 m ρ) c).arrAt 12 cfg1.N = a12
  simp only [StableHlo.TRef.ofBuf, StableHlo.TRef.toBuf, cast_eq]
  rfl

/-- A number laid out as a one-element array, read as a scalar, is that number. -/
theorem s11_const (x : EReal) : s11 (fun _ => x) = Cert.Spec.sc x := rfl

end Cert.KernelIdeal.KTail

end
-- ==== Proof.EdgeValue.lean ====
/-
  The first grid: each of its 625 points takes 6400 consecutive edges and writes, for every edge of the block, the pair
  (P, Q) sent to the first end point (one output array) and the pair sent to the second (the other). Block t of either
  output is rows 6400·t … 6400·t + 6399, the blocks tile the 4 000 000 rows, and an entry depends only on its own edge's
  row of the three edge-indexed inputs and on the two normalisation rows; so each output array is one function of the
  input arrays, entry by entry.

  The steps. One edge of a block: the body's columns are the block's columns, the de-normalised attribute is
  attribute × (scale + ε) + mean read at the edge's row, and the four stored columns are P and Q of the first end point
  from the second and of the second from the first (the body's 0 − b is −b in the extended reals). A block stored as two
  columns reads back column by column. A block's row p at point t is row 6400·t + p of its array, the normalisation
  rows are the arrays' own, so what point t writes back is block t of the specification's pairs; the point r / 6400
  covers row r, so the arrays end holding the specification's pairs everywhere.
-/
import proofs.«161120_j88115549044894_1_alg».proof.Proof.Gen.KernelIdeal.Frame
import proofs.«161120_j88115549044894_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.EdgeValue

open Cert.KernelIdeal Cert.KernelIdeal.Gen

variable (V : (c : Dev nD) → (b : Ref sig .tc) → Buf (Elt Ideal) ((c : Thread nD τ).loc b))

/-! ## One edge of a block: the columns, the de-normalised attribute, the two pairs -/

theorem zeros2 : (![0, 0] : Fin 2 → Nat) = fun _ => 0 := funext fun a => by fin_cases a <;> rfl

/-- Column 0 of a two-column block, read at row `p`. -/
theorem col0_apply (x : FVec Ideal S6400x2 .f32) (p : Fin 6400) :
    extractStridedSlice S6400x1 ![0, 0] x slices_S6400x2_o0_0_S6400x1 (ix2 p (0 : Fin 1)) = x (ix2 p (0 : Fin 2)) :=
  extractStridedSlice_apply _ x _ _ _ fun a => by
    match a with
    | ⟨0, _⟩ => show p.val = 0 + p.val; omega
    | ⟨1, _⟩ => rfl

/-- Column 1 of a two-column block, read at row `p`. -/
theorem col1_apply (x : FVec Ideal S6400x2 .f32) (p : Fin 6400) :
    extractStridedSlice S6400x1 ![0, 1] x slices_S6400x2_o0_1_S6400x1 (ix2 p (0 : Fin 1)) = x (ix2 p (1 : Fin 2)) :=
  extractStridedSlice_apply _ x _ _ _ fun a => by
    match a with
    | ⟨0, _⟩ => show p.val = 0 + p.val; omega
    | ⟨1, _⟩ => rfl

/-- A one-row array repeated down the block's rows, read at row `p`, column `q`: the row's column `q`. -/
theorem row_apply (x : FVec Ideal S1x2 .f32) (p : Fin 6400) (q : Fin 2) :
    broadcastTo S6400x2 x broadcasts_S1x2_S6400x2 (ix2 p q) = x (ix2 (0 : Fin 1) q) :=
  broadcastTo_apply x _ _ _ fun a => by
    match a with
    | ⟨0, _⟩ => rfl
    | ⟨1, _⟩ => rfl

/-- Column `q` of row `p` of a block of edge attributes, de-normalised by the scale row `x4` and the mean row `x3`. -/
def gbRow (x2 : Vec Ideal S6400x2 .f32) (x3 x4 : Vec Ideal S1x2 .f32) (p : Fin 6400) (q : Fin 2) : EReal :=
  x2 (ix2 p q) * (x4 (ix2 (0 : Fin 1) q) + Cert.Spec.eps) + x3 (ix2 (0 : Fin 1) q)

/-- What row `p` of a block sends the end point whose rows are `xi`, the other end point's rows being `xj`: P at
    column 0, Q at column 1. -/
def rowMsg (xi xj x2 : Vec Ideal S6400x2 .f32) (x3 x4 : Vec Ideal S1x2 .f32) (p : Fin 6400) (q : Fin 2) : EReal :=
  if q.val = 0 then
    Cert.Spec.flowP (xi (ix2 p (0 : Fin 2))) (xi (ix2 p (1 : Fin 2))) (xj (ix2 p (0 : Fin 2))) (xj (ix2 p (1 : Fin 2)))
      (gbRow x2 x3 x4 p 0) (gbRow x2 x3 x4 p 1)
  else
    Cert.Spec.flowQ (xi (ix2 p (0 : Fin 2))) (xi (ix2 p (1 : Fin 2))) (xj (ix2 p (0 : Fin 2))) (xj (ix2 p (1 : Fin 2)))
      (gbRow x2 x3 x4 p 0) (gbRow x2 x3 x4 p 1)

section Payload
variable (x0 x1 x2 : Vec Ideal S6400x2 .f32) (x3 x4 : Vec Ideal S1x2 .f32) (p : Fin 6400)

/-- e of the first end point … -/
theorem pay9_apply : k0_pay9 x0 (ix2 p (0 : Fin 1)) = x0 (ix2 p (0 : Fin 2)) := by
  unfold k0_pay9 k0_pay6
  rw [shapeCast_self]
  exact col0_apply x0 p
/-- … its f … -/
theorem pay10_apply : k0_pay10 x0 (ix2 p (0 : Fin 1)) = x0 (ix2 p (1 : Fin 2)) := by
  unfold k0_pay10 k0_pay6
  rw [shapeCast_self]
  exact col1_apply x0 p
/-- … e of the second end point … -/
theorem pay11_apply : k0_pay11 x1 (ix2 p (0 : Fin 1)) = x1 (ix2 p (0 : Fin 2)) := by
  unfold k0_pay11 k0_pay7
  rw [shapeCast_self]
  exact col0_apply x1 p
/-- … and its f. -/
theorem pay12_apply : k0_pay12 x1 (ix2 p (0 : Fin 1)) = x1 (ix2 p (1 : Fin 2)) := by
  unfold k0_pay12 k0_pay7
  rw [shapeCast_self]
  exact col1_apply x1 p

/-- The de-normalised attributes, both columns at once. -/
theorem pay8_apply (q : Fin 2) : k0_pay8 x2 x3 x4 (ix2 p q) = gbRow x2 x3 x4 p q := by
  unfold k0_pay8 gbRow Cert.Spec.eps
  show x2 (ix2 p q) * broadcastTo S6400x2 (addf (F := Ideal) x4 (broadcast S1x2 (Scalar.ofBits (F := Ideal) .f32 0x33D6BF95#32))) broadcasts_S1x2_S6400x2 (ix2 p q)
      + broadcastTo S6400x2 x3 broadcasts_S1x2_S6400x2 (ix2 p q) = _
  rw [row_apply, row_apply]
  rfl
/-- g … -/
theorem pay13_apply : k0_pay13 x2 x3 x4 (ix2 p (0 : Fin 1)) = gbRow x2 x3 x4 p 0 := by
  unfold k0_pay13
  exact (col0_apply _ p).trans (pay8_apply x2 x3 x4 p 0)
/-- … and b. -/
theorem pay14_apply : k0_pay14 x2 x3 x4 (ix2 p (0 : Fin 1)) = gbRow x2 x3 x4 p 1 := by
  unfold k0_pay14
  exact (col1_apply _ p).trans (pay8_apply x2 x3 x4 p 1)

/-- Column 0 sent forward is P of the first end point from the second. -/
theorem pay18_apply : k0_pay18 x0 x1 x2 x3 x4 (ix2 p (0 : Fin 1)) = rowMsg x0 x1 x2 x3 x4 p 0 := by
  unfold k0_pay18 k0_pay17 k0_pay15 k0_pay16
  show k0_pay13 x2 x3 x4 (ix2 p (0 : Fin 1))
        * ((k0_pay9 x0 (ix2 p (0 : Fin 1)) * k0_pay9 x0 (ix2 p (0 : Fin 1)) + k0_pay10 x0 (ix2 p (0 : Fin 1)) * k0_pay10 x0 (ix2 p (0 : Fin 1)))
          - (k0_pay9 x0 (ix2 p (0 : Fin 1)) * k0_pay11 x1 (ix2 p (0 : Fin 1)) + k0_pay10 x0 (ix2 p (0 : Fin 1)) * k0_pay12 x1 (ix2 p (0 : Fin 1))))
      - k0_pay14 x2 x3 x4 (ix2 p (0 : Fin 1))
        * (k0_pay10 x0 (ix2 p (0 : Fin 1)) * k0_pay11 x1 (ix2 p (0 : Fin 1)) - k0_pay9 x0 (ix2 p (0 : Fin 1)) * k0_pay12 x1 (ix2 p (0 : Fin 1))) = _
  rw [pay9_apply, pay10_apply, pay11_apply, pay12_apply, pay13_apply, pay14_apply]
  rfl

end Payload

section Payload2
variable (x0 x1 x2 : Vec Ideal S6400x2 .f32) (x3 x4 : Vec Ideal S1x2 .f32) (p : Fin 6400)

/-- Column 1 sent forward is Q of the first end point from the second; the body forms −b as 0 − b. -/
theorem pay19_apply : k0_pay19 x0 x1 x2 x3 x4 (ix2 p (0 : Fin 1)) = rowMsg x0 x1 x2 x3 x4 p 1 := by
  unfold k0_pay19 k0_pay17 k0_pay15 k0_pay16
  show (Ideal.ofBits .f32 0x00000000#32 - k0_pay14 x2 x3 x4 (ix2 p (0 : Fin 1)))
        * ((k0_pay9 x0 (ix2 p (0 : Fin 1)) * k0_pay9 x0 (ix2 p (0 : Fin 1)) + k0_pay10 x0 (ix2 p (0 : Fin 1)) * k0_pay10 x0 (ix2 p (0 : Fin 1)))
          - (k0_pay9 x0 (ix2 p (0 : Fin 1)) * k0_pay11 x1 (ix2 p (0 : Fin 1)) + k0_pay10 x0 (ix2 p (0 : Fin 1)) * k0_pay12 x1 (ix2 p (0 : Fin 1))))
      - k0_pay13 x2 x3 x4 (ix2 p (0 : Fin 1))
        * (k0_pay10 x0 (ix2 p (0 : Fin 1)) * k0_pay11 x1 (ix2 p (0 : Fin 1)) - k0_pay9 x0 (ix2 p (0 : Fin 1)) * k0_pay12 x1 (ix2 p (0 : Fin 1))) = _
  rw [pay9_apply, pay10_apply, pay11_apply, pay12_apply, pay13_apply, pay14_apply, Ideal.ofBits_zero_f32, zero_sub]
  rfl

/-- The product of the two end points' e, as the body keeps it for the backward pair. -/
theorem pay20_apply : k0_pay20 x0 x1 (ix2 p (0 : Fin 1)) = x1 (ix2 p (0 : Fin 2)) * x0 (ix2 p (0 : Fin 2)) := by
  unfold k0_pay20
  show k0_pay11 x1 (ix2 p (0 : Fin 1)) * k0_pay9 x0 (ix2 p (0 : Fin 1)) = _
  rw [pay9_apply, pay11_apply]

/-- Column 0 sent backward is P of the second end point from the first: the same formula with the end points exchanged. -/
theorem pay4_apply :
    k0_pay4 (k0_pay9 x0) (k0_pay10 x0) (k0_pay11 x1) (k0_pay12 x1) (k0_pay13 x2 x3 x4) (k0_pay14 x2 x3 x4) (k0_pay20 x0 x1) (ix2 p (0 : Fin 1))
      = rowMsg x1 x0 x2 x3 x4 p 0 := by
  unfold k0_pay4 k0_pay3 k0_pay1 k0_pay2
  show k0_pay13 x2 x3 x4 (ix2 p (0 : Fin 1))
        * ((k0_pay11 x1 (ix2 p (0 : Fin 1)) * k0_pay11 x1 (ix2 p (0 : Fin 1)) + k0_pay12 x1 (ix2 p (0 : Fin 1)) * k0_pay12 x1 (ix2 p (0 : Fin 1)))
          - (k0_pay20 x0 x1 (ix2 p (0 : Fin 1)) + k0_pay12 x1 (ix2 p (0 : Fin 1)) * k0_pay10 x0 (ix2 p (0 : Fin 1))))
      - k0_pay14 x2 x3 x4 (ix2 p (0 : Fin 1))
        * (k0_pay12 x1 (ix2 p (0 : Fin 1)) * k0_pay9 x0 (ix2 p (0 : Fin 1)) - k0_pay11 x1 (ix2 p (0 : Fin 1)) * k0_pay10 x0 (ix2 p (0 : Fin 1))) = _
  rw [pay20_apply, pay9_apply, pay10_apply, pay11_apply, pay12_apply, pay13_apply, pay14_apply]
  rfl

/-- Column 1 sent backward is Q of the second end point from the first. -/
theorem pay5_apply :
    k0_pay5 (k0_pay9 x0) (k0_pay10 x0) (k0_pay11 x1) (k0_pay12 x1) (k0_pay13 x2 x3 x4) (k0_pay14 x2 x3 x4) (k0_pay20 x0 x1) (ix2 p (0 : Fin 1))
      = rowMsg x1 x0 x2 x3 x4 p 1 := by
  unfold k0_pay5 k0_pay3 k0_pay1 k0_pay2
  show (Ideal.ofBits .f32 0x00000000#32 - k0_pay14 x2 x3 x4 (ix2 p (0 : Fin 1)))
        * ((k0_pay11 x1 (ix2 p (0 : Fin 1)) * k0_pay11 x1 (ix2 p (0 : Fin 1)) + k0_pay12 x1 (ix2 p (0 : Fin 1)) * k0_pay12 x1 (ix2 p (0 : Fin 1)))
          - (k0_pay20 x0 x1 (ix2 p (0 : Fin 1)) + k0_pay12 x1 (ix2 p (0 : Fin 1)) * k0_pay10 x0 (ix2 p (0 : Fin 1))))
      - k0_pay13 x2 x3 x4 (ix2 p (0 : Fin 1))
        * (k0_pay12 x1 (ix2 p (0 : Fin 1)) * k0_pay9 x0 (ix2 p (0 : Fin 1)) - k0_pay11 x1 (ix2 p (0 : Fin 1)) * k0_pay10 x0 (ix2 p (0 : Fin 1))) = _
  rw [pay20_apply, pay9_apply, pay10_apply, pay11_apply, pay12_apply, pay13_apply, pay14_apply, Ideal.ofBits_zero_f32, zero_sub]
  rfl

end Payload2

/-! ## A block stored as two columns -/

/-- A block whose column 1 is stored by the piece listed first and column 0 by the other: an entry of column 0 lies
    outside the first piece and is the second piece's entry … -/
theorem twoCols_col0 (w1 w0 : Vec Ideal S6400x1 .f32) (p : Fin 6400) :
    View.canon ([⟨r0_3, w1⟩, ⟨r0_2, w0⟩] : List (View.Piece (Elt Ideal) S6400x2 .f32)) (ix2 p (0 : Fin 2))
      = w0 (ix2 p (0 : Fin 1)) := by
  have hout : (ix2 p (0 : Fin 2) : S6400x2.Idx) ∉ (⟨r0_3, w1⟩ : View.Piece (Elt Ideal) S6400x2 .f32).1.set := by
    intro h
    have h1 := ((Rect.mem_set_unit (s := S6400x2) (off := ![0, 1]) (size := S6400x1.size) (inb := inb_S6400x2_S6400x1_0_1)).mp h 1).1
    exact absurd (show (1 : Nat) ≤ 0 from h1) (by omega)
  rw [View.canon_cons_of_not_mem (⟨r0_3, w1⟩ : View.Piece (Elt Ideal) S6400x2 .f32) [⟨r0_2, w0⟩] hout]
  have e : (ix2 p (0 : Fin 2) : S6400x2.Idx) = r0_2.emb (ix2 p (0 : Fin 1)) := by
    funext a; apply Fin.ext
    match a with
    | ⟨0, _⟩ => show p.val = 0 + 1 * p.val; omega
    | ⟨1, _⟩ => rfl
  rw [e]
  exact View.canon_cons_emb r0_2 w0 [] _

/-- … and an entry of column 1 is the first piece's. -/
theorem twoCols_col1 (w1 w0 : Vec Ideal S6400x1 .f32) (p : Fin 6400) :
    View.canon ([⟨r0_3, w1⟩, ⟨r0_2, w0⟩] : List (View.Piece (Elt Ideal) S6400x2 .f32)) (ix2 p (1 : Fin 2))
      = w1 (ix2 p (0 : Fin 1)) := by
  have e : (ix2 p (1 : Fin 2) : S6400x2.Idx) = r0_3.emb (ix2 p (0 : Fin 1)) := by
    funext a; apply Fin.ext
    match a with
    | ⟨0, _⟩ => show p.val = 0 + 1 * p.val; omega
    | ⟨1, _⟩ => rfl
  rw [e]
  exact View.canon_cons_emb r0_3 w1 _ _

section Blocks
variable (x0 x1 x2 : Vec Ideal S6400x2 .f32) (x3 x4 : Vec Ideal S1x2 .f32) (p : Fin 6400) (q : Fin 2)

/-- What the body leaves in the forward output's block, entry by entry. -/
theorem out5_apply : out0_5 x0 x1 x2 x3 x4 (ix2 p q) = rowMsg x0 x1 x2 x3 x4 p q := by
  unfold out0_5
  rw [View.ld_unit_zero (S := S6400x2) zeros2, View.ld_unit_zero (S := S6400x2) zeros2, View.ld_unit_zero (S := S6400x2) zeros2,
    View.ld_unit_zero (S := S1x2) zeros2, View.ld_unit_zero (S := S1x2) zeros2]
  match q with
  | ⟨0, _⟩ => exact (twoCols_col0 _ _ p).trans (pay18_apply x0 x1 x2 x3 x4 p)
  | ⟨1, _⟩ => exact (twoCols_col1 _ _ p).trans (pay19_apply x0 x1 x2 x3 x4 p)

/-- What the body leaves in the backward output's block, entry by entry. -/
theorem out6_apply : out0_6 x0 x1 x2 x3 x4 (ix2 p q) = rowMsg x1 x0 x2 x3 x4 p q := by
  unfold out0_6
  rw [View.ld_unit_zero (S := S6400x2) zeros2, View.ld_unit_zero (S := S6400x2) zeros2, View.ld_unit_zero (S := S6400x2) zeros2,
    View.ld_unit_zero (S := S1x2) zeros2, View.ld_unit_zero (S := S1x2) zeros2]
  match q with
  | ⟨0, _⟩ => exact (twoCols_col0 _ _ p).trans (pay4_apply x0 x1 x2 x3 x4 p)
  | ⟨1, _⟩ => exact (twoCols_col1 _ _ p).trans (pay5_apply x0 x1 x2 x3 x4 p)

end Blocks

/-! ## From a block to the arrays -/

/-- The specification's pairs at edge `r`, from a block's row `p` whose rows are the arrays' row `r` and whose two
    normalisation rows are the arrays' own. -/
theorem rowMsg_of_rows (xi xj ea : Cert.Spec.E2) (es em : Cert.Spec.R2)
    (x0 x1 x2 : Vec Ideal S6400x2 .f32) (x3 x4 : Vec Ideal S1x2 .f32) (r : Fin 4000000) (p : Fin 6400)
    (h0 : ∀ q : Fin 2, x0 (ix2 p q) = xi (ix2 r q)) (h1 : ∀ q : Fin 2, x1 (ix2 p q) = xj (ix2 r q))
    (h2 : ∀ q : Fin 2, x2 (ix2 p q) = ea (ix2 r q))
    (h3 : ∀ q : Fin 2, x3 (ix2 (0 : Fin 1) q) = em (ix2 (0 : Fin 1) q))
    (h4 : ∀ q : Fin 2, x4 (ix2 (0 : Fin 1) q) = es (ix2 (0 : Fin 1) q)) (q : Fin 2) :
    rowMsg x0 x1 x2 x3 x4 p q = Cert.Spec.msg xi xj ea es em (ix2 r q) := by
  unfold rowMsg gbRow Cert.Spec.msg Cert.Spec.gb
  rw [h0, h0, h1, h1, h2, h2, h3, h3, h4, h4]

/-- The windows' block indices over the 625 points: at point `t` the five edge-indexed windows are at block row `t`,
    column block 0; the two normalisation rows are whole at every point. -/
theorem rows_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 625 := lt_of_lt_of_eq t.isLt N_0

section Reads
variable (c : Dev nD) (t : Fin cfg0.N) (p : Fin 6400) (q : Fin 2)

/-- Row `p` of the first end points' block at point `t` is row 6400·t + p of their array. -/
theorem blk0_apply : (iblk0 V c 0 t : Vec Ideal S6400x2 .f32) (ix2 p q)
    = (V c main_v10 : Cert.Spec.E2) (ix2 ⟨6400 * t.val + p.val, by have := point_lt t; omega⟩ q) := by
  obtain ⟨e0, e1, -⟩ := rows_of_point t
  unfold iblk0
  rw [View.read_apply]
  show V c main_v10 _ = V c main_v10 _
  refine congrArg (V c main_v10) (funext fun a => Fin.ext ?_)
  match a with
  | ⟨0, _⟩ => show win0_0.index t (0 : Fin 2) * 6400 + 1 * p.val = 6400 * t.val + p.val; rw [e0]; omega
  | ⟨1, _⟩ => show win0_0.index t (1 : Fin 2) * 2 + 1 * q.val = q.val; rw [e1]; omega

/-- The same for the second end points' block … -/
theorem blk1_apply : (iblk0 V c 1 t : Vec Ideal S6400x2 .f32) (ix2 p q)
    = (V c main_v17 : Cert.Spec.E2) (ix2 ⟨6400 * t.val + p.val, by have := point_lt t; omega⟩ q) := by
  obtain ⟨-, -, e0, e1, -⟩ := rows_of_point t
  unfold iblk0
  rw [View.read_apply]
  show V c main_v17 _ = V c main_v17 _
  refine congrArg (V c main_v17) (funext fun a => Fin.ext ?_)
  match a with
  | ⟨0, _⟩ => show win0_1.index t (0 : Fin 2) * 6400 + 1 * p.val = 6400 * t.val + p.val; rw [e0]; omega
  | ⟨1, _⟩ => show win0_1.index t (1 : Fin 2) * 2 + 1 * q.val = q.val; rw [e1]; omega

/-- … and for the edge attributes' block. -/
theorem blk2_apply : (iblk0 V c 2 t : Vec Ideal S6400x2 .f32) (ix2 p q)
    = (V c main_arg4 : Cert.Spec.E2) (ix2 ⟨6400 * t.val + p.val, by have := point_lt t; omega⟩ q) := by
  obtain ⟨-, -, -, -, e0, e1, -⟩ := rows_of_point t
  unfold iblk0
  rw [View.read_apply]
  show V c main_arg4 _ = V c main_arg4 _
  refine congrArg (V c main_arg4) (funext fun a => Fin.ext ?_)
  match a with
  | ⟨0, _⟩ => show win0_2.index t (0 : Fin 2) * 6400 + 1 * p.val = 6400 * t.val + p.val; rw [e0]; omega
  | ⟨1, _⟩ => show win0_2.index t (1 : Fin 2) * 2 + 1 * q.val = q.val; rw [e1]; omega

/-- The mean row's block at every point is the whole one-row array … -/
theorem blk3_apply : (iblk0 V c 3 t : Vec Ideal S1x2 .f32) (ix2 (0 : Fin 1) q)
    = (V c main_arg9 : Cert.Spec.R2) (ix2 (0 : Fin 1) q) := by
  obtain ⟨-, -, -, -, -, -, e0, e1, -⟩ := rows_of_point t
  unfold iblk0
  rw [View.read_apply]
  show V c main_arg9 _ = V c main_arg9 _
  refine congrArg (V c main_arg9) (funext fun a => Fin.ext ?_)
  match a with
  | ⟨0, _⟩ => show win0_3.index t (0 : Fin 2) * 1 + 1 * 0 = 0; rw [e0]
  | ⟨1, _⟩ => show win0_3.index t (1 : Fin 2) * 2 + 1 * q.val = q.val; rw [e1]; omega

/-- … and so is the scale row's. -/
theorem blk4_apply : (iblk0 V c 4 t : Vec Ideal S1x2 .f32) (ix2 (0 : Fin 1) q)
    = (V c main_arg10 : Cert.Spec.R2) (ix2 (0 : Fin 1) q) := by
  obtain ⟨-, -, -, -, -, -, -, -, e0, e1, -⟩ := rows_of_point t
  unfold iblk0
  rw [View.read_apply]
  show V c main_arg10 _ = V c main_arg10 _
  refine congrArg (V c main_arg10) (funext fun a => Fin.ext ?_)
  match a with
  | ⟨0, _⟩ => show win0_4.index t (0 : Fin 2) * 1 + 1 * 0 = 0; rw [e0]
  | ⟨1, _⟩ => show win0_4.index t (1 : Fin 2) * 2 + 1 * q.val = q.val; rw [e1]; omega

end Reads

/-! ## What a point writes back, the cover, the two arrays -/

/-- Point `t` writes back block `t` of the forward pairs of the arrays as the grid finds them. -/
theorem fwd_flushed (c : Dev nD) (t : Fin cfg0.N) :
    (dat0 (F := Ideal) V c).flushed 5 t = ((cfg0.win 5).blk t).view.read (Elt Ideal)
      (Cert.Spec.msg (V c main_v10) (V c main_v17) (V c main_arg4) (V c main_arg10) (V c main_arg9)) := by
  show (cfg0.win 5).cut (grid0.coords t) ((dat0 V c).after 5 t) = _
  rw [after0_5]
  obtain ⟨-, -, -, -, -, -, -, -, -, -, e0, e1, -⟩ := rows_of_point t
  have ht := point_lt t
  refine funext fun (j : S6400x2.Idx) => ?_
  obtain ⟨p, q, rfl⟩ : ∃ (p : Fin 6400) (q : Fin 2), j = ix2 p q := ⟨j 0, j 1, eq_ix2 j⟩
  rw [View.read_apply]
  have hemb : ((cfg0.win 5).blk t).view.emb (ix2 p q)
      = (ix2 (⟨6400 * t.val + p.val, by omega⟩ : Fin 4000000) q : S4000000x2.Idx) := by
    refine funext fun a => Fin.ext ?_
    match a with
    | ⟨0, _⟩ => show win0_5.index t (0 : Fin 2) * 6400 + 1 * p.val = 6400 * t.val + p.val; rw [e0]; omega
    | ⟨1, _⟩ => show win0_5.index t (1 : Fin 2) * 2 + 1 * q.val = q.val; rw [e1]; omega
  rw [hemb]
  exact (out5_apply (iblk0 V c 0 t) (iblk0 V c 1 t) (iblk0 V c 2 t) (iblk0 V c 3 t) (iblk0 V c 4 t) p q).trans
    (rowMsg_of_rows (V c main_v10) (V c main_v17) (V c main_arg4) (V c main_arg10) (V c main_arg9)
      (iblk0 V c 0 t) (iblk0 V c 1 t) (iblk0 V c 2 t) (iblk0 V c 3 t) (iblk0 V c 4 t) _ p
      (blk0_apply V c t p) (blk1_apply V c t p) (blk2_apply V c t p) (blk3_apply V c t) (blk4_apply V c t) q)

/-- Point `t` writes back block `t` of the backward pairs: the same rows with the two end points exchanged. -/
theorem bwd_flushed (c : Dev nD) (t : Fin cfg0.N) :
    (dat0 (F := Ideal) V c).flushed 6 t = ((cfg0.win 6).blk t).view.read (Elt Ideal)
      (Cert.Spec.msg (V c main_v17) (V c main_v10) (V c main_arg4) (V c main_arg10) (V c main_arg9)) := by
  show (cfg0.win 6).cut (grid0.coords t) ((dat0 V c).after 6 t) = _
  rw [after0_6]
  obtain ⟨-, -, -, -, -, -, -, -, -, -, -, -, e0, e1⟩ := rows_of_point t
  have ht := point_lt t
  refine funext fun (j : S6400x2.Idx) => ?_
  obtain ⟨p, q, rfl⟩ : ∃ (p : Fin 6400) (q : Fin 2), j = ix2 p q := ⟨j 0, j 1, eq_ix2 j⟩
  rw [View.read_apply]
  have hemb : ((cfg0.win 6).blk t).view.emb (ix2 p q)
      = (ix2 (⟨6400 * t.val + p.val, by omega⟩ : Fin 4000000) q : S4000000x2.Idx) := by
    refine funext fun a => Fin.ext ?_
    match a with
    | ⟨0, _⟩ => show win0_6.index t (0 : Fin 2) * 6400 + 1 * p.val = 6400 * t.val + p.val; rw [e0]; omega
    | ⟨1, _⟩ => show win0_6.index t (1 : Fin 2) * 2 + 1 * q.val = q.val; rw [e1]; omega
  rw [hemb]
  exact (out6_apply (iblk0 V c 0 t) (iblk0 V c 1 t) (iblk0 V c 2 t) (iblk0 V c 3 t) (iblk0 V c 4 t) p q).trans
    (rowMsg_of_rows (V c main_v17) (V c main_v10) (V c main_arg4) (V c main_arg10) (V c main_arg9)
      (iblk0 V c 1 t) (iblk0 V c 0 t) (iblk0 V c 2 t) (iblk0 V c 3 t) (iblk0 V c 4 t) _ p
      (blk1_apply V c t p) (blk0_apply V c t p) (blk2_apply V c t p) (blk3_apply V c t) (blk4_apply V c t) q)

/-- An entry of the forward array is in point `t`'s block iff each coordinate is in the block's range on its axis. -/
theorem mem_blk5 (t : Fin cfg0.N) (i : S4000000x2.Idx) :
    i ∈ ((cfg0.win 5).blk t).view.set ↔ ∀ a : Fin 2, win0_5.index t a * S6400x2.size a ≤ (i a).val
      ∧ (i a).val < win0_5.index t a * S6400x2.size a + S6400x2.size a := by
  show i ∈ ((View.whole main_v18_0).slice (win0_5.rect t)).set ↔ _
  rw [View.set_slice_whole, Rect.mem_set_unit]
  exact Iff.rfl

/-- The same for the backward array. -/
theorem mem_blk6 (t : Fin cfg0.N) (i : S4000000x2.Idx) :
    i ∈ ((cfg0.win 6).blk t).view.set ↔ ∀ a : Fin 2, win0_6.index t a * S6400x2.size a ≤ (i a).val
      ∧ (i a).val < win0_6.index t a * S6400x2.size a + S6400x2.size a := by
  show i ∈ ((View.whole main_v18_1).slice (win0_6.rect t)).set ↔ _
  rw [View.set_slice_whole, Rect.mem_set_unit]
  exact Iff.rfl

/-- The point whose block holds row `r`: r / 6400. -/
def pointOf (r : Nat) (hr : r < 4000000) : Fin cfg0.N := ⟨r / 6400, lt_of_lt_of_eq (by omega) N_0.symm⟩

/-- Every entry of the forward array is in the block of the point its row names: the blocks tile the rows. -/
theorem fwd_cover (i : S4000000x2.Idx) :
    ∃ t : Fin cfg0.N, (cfg0.win 5).flush t = true ∧ i ∈ ((cfg0.win 5).blk t).view.set := by
  have hi0 : (i 0).val < 4000000 := (i 0).isLt
  have hi1 : (i 1).val < 2 := (i 1).isLt
  obtain ⟨-, -, -, -, -, -, -, -, -, -, e0, e1, -⟩ := rows_of_point (pointOf (i 0).val hi0)
  refine ⟨pointOf (i 0).val hi0, flush0_5 _, ?_⟩
  rw [mem_blk5]
  intro a
  match a with
  | ⟨0, _⟩ =>
    show win0_5.index (pointOf (i 0).val hi0) (0 : Fin 2) * 6400 ≤ (i 0).val
      ∧ (i 0).val < win0_5.index (pointOf (i 0).val hi0) (0 : Fin 2) * 6400 + 6400
    rw [e0]
    show (i 0).val / 6400 * 6400 ≤ (i 0).val ∧ (i 0).val < (i 0).val / 6400 * 6400 + 6400
    omega
  | ⟨1, _⟩ =>
    show win0_5.index (pointOf (i 0).val hi0) (1 : Fin 2) * 2 ≤ (i 1).val
      ∧ (i 1).val < win0_5.index (pointOf (i 0).val hi0) (1 : Fin 2) * 2 + 2
    rw [e1]
    omega

/-- And every entry of the backward array likewise. -/
theorem bwd_cover (i : S4000000x2.Idx) :
    ∃ t : Fin cfg0.N, (cfg0.win 6).flush t = true ∧ i ∈ ((cfg0.win 6).blk t).view.set := by
  have hi0 : (i 0).val < 4000000 := (i 0).isLt
  have hi1 : (i 1).val < 2 := (i 1).isLt
  obtain ⟨-, -, -, -, -, -, -, -, -, -, -, -, e0, e1⟩ := rows_of_point (pointOf (i 0).val hi0)
  refine ⟨pointOf (i 0).val hi0, flush0_6 _, ?_⟩
  rw [mem_blk6]
  intro a
  match a with
  | ⟨0, _⟩ =>
    show win0_6.index (pointOf (i 0).val hi0) (0 : Fin 2) * 6400 ≤ (i 0).val
      ∧ (i 0).val < win0_6.index (pointOf (i 0).val hi0) (0 : Fin 2) * 6400 + 6400
    rw [e0]
    show (i 0).val / 6400 * 6400 ≤ (i 0).val ∧ (i 0).val < (i 0).val / 6400 * 6400 + 6400
    omega
  | ⟨1, _⟩ =>
    show win0_6.index (pointOf (i 0).val hi0) (1 : Fin 2) * 2 ≤ (i 1).val
      ∧ (i 1).val < win0_6.index (pointOf (i 0).val hi0) (1 : Fin 2) * 2 + 2
    rw [e1]
    omega

/-- After the first grid the first output array holds the pairs sent to the first end points. -/
theorem fwd_final (c : Dev nD) :
    (dat0 (F := Ideal) V c).arrAt 5 cfg0.N
      = Cert.Spec.msg (V c main_v10) (V c main_v17) (V c main_arg4) (V c main_arg10) (V c main_arg9) :=
  (dat0 (F := Ideal) V c).arrAt_eq_of_cover 5
    (Cert.Spec.msg (V c main_v10) (V c main_v17) (V c main_arg4) (V c main_arg10) (V c main_arg9))
    (fun t _ => fwd_flushed V c t) fwd_cover

/-- After the first grid the second output array holds the pairs sent to the second end points. -/
theorem bwd_final (c : Dev nD) :
    (dat0 (F := Ideal) V c).arrAt 6 cfg0.N
      = Cert.Spec.msg (V c main_v17) (V c main_v10) (V c main_arg4) (V c main_arg10) (V c main_arg9) :=
  (dat0 (F := Ideal) V c).arrAt_eq_of_cover 6
    (Cert.Spec.msg (V c main_v17) (V c main_v10) (V c main_arg4) (V c main_arg10) (V c main_arg9))
    (fun t _ => bwd_flushed V c t) bwd_cover

end Cert.KernelIdeal.EdgeValue

end
-- ==== Proof.NodeSteps.lean ====
/-
  The second grid, as a recurrence. Each of its 200 points takes 5000 consecutive nodes and adds five block sums into
  five one-element accumulators, which the first point sets to zero before adding. So after point 0 an accumulator holds
  zero plus that point's block sum, after a later point what the point before left plus its own block sum, and the
  array behind it, written back once the grid has run, holds what the last point left.
-/
import proofs.«161120_j88115549044894_1_alg».proof.Proof.Gen.KernelIdeal.Frame
import proofs.«161120_j88115549044894_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.NodeValue

open Cert.KernelIdeal Cert.KernelIdeal.Gen

/-! ## What one point leaves in an accumulator

Each accumulator is a single [1,1] block. At a later point the body reads that block, adds the point's block sum to it and
stores the result over the whole block, so the block is left at `previous + block sum`. At the first point the body first
stores zero over the whole block and then does the same; the value it reads back is that zero, so the block is left at
`0 + block sum`. Every input is read whole, so a block sum is a function of the point's input blocks alone, and each
accumulator depends on its own previous value only. These hold for any float type. -/

section Pieces

variable {F : FTy → Type} [FloatOps F]

/-- The offsets `[0, 0]` of a whole-block access are the zero offsets. -/
theorem hz : (![0, 0] : Fin 2 → Nat) = fun _ => 0 := funext fun a => by fin_cases a <;> rfl

/-- A later point, accumulator of window 8: the one store over the whole block leaves the block's previous value plus the
    point's block sum; the previous values of the other four accumulators do not enter. -/
theorem outBSq (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : ¬cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) (xo8 : Vec F S1x1 .f32) (xo9 : Vec F S1x1 .f32) (xo10 : Vec F S1x1 .f32) (xo11 : Vec F S1x1 .f32) (xo12 : Vec F S1x1 .f32) :
    out1_B_8 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12 = addf xo8 (k1_pay13 x0 x1 x2) := by
  unfold out1_B_8
  rw [View.read_writes_eq_canon _ _ _ (cover1_B_8 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12)]
  unfold kernelRun1_B
  dsimp only
  sl_unfold_words
  rw [View.canon_unit_zero hz]
  unfold k1_pay21
  simp only [View.readAt_eq_ld, h1.read_unread, h2.read_unread, h3.read_unread, h9.read_unread, View.ld_unit_zero (S := S1x1) hz, View.ld_unit_zero (S := S5000x2) hz, View.ld_unit_zero (S := S5000x4) hz, shapeCast_self]

/-- The first point, accumulator of window 8: zero is stored over the whole block, read back, and the block sum added to it. -/
theorem outASq (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) :
    out1_A_8 c i a1 h1 a2 h2 a3 h3 a4 h4 a5 h5 a6 h6 a7 h7 a8 h8 a9 h9 a10 h10 a11 h11 a12 h12 a13 h13 hc x0 x1 x2 x3 x4 x5 x6 x7 = addf (broadcast S1x1 (Scalar.ofBits .f32 0x00000000#32)) (k1_pay13 x0 x1 x2) := by
  unfold out1_A_8
  rw [View.read_writes_eq_canon _ _ _ (cover1_A_8 c i a1 h1 a2 h2 a3 h3 a4 h4 a5 h5 a6 h6 a7 h7 a8 h8 a9 h9 a10 h10 a11 h11 a12 h12 a13 h13 hc x0 x1 x2 x3 x4 x5 x6 x7)]
  unfold kernelRun1_A
  dsimp only
  sl_unfold_words
  rw [View.canon_cons_unit_zero (S := S1x1) hz, View.readCov_unit_zero (S := S1x1) _ hz]
  unfold k1_pay21 k1_pay4
  simp only [View.readAt_eq_ld, h1.read_unread, h2.read_unread, h3.read_unread, View.ld_unit_zero (S := S1x1) hz, View.ld_unit_zero (S := S5000x2) hz, View.ld_unit_zero (S := S5000x4) hz, shapeCast_self]

/-- A later point, accumulator of window 9: the one store over the whole block leaves the block's previous value plus the
    point's block sum; the previous values of the other four accumulators do not enter. -/
theorem outBMask (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : ¬cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) (xo8 : Vec F S1x1 .f32) (xo9 : Vec F S1x1 .f32) (xo10 : Vec F S1x1 .f32) (xo11 : Vec F S1x1 .f32) (xo12 : Vec F S1x1 .f32) :
    out1_B_9 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12 = addf xo9 (k1_pay14 x2) := by
  unfold out1_B_9
  rw [View.read_writes_eq_canon _ _ _ (cover1_B_9 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12)]
  unfold kernelRun1_B
  dsimp only
  sl_unfold_words
  rw [View.canon_unit_zero hz]
  unfold k1_pay22
  simp only [View.readAt_eq_ld, h3.read_unread, h10.read_unread, View.ld_unit_zero (S := S1x1) hz, View.ld_unit_zero (S := S5000x4) hz, shapeCast_self]

/-- The first point, accumulator of window 9: zero is stored over the whole block, read back, and the block sum added to it. -/
theorem outAMask (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) :
    out1_A_9 c i a1 h1 a2 h2 a3 h3 a4 h4 a5 h5 a6 h6 a7 h7 a8 h8 a9 h9 a10 h10 a11 h11 a12 h12 a13 h13 hc x0 x1 x2 x3 x4 x5 x6 x7 = addf (broadcast S1x1 (Scalar.ofBits .f32 0x00000000#32)) (k1_pay14 x2) := by
  unfold out1_A_9
  rw [View.read_writes_eq_canon _ _ _ (cover1_A_9 c i a1 h1 a2 h2 a3 h3 a4 h4 a5 h5 a6 h6 a7 h7 a8 h8 a9 h9 a10 h10 a11 h11 a12 h12 a13 h13 hc x0 x1 x2 x3 x4 x5 x6 x7)]
  unfold kernelRun1_A
  dsimp only
  sl_unfold_words
  rw [View.canon_cons_unit_zero (S := S1x1) hz, View.readCov_unit_zero (S := S1x1) _ hz]
  unfold k1_pay22 k1_pay5
  simp only [View.readAt_eq_ld, h3.read_unread, View.ld_unit_zero (S := S1x1) hz, View.ld_unit_zero (S := S5000x4) hz, shapeCast_self]

/-- A later point, accumulator of window 10: the one store over the whole block leaves the block's previous value plus the
    point's block sum; the previous values of the other four accumulators do not enter. -/
theorem outBPhys (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : ¬cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) (xo8 : Vec F S1x1 .f32) (xo9 : Vec F S1x1 .f32) (xo10 : Vec F S1x1 .f32) (xo11 : Vec F S1x1 .f32) (xo12 : Vec F S1x1 .f32) :
    out1_B_10 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12 = addf xo10 (k1_pay17 (k1_pay9 x3) (k1_pay15 x1 x7) (k1_pay16 x6)) := by
  unfold out1_B_10
  rw [View.read_writes_eq_canon _ _ _ (cover1_B_10 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12)]
  unfold kernelRun1_B
  dsimp only
  sl_unfold_words
  rw [View.canon_unit_zero hz]
  unfold k1_pay1
  simp only [View.readAt_eq_ld, h4.read_unread, h2.read_unread, h8.read_unread, h7.read_unread, h11.read_unread, View.ld_unit_zero (S := S1x1) hz, View.ld_unit_zero (S := S5000x2) hz, View.ld_unit_zero (S := S5000x4) hz, View.ld_unit_zero (S := S1x4) hz, shapeCast_self]

/-- The first point, accumulator of window 10: zero is stored over the whole block, read back, and the block sum added to it. -/
theorem outAPhys (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) :
    out1_A_10 c i a1 h1 a2 h2 a3 h3 a4 h4 a5 h5 a6 h6 a7 h7 a8 h8 a9 h9 a10 h10 a11 h11 a12 h12 a13 h13 hc x0 x1 x2 x3 x4 x5 x6 x7 = addf (broadcast S1x1 (Scalar.ofBits .f32 0x00000000#32)) (k1_pay17 (k1_pay9 x3) (k1_pay15 x1 x7) (k1_pay16 x6)) := by
  unfold out1_A_10
  rw [View.read_writes_eq_canon _ _ _ (cover1_A_10 c i a1 h1 a2 h2 a3 h3 a4 h4 a5 h5 a6 h6 a7 h7 a8 h8 a9 h9 a10 h10 a11 h11 a12 h12 a13 h13 hc x0 x1 x2 x3 x4 x5 x6 x7)]
  unfold kernelRun1_A
  dsimp only
  sl_unfold_words
  rw [View.canon_cons_unit_zero (S := S1x1) hz, View.readCov_unit_zero (S := S1x1) _ hz]
  unfold k1_pay1 k1_pay6
  simp only [View.readAt_eq_ld, h4.read_unread, h2.read_unread, h8.read_unread, h7.read_unread, View.ld_unit_zero (S := S1x1) hz, View.ld_unit_zero (S := S5000x2) hz, View.ld_unit_zero (S := S5000x4) hz, View.ld_unit_zero (S := S1x4) hz, shapeCast_self]

/-- A later point, accumulator of window 11: the one store over the whole block leaves the block's previous value plus the
    point's block sum; the previous values of the other four accumulators do not enter. -/
theorem outBPv (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : ¬cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) (xo8 : Vec F S1x1 .f32) (xo9 : Vec F S1x1 .f32) (xo10 : Vec F S1x1 .f32) (xo11 : Vec F S1x1 .f32) (xo12 : Vec F S1x1 .f32) :
    out1_B_11 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12 = addf xo11 (k1_pay19 x0 (k1_pay10 x4) (k1_pay11 x5) x6 x7) := by
  unfold out1_B_11
  rw [View.read_writes_eq_canon _ _ _ (cover1_B_11 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12)]
  unfold kernelRun1_B
  dsimp only
  sl_unfold_words
  rw [View.canon_unit_zero hz]
  unfold k1_pay2
  simp only [View.readAt_eq_ld, h1.read_unread, h5.read_unread, h6.read_unread, h7.read_unread, h8.read_unread, h12.read_unread, View.ld_unit_zero (S := S1x1) hz, View.ld_unit_zero (S := S5000x2) hz, View.ld_unit_zero (S := S5000x1) hz, View.ld_unit_zero (S := S1x4) hz, shapeCast_self]

/-- The first point, accumulator of window 11: zero is stored over the whole block, read back, and the block sum added to it. -/
theorem outAPv (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) :
    out1_A_11 c i a1 h1 a2 h2 a3 h3 a4 h4 a5 h5 a6 h6 a7 h7 a8 h8 a9 h9 a10 h10 a11 h11 a12 h12 a13 h13 hc x0 x1 x2 x3 x4 x5 x6 x7 = addf (broadcast S1x1 (Scalar.ofBits .f32 0x00000000#32)) (k1_pay19 x0 (k1_pay10 x4) (k1_pay11 x5) x6 x7) := by
  unfold out1_A_11
  rw [View.read_writes_eq_canon _ _ _ (cover1_A_11 c i a1 h1 a2 h2 a3 h3 a4 h4 a5 h5 a6 h6 a7 h7 a8 h8 a9 h9 a10 h10 a11 h11 a12 h12 a13 h13 hc x0 x1 x2 x3 x4 x5 x6 x7)]
  unfold kernelRun1_A
  dsimp only
  sl_unfold_words
  rw [View.canon_cons_unit_zero (S := S1x1) hz, View.readCov_unit_zero (S := S1x1) _ hz]
  unfold k1_pay2 k1_pay7
  simp only [View.readAt_eq_ld, h1.read_unread, h5.read_unread, h6.read_unread, h7.read_unread, h8.read_unread, View.ld_unit_zero (S := S1x1) hz, View.ld_unit_zero (S := S5000x2) hz, View.ld_unit_zero (S := S5000x1) hz, View.ld_unit_zero (S := S1x4) hz, shapeCast_self]

/-- A later point, accumulator of window 12: the one store over the whole block leaves the block's previous value plus the
    point's block sum; the previous values of the other four accumulators do not enter. -/
theorem outBCnt (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : ¬cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) (xo8 : Vec F S1x1 .f32) (xo9 : Vec F S1x1 .f32) (xo10 : Vec F S1x1 .f32) (xo11 : Vec F S1x1 .f32) (xo12 : Vec F S1x1 .f32) :
    out1_B_12 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12 = addf xo12 (k1_pay20 (k1_pay10 x4)) := by
  unfold out1_B_12
  rw [View.read_writes_eq_canon _ _ _ (cover1_B_12 c i a1 h1 a2 h2 a3 h3 a4 h4 a5 h5 a6 h6 a7 h7 a8 h8 a9 h9 a10 h10 a11 h11 a12 h12 a13 h13 hc x0 x1 x2 x3 x4 x5 x6 x7 xo8 xo9 xo10 xo11 xo12)]
  unfold kernelRun1_B
  dsimp only
  sl_unfold_words
  rw [View.canon_unit_zero hz]
  unfold k1_pay3
  simp only [View.readAt_eq_ld, h5.read_unread, h13.read_unread, View.ld_unit_zero (S := S1x1) hz, View.ld_unit_zero (S := S5000x1) hz, shapeCast_self]

/-- The first point, accumulator of window 12: zero is stored over the whole block, read back, and the block sum added to it. -/
theorem outACnt (c : Dev nD) (i : grid1.Coords) (a1 : Memref sig .tc .vmem S5000x2 .f32) (h1 : a1.IsWhole) (a2 : Memref sig .tc .vmem S5000x4 .f32) (h2 : a2.IsWhole) (a3 : Memref sig .tc .vmem S5000x4 .f32) (h3 : a3.IsWhole) (a4 : Memref sig .tc .vmem S5000x2 .f32) (h4 : a4.IsWhole) (a5 : Memref sig .tc .vmem S5000x1 .i32) (h5 : a5.IsWhole) (a6 : Memref sig .tc .vmem S5000x1 .f32) (h6 : a6.IsWhole) (a7 : Memref sig .tc .vmem S1x4 .f32) (h7 : a7.IsWhole) (a8 : Memref sig .tc .vmem S1x4 .f32) (h8 : a8.IsWhole) (a9 : Memref sig .tc .vmem S1x1 .f32) (h9 : a9.IsWhole) (a10 : Memref sig .tc .vmem S1x1 .f32) (h10 : a10.IsWhole) (a11 : Memref sig .tc .vmem S1x1 .f32) (h11 : a11.IsWhole) (a12 : Memref sig .tc .vmem S1x1 .f32) (h12 : a12.IsWhole) (a13 : Memref sig .tc .vmem S1x1 .f32) (h13 : a13.IsWhole) (hc : cond1_0 i) (x0 : Vec F S5000x2 .f32) (x1 : Vec F S5000x4 .f32) (x2 : Vec F S5000x4 .f32) (x3 : Vec F S5000x2 .f32) (x4 : Vec F S5000x1 .i32) (x5 : Vec F S5000x1 .f32) (x6 : Vec F S1x4 .f32) (x7 : Vec F S1x4 .f32) :
    out1_A_12 c i a1 h1 a2 h2 a3 h3 a4 h4 a5 h5 a6 h6 a7 h7 a8 h8 a9 h9 a10 h10 a11 h11 a12 h12 a13 h13 hc x0 x1 x2 x3 x4 x5 x6 x7 = addf (broadcast S1x1 (Scalar.ofBits .f32 0x00000000#32)) (k1_pay20 (k1_pay10 x4)) := by
  unfold out1_A_12
  rw [View.read_writes_eq_canon _ _ _ (cover1_A_12 c i a1 h1 a2 h2 a3 h3 a4 h4 a5 h5 a6 h6 a7 h7 a8 h8 a9 h9 a10 h10 a11 h11 a12 h12 a13 h13 hc x0 x1 x2 x3 x4 x5 x6 x7)]
  unfold kernelRun1_A
  dsimp only
  sl_unfold_words
  rw [View.canon_cons_unit_zero (S := S1x1) hz, View.readCov_unit_zero (S := S1x1) _ hz]
  unfold k1_pay3 k1_pay8
  simp only [View.readAt_eq_ld, h5.read_unread, View.ld_unit_zero (S := S1x1) hz, View.ld_unit_zero (S := S5000x1) hz, shapeCast_self]

end Pieces

variable (V : (c : Dev nD) → (b : Ref sig .tc) → Buf (Elt Ideal) ((c : Thread nD τ).loc b))

/-- The zero an accumulator is reset to. -/
abbrev zero11 : FVec Ideal S1x1 .f32 := broadcast S1x1 (Scalar.ofBits (F := Ideal) .f32 0x00000000#32)

/-- The five block sums of point `t`, each a function of the point's input blocks. -/
def bsSq (c : Dev nD) (t : Fin cfg1.N) : FVec Ideal S1x1 .f32 :=
  k1_pay13 (F := Ideal) (iblk1 V c 0 t) (iblk1 V c 1 t) (iblk1 V c 2 t)
def bsMask (c : Dev nD) (t : Fin cfg1.N) : FVec Ideal S1x1 .f32 :=
  k1_pay14 (F := Ideal) (iblk1 V c 2 t)
def bsPhys (c : Dev nD) (t : Fin cfg1.N) : FVec Ideal S1x1 .f32 :=
  k1_pay17 (F := Ideal) (k1_pay9 (F := Ideal) (iblk1 V c 3 t)) (k1_pay15 (F := Ideal) (iblk1 V c 1 t) (iblk1 V c 7 t))
    (k1_pay16 (F := Ideal) (iblk1 V c 6 t))
def bsPv (c : Dev nD) (t : Fin cfg1.N) : FVec Ideal S1x1 .f32 :=
  k1_pay19 (F := Ideal) (iblk1 V c 0 t) (k1_pay10 (F := Ideal) (iblk1 V c 4 t)) (k1_pay11 (F := Ideal) (iblk1 V c 5 t))
    (iblk1 V c 6 t) (iblk1 V c 7 t)
def bsCnt (c : Dev nD) (t : Fin cfg1.N) : FVec Ideal S1x1 .f32 :=
  k1_pay20 (F := Ideal) (k1_pay10 (F := Ideal) (iblk1 V c 4 t))

/-- The five accumulators after point `n`. -/
abbrev accSq (c : Dev nD) (n : ℕ) (h : n < cfg1.N) : FVec Ideal S1x1 .f32 := (outsAt1 (F := Ideal) V c n h).1
abbrev accMask (c : Dev nD) (n : ℕ) (h : n < cfg1.N) : FVec Ideal S1x1 .f32 := (outsAt1 (F := Ideal) V c n h).2.1
abbrev accPhys (c : Dev nD) (n : ℕ) (h : n < cfg1.N) : FVec Ideal S1x1 .f32 := (outsAt1 (F := Ideal) V c n h).2.2.1
abbrev accPv (c : Dev nD) (n : ℕ) (h : n < cfg1.N) : FVec Ideal S1x1 .f32 := (outsAt1 (F := Ideal) V c n h).2.2.2.1
abbrev accCnt (c : Dev nD) (n : ℕ) (h : n < cfg1.N) : FVec Ideal S1x1 .f32 := (outsAt1 (F := Ideal) V c n h).2.2.2.2

/-! ## The first point: zero plus its block sum -/

theorem accSq_zero (c : Dev nD) (h : 0 < cfg1.N) : accSq V c 0 h = addf (F := Ideal) zero11 (bsSq V c ⟨0, h⟩) := by
  unfold bsSq
  show (outsAt1 (F := Ideal) V c (⟨0, h⟩ : Fin cfg1.N).val (⟨0, h⟩ : Fin cfg1.N).isLt).1 = _
  rw [outsAt1_A V c ⟨0, h⟩ rfl]
  dsimp only
  exact outASq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)
theorem accMask_zero (c : Dev nD) (h : 0 < cfg1.N) : accMask V c 0 h = addf (F := Ideal) zero11 (bsMask V c ⟨0, h⟩) := by
  unfold bsMask
  show (outsAt1 (F := Ideal) V c (⟨0, h⟩ : Fin cfg1.N).val (⟨0, h⟩ : Fin cfg1.N).isLt).2.1 = _
  rw [outsAt1_A V c ⟨0, h⟩ rfl]
  dsimp only
  exact outAMask (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)
theorem accPhys_zero (c : Dev nD) (h : 0 < cfg1.N) : accPhys V c 0 h = addf (F := Ideal) zero11 (bsPhys V c ⟨0, h⟩) := by
  unfold bsPhys
  show (outsAt1 (F := Ideal) V c (⟨0, h⟩ : Fin cfg1.N).val (⟨0, h⟩ : Fin cfg1.N).isLt).2.2.1 = _
  rw [outsAt1_A V c ⟨0, h⟩ rfl]
  dsimp only
  exact outAPhys (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)
theorem accPv_zero (c : Dev nD) (h : 0 < cfg1.N) : accPv V c 0 h = addf (F := Ideal) zero11 (bsPv V c ⟨0, h⟩) := by
  unfold bsPv
  show (outsAt1 (F := Ideal) V c (⟨0, h⟩ : Fin cfg1.N).val (⟨0, h⟩ : Fin cfg1.N).isLt).2.2.2.1 = _
  rw [outsAt1_A V c ⟨0, h⟩ rfl]
  dsimp only
  exact outAPv (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)
theorem accCnt_zero (c : Dev nD) (h : 0 < cfg1.N) : accCnt V c 0 h = addf (F := Ideal) zero11 (bsCnt V c ⟨0, h⟩) := by
  unfold bsCnt
  show (outsAt1 (F := Ideal) V c (⟨0, h⟩ : Fin cfg1.N).val (⟨0, h⟩ : Fin cfg1.N).isLt).2.2.2.2 = _
  rw [outsAt1_A V c ⟨0, h⟩ rfl]
  dsimp only
  exact outACnt (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) (ms1_12 ⟨0, h⟩) (hs1_12 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩)

/-! ## A later point: what the point before left plus its block sum -/

theorem accSq_succ (c : Dev nD) (n : ℕ) (h : n + 1 < cfg1.N) :
    accSq V c (n + 1) h = addf (F := Ideal) (accSq V c n (Nat.lt_of_succ_lt h)) (bsSq V c ⟨n + 1, h⟩) := by
  have hN : cfg1.N = 200 := N_1
  have hB : ¬(⟨n + 1, h⟩ : Fin cfg1.N).val % 200 = 0 := by dsimp only; omega
  unfold bsSq
  show (outsAt1 (F := Ideal) V c (⟨n + 1, h⟩ : Fin cfg1.N).val (⟨n + 1, h⟩ : Fin cfg1.N).isLt).1 = _
  rw [outsAt1_B V c ⟨n + 1, h⟩ hB]
  dsimp only
  exact outBSq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (fun hq => hB ((hcond1_0 ⟨n + 1, h⟩).mp hq)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (outsAt1 (F := Ideal) V c n (Nat.lt_of_succ_lt h)).1 (outsAt1 (F := Ideal) V c n (Nat.lt_of_succ_lt h)).2.1 (outsAt1 (F := Ideal) V c n (Nat.lt_of_succ_lt h)).2.2.1 (outsAt1 (F := Ideal) V c n (Nat.lt_of_succ_lt h)).2.2.2.1 (outsAt1 (F := Ideal) V c n (Nat.lt_of_succ_lt h)).2.2.2.2
theorem accMask_succ (c : Dev nD) (n : ℕ) (h : n + 1 < cfg1.N) :
    accMask V c (n + 1) h = addf (F := Ideal) (accMask V c n (Nat.lt_of_succ_lt h)) (bsMask V c ⟨n + 1, h⟩) := by
  have hN : cfg1.N = 200 := N_1
  have hB : ¬(⟨n + 1, h⟩ : Fin cfg1.N).val % 200 = 0 := by dsimp only; omega
  unfold bsMask
  show (outsAt1 (F := Ideal) V c (⟨n + 1, h⟩ : Fin cfg1.N).val (⟨n + 1, h⟩ : Fin cfg1.N).isLt).2.1 = _
  rw [outsAt1_B V c ⟨n + 1, h⟩ hB]
  dsimp only
  exact outBMask (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (fun hq => hB ((hcond1_0 ⟨n + 1, h⟩).mp hq)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (outsAt1 (F := Ideal) V c n (Nat.lt_of_succ_lt h)).1 (outsAt1 (F := Ideal) V c n (Nat.lt_of_succ_lt h)).2.1 (outsAt1 (F := Ideal) V c n (Nat.lt_of_succ_lt h)).2.2.1 (outsAt1 (F := Ideal) V c n (Nat.lt_of_succ_lt h)).2.2.2.1 (outsAt1 (F := Ideal) V c n (Nat.lt_of_succ_lt h)).2.2.2.2
theorem accPhys_succ (c : Dev nD) (n : ℕ) (h : n + 1 < cfg1.N) :
    accPhys V c (n + 1) h = addf (F := Ideal) (accPhys V c n (Nat.lt_of_succ_lt h)) (bsPhys V c ⟨n + 1, h⟩) := by
  have hN : cfg1.N = 200 := N_1
  have hB : ¬(⟨n + 1, h⟩ : Fin cfg1.N).val % 200 = 0 := by dsimp only; omega
  unfold bsPhys
  show (outsAt1 (F := Ideal) V c (⟨n + 1, h⟩ : Fin cfg1.N).val (⟨n + 1, h⟩ : Fin cfg1.N).isLt).2.2.1 = _
  rw [outsAt1_B V c ⟨n + 1, h⟩ hB]
  dsimp only
  exact outBPhys (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (fun hq => hB ((hcond1_0 ⟨n + 1, h⟩).mp hq)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (outsAt1 (F := Ideal) V c n (Nat.lt_of_succ_lt h)).1 (outsAt1 (F := Ideal) V c n (Nat.lt_of_succ_lt h)).2.1 (outsAt1 (F := Ideal) V c n (Nat.lt_of_succ_lt h)).2.2.1 (outsAt1 (F := Ideal) V c n (Nat.lt_of_succ_lt h)).2.2.2.1 (outsAt1 (F := Ideal) V c n (Nat.lt_of_succ_lt h)).2.2.2.2
theorem accPv_succ (c : Dev nD) (n : ℕ) (h : n + 1 < cfg1.N) :
    accPv V c (n + 1) h = addf (F := Ideal) (accPv V c n (Nat.lt_of_succ_lt h)) (bsPv V c ⟨n + 1, h⟩) := by
  have hN : cfg1.N = 200 := N_1
  have hB : ¬(⟨n + 1, h⟩ : Fin cfg1.N).val % 200 = 0 := by dsimp only; omega
  unfold bsPv
  show (outsAt1 (F := Ideal) V c (⟨n + 1, h⟩ : Fin cfg1.N).val (⟨n + 1, h⟩ : Fin cfg1.N).isLt).2.2.2.1 = _
  rw [outsAt1_B V c ⟨n + 1, h⟩ hB]
  dsimp only
  exact outBPv (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (fun hq => hB ((hcond1_0 ⟨n + 1, h⟩).mp hq)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (outsAt1 (F := Ideal) V c n (Nat.lt_of_succ_lt h)).1 (outsAt1 (F := Ideal) V c n (Nat.lt_of_succ_lt h)).2.1 (outsAt1 (F := Ideal) V c n (Nat.lt_of_succ_lt h)).2.2.1 (outsAt1 (F := Ideal) V c n (Nat.lt_of_succ_lt h)).2.2.2.1 (outsAt1 (F := Ideal) V c n (Nat.lt_of_succ_lt h)).2.2.2.2
theorem accCnt_succ (c : Dev nD) (n : ℕ) (h : n + 1 < cfg1.N) :
    accCnt V c (n + 1) h = addf (F := Ideal) (accCnt V c n (Nat.lt_of_succ_lt h)) (bsCnt V c ⟨n + 1, h⟩) := by
  have hN : cfg1.N = 200 := N_1
  have hB : ¬(⟨n + 1, h⟩ : Fin cfg1.N).val % 200 = 0 := by dsimp only; omega
  unfold bsCnt
  show (outsAt1 (F := Ideal) V c (⟨n + 1, h⟩ : Fin cfg1.N).val (⟨n + 1, h⟩ : Fin cfg1.N).isLt).2.2.2.2 = _
  rw [outsAt1_B V c ⟨n + 1, h⟩ hB]
  dsimp only
  exact outBCnt (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) (ms1_12 ⟨n + 1, h⟩) (hs1_12 ⟨n + 1, h⟩) (fun hq => hB ((hcond1_0 ⟨n + 1, h⟩).mp hq)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (outsAt1 (F := Ideal) V c n (Nat.lt_of_succ_lt h)).1 (outsAt1 (F := Ideal) V c n (Nat.lt_of_succ_lt h)).2.1 (outsAt1 (F := Ideal) V c n (Nat.lt_of_succ_lt h)).2.2.1 (outsAt1 (F := Ideal) V c n (Nat.lt_of_succ_lt h)).2.2.2.1 (outsAt1 (F := Ideal) V c n (Nat.lt_of_succ_lt h)).2.2.2.2

/-! ## The arrays behind the accumulators end at what the last point left -/

theorem last_lt : 199 < cfg1.N := by rw [show cfg1.N = 200 from N_1]; decide

/-! The block index of the five output windows never moves, so each array is written back once, after the last point, and
what is written back is what that point left. The array is a single [1,1] entry and the block is that entry at offset
(0, 0): fitting the block to the array and reading the block out of the array both change nothing. -/

/-- After point `n` the buffer behind window 8 holds the accumulator after `n`. -/
theorem afterSq (c : Dev nD) (n : ℕ) (hn : n < cfg1.N) :
    (dat1 (F := Ideal) V c).after 8 ⟨n, hn⟩ = accSq V c n hn := after1_8 V c ⟨n, hn⟩

/-- Window 8 at the last point: its block is the whole one-entry array, for any contents `G`. -/
theorem blockReadSq (G : FVec Ideal S1x1 .f32) :
    (cfg1.win 8).cut (grid1.coords ⟨199, last_lt⟩) G = ((cfg1.win 8).blk ⟨199, last_lt⟩).view.read (Elt Ideal) G := by
  have hz' : (fun a => win1_8.index ⟨199, last_lt⟩ a * main_v28_0.ty.shape.size a) = fun _ => 0 := funext fun a => by fin_cases a <;> decide +kernel
  exact (Memref.read_access_unit_zero (Elt Ideal) main_v28_0 hz' (fun a => by rw [congrFun hz' a]; simp) G).symm

/-- Window 8 is written back at point 199 only, with what that point left. -/
theorem flushedSq (c : Dev nD) (t : Fin cfg1.N) (hf : (cfg1.win 8).flush t = true) :
    (dat1 (F := Ideal) V c).flushed 8 t = ((cfg1.win 8).blk t).view.read (Elt Ideal) (accSq V c 199 last_lt) := by
  have hN : cfg1.N = 200 := N_1
  have h199 : t.val = 199 := by have := (flush1_8 t).mp hf; have := t.isLt; omega
  obtain rfl : t = ⟨199, last_lt⟩ := Fin.ext h199
  show (cfg1.win 8).cut (grid1.coords ⟨199, last_lt⟩) ((dat1 (F := Ideal) V c).after 8 ⟨199, last_lt⟩) = _
  rw [afterSq V c 199 last_lt]
  exact blockReadSq (accSq V c 199 last_lt)

/-- After point `n` the buffer behind window 9 holds the accumulator after `n`. -/
theorem afterMask (c : Dev nD) (n : ℕ) (hn : n < cfg1.N) :
    (dat1 (F := Ideal) V c).after 9 ⟨n, hn⟩ = accMask V c n hn := after1_9 V c ⟨n, hn⟩

/-- Window 9 at the last point: its block is the whole one-entry array, for any contents `G`. -/
theorem blockReadMask (G : FVec Ideal S1x1 .f32) :
    (cfg1.win 9).cut (grid1.coords ⟨199, last_lt⟩) G = ((cfg1.win 9).blk ⟨199, last_lt⟩).view.read (Elt Ideal) G := by
  have hz' : (fun a => win1_9.index ⟨199, last_lt⟩ a * main_v28_1.ty.shape.size a) = fun _ => 0 := funext fun a => by fin_cases a <;> decide +kernel
  exact (Memref.read_access_unit_zero (Elt Ideal) main_v28_1 hz' (fun a => by rw [congrFun hz' a]; simp) G).symm

/-- Window 9 is written back at point 199 only, with what that point left. -/
theorem flushedMask (c : Dev nD) (t : Fin cfg1.N) (hf : (cfg1.win 9).flush t = true) :
    (dat1 (F := Ideal) V c).flushed 9 t = ((cfg1.win 9).blk t).view.read (Elt Ideal) (accMask V c 199 last_lt) := by
  have hN : cfg1.N = 200 := N_1
  have h199 : t.val = 199 := by have := (flush1_9 t).mp hf; have := t.isLt; omega
  obtain rfl : t = ⟨199, last_lt⟩ := Fin.ext h199
  show (cfg1.win 9).cut (grid1.coords ⟨199, last_lt⟩) ((dat1 (F := Ideal) V c).after 9 ⟨199, last_lt⟩) = _
  rw [afterMask V c 199 last_lt]
  exact blockReadMask (accMask V c 199 last_lt)

/-- After point `n` the buffer behind window 10 holds the accumulator after `n`. -/
theorem afterPhys (c : Dev nD) (n : ℕ) (hn : n < cfg1.N) :
    (dat1 (F := Ideal) V c).after 10 ⟨n, hn⟩ = accPhys V c n hn := after1_10 V c ⟨n, hn⟩

/-- Window 10 at the last point: its block is the whole one-entry array, for any contents `G`. -/
theorem blockReadPhys (G : FVec Ideal S1x1 .f32) :
    (cfg1.win 10).cut (grid1.coords ⟨199, last_lt⟩) G = ((cfg1.win 10).blk ⟨199, last_lt⟩).view.read (Elt Ideal) G := by
  have hz' : (fun a => win1_10.index ⟨199, last_lt⟩ a * main_v28_2.ty.shape.size a) = fun _ => 0 := funext fun a => by fin_cases a <;> decide +kernel
  exact (Memref.read_access_unit_zero (Elt Ideal) main_v28_2 hz' (fun a => by rw [congrFun hz' a]; simp) G).symm

/-- Window 10 is written back at point 199 only, with what that point left. -/
theorem flushedPhys (c : Dev nD) (t : Fin cfg1.N) (hf : (cfg1.win 10).flush t = true) :
    (dat1 (F := Ideal) V c).flushed 10 t = ((cfg1.win 10).blk t).view.read (Elt Ideal) (accPhys V c 199 last_lt) := by
  have hN : cfg1.N = 200 := N_1
  have h199 : t.val = 199 := by have := (flush1_10 t).mp hf; have := t.isLt; omega
  obtain rfl : t = ⟨199, last_lt⟩ := Fin.ext h199
  show (cfg1.win 10).cut (grid1.coords ⟨199, last_lt⟩) ((dat1 (F := Ideal) V c).after 10 ⟨199, last_lt⟩) = _
  rw [afterPhys V c 199 last_lt]
  exact blockReadPhys (accPhys V c 199 last_lt)

/-- After point `n` the buffer behind window 11 holds the accumulator after `n`. -/
theorem afterPv (c : Dev nD) (n : ℕ) (hn : n < cfg1.N) :
    (dat1 (F := Ideal) V c).after 11 ⟨n, hn⟩ = accPv V c n hn := after1_11 V c ⟨n, hn⟩

/-- Window 11 at the last point: its block is the whole one-entry array, for any contents `G`. -/
theorem blockReadPv (G : FVec Ideal S1x1 .f32) :
    (cfg1.win 11).cut (grid1.coords ⟨199, last_lt⟩) G = ((cfg1.win 11).blk ⟨199, last_lt⟩).view.read (Elt Ideal) G := by
  have hz' : (fun a => win1_11.index ⟨199, last_lt⟩ a * main_v28_3.ty.shape.size a) = fun _ => 0 := funext fun a => by fin_cases a <;> decide +kernel
  exact (Memref.read_access_unit_zero (Elt Ideal) main_v28_3 hz' (fun a => by rw [congrFun hz' a]; simp) G).symm

/-- Window 11 is written back at point 199 only, with what that point left. -/
theorem flushedPv (c : Dev nD) (t : Fin cfg1.N) (hf : (cfg1.win 11).flush t = true) :
    (dat1 (F := Ideal) V c).flushed 11 t = ((cfg1.win 11).blk t).view.read (Elt Ideal) (accPv V c 199 last_lt) := by
  have hN : cfg1.N = 200 := N_1
  have h199 : t.val = 199 := by have := (flush1_11 t).mp hf; have := t.isLt; omega
  obtain rfl : t = ⟨199, last_lt⟩ := Fin.ext h199
  show (cfg1.win 11).cut (grid1.coords ⟨199, last_lt⟩) ((dat1 (F := Ideal) V c).after 11 ⟨199, last_lt⟩) = _
  rw [afterPv V c 199 last_lt]
  exact blockReadPv (accPv V c 199 last_lt)

/-- After point `n` the buffer behind window 12 holds the accumulator after `n`. -/
theorem afterCnt (c : Dev nD) (n : ℕ) (hn : n < cfg1.N) :
    (dat1 (F := Ideal) V c).after 12 ⟨n, hn⟩ = accCnt V c n hn := after1_12 V c ⟨n, hn⟩

/-- Window 12 at the last point: its block is the whole one-entry array, for any contents `G`. -/
theorem blockReadCnt (G : FVec Ideal S1x1 .f32) :
    (cfg1.win 12).cut (grid1.coords ⟨199, last_lt⟩) G = ((cfg1.win 12).blk ⟨199, last_lt⟩).view.read (Elt Ideal) G := by
  have hz' : (fun a => win1_12.index ⟨199, last_lt⟩ a * main_v28_4.ty.shape.size a) = fun _ => 0 := funext fun a => by fin_cases a <;> decide +kernel
  exact (Memref.read_access_unit_zero (Elt Ideal) main_v28_4 hz' (fun a => by rw [congrFun hz' a]; simp) G).symm

/-- Window 12 is written back at point 199 only, with what that point left. -/
theorem flushedCnt (c : Dev nD) (t : Fin cfg1.N) (hf : (cfg1.win 12).flush t = true) :
    (dat1 (F := Ideal) V c).flushed 12 t = ((cfg1.win 12).blk t).view.read (Elt Ideal) (accCnt V c 199 last_lt) := by
  have hN : cfg1.N = 200 := N_1
  have h199 : t.val = 199 := by have := (flush1_12 t).mp hf; have := t.isLt; omega
  obtain rfl : t = ⟨199, last_lt⟩ := Fin.ext h199
  show (cfg1.win 12).cut (grid1.coords ⟨199, last_lt⟩) ((dat1 (F := Ideal) V c).after 12 ⟨199, last_lt⟩) = _
  rw [afterCnt V c 199 last_lt]
  exact blockReadCnt (accCnt V c 199 last_lt)

theorem arrSq_last (c : Dev nD) : (dat1 (F := Ideal) V c).arrAt 8 cfg1.N = accSq V c 199 last_lt :=
  (dat1 (F := Ideal) V c).arrAt_eq_of_cover 8 (accSq V c 199 last_lt) (flushedSq V c) fun i =>
    ⟨⟨199, last_lt⟩, (flush1_8 ⟨199, last_lt⟩).mpr rfl, by
      show i ∈ ((View.whole main_v28_0).slice (win1_8.rect ⟨199, last_lt⟩)).set
      rw [View.set_slice_whole, Rect.mem_set_unit]
      have hlo : ∀ a, win1_8.index ⟨199, last_lt⟩ a * win1_8.size a = 0 := by decide +kernel
      have hsz : ∀ a, win1_8.xsize (grid1.coords ⟨199, last_lt⟩) a = 1 := by decide +kernel
      intro a
      have hi : (i a : Nat) < 1 := by fin_cases a <;> exact (i _).isLt
      show win1_8.index ⟨199, last_lt⟩ a * win1_8.size a ≤ (i a : Nat)
        ∧ (i a : Nat) < win1_8.index ⟨199, last_lt⟩ a * win1_8.size a + win1_8.xsize (grid1.coords ⟨199, last_lt⟩) a
      rw [hlo a, hsz a]; omega⟩
theorem arrMask_last (c : Dev nD) : (dat1 (F := Ideal) V c).arrAt 9 cfg1.N = accMask V c 199 last_lt :=
  (dat1 (F := Ideal) V c).arrAt_eq_of_cover 9 (accMask V c 199 last_lt) (flushedMask V c) fun i =>
    ⟨⟨199, last_lt⟩, (flush1_9 ⟨199, last_lt⟩).mpr rfl, by
      show i ∈ ((View.whole main_v28_1).slice (win1_9.rect ⟨199, last_lt⟩)).set
      rw [View.set_slice_whole, Rect.mem_set_unit]
      have hlo : ∀ a, win1_9.index ⟨199, last_lt⟩ a * win1_9.size a = 0 := by decide +kernel
      have hsz : ∀ a, win1_9.xsize (grid1.coords ⟨199, last_lt⟩) a = 1 := by decide +kernel
      intro a
      have hi : (i a : Nat) < 1 := by fin_cases a <;> exact (i _).isLt
      show win1_9.index ⟨199, last_lt⟩ a * win1_9.size a ≤ (i a : Nat)
        ∧ (i a : Nat) < win1_9.index ⟨199, last_lt⟩ a * win1_9.size a + win1_9.xsize (grid1.coords ⟨199, last_lt⟩) a
      rw [hlo a, hsz a]; omega⟩
theorem arrPhys_last (c : Dev nD) : (dat1 (F := Ideal) V c).arrAt 10 cfg1.N = accPhys V c 199 last_lt :=
  (dat1 (F := Ideal) V c).arrAt_eq_of_cover 10 (accPhys V c 199 last_lt) (flushedPhys V c) fun i =>
    ⟨⟨199, last_lt⟩, (flush1_10 ⟨199, last_lt⟩).mpr rfl, by
      show i ∈ ((View.whole main_v28_2).slice (win1_10.rect ⟨199, last_lt⟩)).set
      rw [View.set_slice_whole, Rect.mem_set_unit]
      have hlo : ∀ a, win1_10.index ⟨199, last_lt⟩ a * win1_10.size a = 0 := by decide +kernel
      have hsz : ∀ a, win1_10.xsize (grid1.coords ⟨199, last_lt⟩) a = 1 := by decide +kernel
      intro a
      have hi : (i a : Nat) < 1 := by fin_cases a <;> exact (i _).isLt
      show win1_10.index ⟨199, last_lt⟩ a * win1_10.size a ≤ (i a : Nat)
        ∧ (i a : Nat) < win1_10.index ⟨199, last_lt⟩ a * win1_10.size a + win1_10.xsize (grid1.coords ⟨199, last_lt⟩) a
      rw [hlo a, hsz a]; omega⟩
theorem arrPv_last (c : Dev nD) : (dat1 (F := Ideal) V c).arrAt 11 cfg1.N = accPv V c 199 last_lt :=
  (dat1 (F := Ideal) V c).arrAt_eq_of_cover 11 (accPv V c 199 last_lt) (flushedPv V c) fun i =>
    ⟨⟨199, last_lt⟩, (flush1_11 ⟨199, last_lt⟩).mpr rfl, by
      show i ∈ ((View.whole main_v28_3).slice (win1_11.rect ⟨199, last_lt⟩)).set
      rw [View.set_slice_whole, Rect.mem_set_unit]
      have hlo : ∀ a, win1_11.index ⟨199, last_lt⟩ a * win1_11.size a = 0 := by decide +kernel
      have hsz : ∀ a, win1_11.xsize (grid1.coords ⟨199, last_lt⟩) a = 1 := by decide +kernel
      intro a
      have hi : (i a : Nat) < 1 := by fin_cases a <;> exact (i _).isLt
      show win1_11.index ⟨199, last_lt⟩ a * win1_11.size a ≤ (i a : Nat)
        ∧ (i a : Nat) < win1_11.index ⟨199, last_lt⟩ a * win1_11.size a + win1_11.xsize (grid1.coords ⟨199, last_lt⟩) a
      rw [hlo a, hsz a]; omega⟩
theorem arrCnt_last (c : Dev nD) : (dat1 (F := Ideal) V c).arrAt 12 cfg1.N = accCnt V c 199 last_lt :=
  (dat1 (F := Ideal) V c).arrAt_eq_of_cover 12 (accCnt V c 199 last_lt) (flushedCnt V c) fun i =>
    ⟨⟨199, last_lt⟩, (flush1_12 ⟨199, last_lt⟩).mpr rfl, by
      show i ∈ ((View.whole main_v28_4).slice (win1_12.rect ⟨199, last_lt⟩)).set
      rw [View.set_slice_whole, Rect.mem_set_unit]
      have hlo : ∀ a, win1_12.index ⟨199, last_lt⟩ a * win1_12.size a = 0 := by decide +kernel
      have hsz : ∀ a, win1_12.xsize (grid1.coords ⟨199, last_lt⟩) a = 1 := by decide +kernel
      intro a
      have hi : (i a : Nat) < 1 := by fin_cases a <;> exact (i _).isLt
      show win1_12.index ⟨199, last_lt⟩ a * win1_12.size a ≤ (i a : Nat)
        ∧ (i a : Nat) < win1_12.index ⟨199, last_lt⟩ a * win1_12.size a + win1_12.xsize (grid1.coords ⟨199, last_lt⟩) a
      rw [hlo a, hsz a]; omega⟩

end Cert.KernelIdeal.NodeValue

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.LibReduceAll2.lean ====
/-
  Sums over the entries of a [1, a, b] array, and a lane reduction that collects all of them.

  An index of a [1, a, b] array is the pair of its last two coordinates, its first being 0. So the sum of the array over
  all its indices is the double sum over those two coordinates; and an [a, b] array seen as [1, a, b] and reduced by
  addition over its last two axes into one entry — at the exact instance, from the zero word — has that double sum as
  its entry, also after the entry is seen as [1, 1, 1], taken out and spread over a [1, 1] array. Any sizes a, b.
  Beside it, the absolute value of an array of extended reals read at an index: the larger of the entry and its negation.
-/
import Idealize.ShloMosaic.PureOps.Ideal
import Idealize.ShloMosaic.PureOps.Ideal.Laws
import Idealize.ShloMosaic.Lib.ValueIdx
import Idealize.ShloMosaic.Lib.ValueLayout
import Mathlib.Algebra.BigOperators.Fin
import Mathlib.Data.Fintype.BigOperators

noncomputable section

namespace Cert.LibReduceAll2

open Idealize.ShloMosaic Idealize.ShloMosaic.ValueIdx
open scoped BigOperators

/-- The indices of a [1, a, b] array are the pairs of their last two coordinates. -/
def idxEquiv1ab {a b : ℕ} : (⟨3, ![1, a, b]⟩ : Shape).Idx ≃ Fin a × Fin b where
  toFun i := (i 1, i 2)
  invFun p := ix3 (0 : Fin 1) p.1 p.2
  left_inv i := by
    have h0 : (i 0 : Fin 1) = (0 : Fin 1) := Subsingleton.elim (α := Fin 1) _ _
    rw [← h0]; exact (eq_ix3 i).symm
  right_inv _ := rfl

/-- A sum over the indices of a [1, a, b] array is the double sum over the last two coordinates. -/
theorem sum_idx1ab {M : Type*} [AddCommMonoid M] {a b : ℕ} (f : (⟨3, ![1, a, b]⟩ : Shape).Idx → M) :
    ∑ i, f i = ∑ p : Fin a, ∑ j : Fin b, f (ix3 (0 : Fin 1) p j) := by
  rw [← Equiv.sum_comp (idxEquiv1ab (a := a) (b := b)).symm f, Fintype.sum_prod_type]
  rfl

/-- An [a, b] array seen as [1, a, b] and summed over its last two axes: the one entry of the result is the double sum
    of the array over its rows and columns. -/
theorem reduce_all_1ab {a b : ℕ} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ) (k : (⟨1, ![1]⟩ : Shape).Idx) :
    multiReduction (F := Ideal) .add [1, 2] ⟨1, ![1]⟩ (shapeCast ⟨3, ![1, a, b]⟩ v hc) 0x00000000#32 hr hφ hacc k
      = ∑ p : Fin a, ∑ j : Fin b, v (ix2 p j) := by
  rw [Ideal.multiReduction_add_total _ _ hr (fun d => by match d with | ⟨0, _⟩ => rfl) hφ hacc k, sum_idx1ab]
  refine Finset.sum_congr rfl fun p _ => Finset.sum_congr rfl fun j _ => ?_
  exact shapeCast_ab_1ab_apply v hc 0 p j

/-- The same sum, after the one-entry result is seen as [1, 1, 1], its entry taken out and spread over a [1, 1] array:
    every entry of that array is the double sum. -/
theorem total_read {a b : ℕ} (v : FVec Ideal ⟨2, ![a, b]⟩ .f32)
    (hc : (⟨2, ![a, b]⟩ : Shape).ShapeCasts ⟨3, ![1, a, b]⟩)
    (hr : (⟨3, ![1, a, b]⟩ : Shape).Reduces [1, 2] ⟨1, ![1]⟩)
    (hφ : FKind.Formats .f32) (hacc : (0x00000000#32 : BitVec 32) = FKind.add.neutral .f32 hφ)
    (hc1 : (⟨1, ![1]⟩ : Shape).ShapeCasts ⟨3, ![1, 1, 1]⟩)
    (hin : ∀ d, (![0, 0, 0] : Fin 3 → ℕ) d < (⟨3, ![1, 1, 1]⟩ : Shape).size d)
    (i : (⟨2, ![1, 1]⟩ : Shape).Idx) :
    broadcast ⟨2, ![1, 1]⟩ (extractAt ![0, 0, 0] (shapeCast ⟨3, ![1, 1, 1]⟩
        (multiReduction (F := Ideal) .add [1, 2] ⟨1, ![1]⟩ (shapeCast ⟨3, ![1, a, b]⟩ v hc) 0x00000000#32 hr hφ hacc) hc1) hin) i
      = ∑ p : Fin a, ∑ j : Fin b, v (ix2 p j) :=
  reduce_all_1ab v hc hr hφ hacc _

/-- The absolute value of an array of extended reals, entry by entry: the larger of the entry and its negation. -/
theorem absf_apply {s : Shape} {φ : FTy} (a : FVec Ideal s φ) (i : s.Idx) : absf a i = max (a i) (-(a i)) := rfl

end Cert.LibReduceAll2

end
-- ==== Proof.NodeSums.lean ====
/-
  The second grid, as sums. A point's block sum is the sum, over the 5000 nodes of its block (and the two columns, where
  the summed array has two), of the node's term; the block of point t is nodes 5000·t … 5000·t + 4999, and the 200 blocks
  are the 1 000 000 nodes, each once. Adding the block sums one after another from zero therefore gives the sum of the
  term over all nodes: addition of extended reals is commutative and associative whatever the values.
-/
import proofs.«161120_j88115549044894_1_alg».proof.Proof.Gen.KernelIdeal.Frame
import proofs.«161120_j88115549044894_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«161120_j88115549044894_1_alg».proof.Proof.NodeSteps
import proofs.«161120_j88115549044894_1_alg».proof.Proof.LibBlockSum
import proofs.«161120_j88115549044894_1_alg».proof.Proof.LibIdealReal
import proofs.«161120_j88115549044894_1_alg».proof.Proof.LibReduceAll2

noncomputable section

open Idealize.ShloMosaic Idealize.ShloMosaic.TcCoe Idealize.SL.Sem Idealize.ShloMosaic.ValueIdx
open Idealize.ShloMosaic.Pipeline (Dat)

namespace Cert.KernelIdeal.NodeValue

open Cert.KernelIdeal Cert.KernelIdeal.Gen Cert.LibReduceAll2

variable (V : (c : Dev nD) → (b : Ref sig .tc) → Buf (Elt Ideal) ((c : Thread nD τ).loc b))

/-- A number as a one-element array. -/
def sc11 (x : EReal) : FVec Ideal S1x1 .f32 := fun _ => x

/-- The bus kinds and the target magnitudes, one per node, out of their one-column arrays. -/
abbrev btOf (c : Dev nD) : Fin 1000000 → BitVec 32 := fun r => V c main_v26 (ix2 (n0 := 1000000) (n1 := 1) r 0)
abbrev tvOf (c : Dev nD) : Fin 1000000 → EReal := fun r => V c main_v27 (ix2 (n0 := 1000000) (n1 := 1) r 0)

/-! ## A block's entry is the array's

The block of point t of a row-blocked array is its rows 5000·t … 5000·t + 4999, all columns: the block's entry (p, j) is
the array's entry (5000·t + p, j). The two normalisation rows are read whole at every point. -/

/-- The block index of each input window at point t: (t, 0) for the six row-blocked arrays, (0, 0) for the two rows. -/
theorem idxRow : ∀ t : Fin grid1.N,
    (win1_0.index t (0 : Fin 2) = t.val ∧ win1_0.index t (1 : Fin 2) = 0) ∧
    (win1_1.index t (0 : Fin 2) = t.val ∧ win1_1.index t (1 : Fin 2) = 0) ∧
    (win1_2.index t (0 : Fin 2) = t.val ∧ win1_2.index t (1 : Fin 2) = 0) ∧
    (win1_3.index t (0 : Fin 2) = t.val ∧ win1_3.index t (1 : Fin 2) = 0) ∧
    (win1_4.index t (0 : Fin 2) = t.val ∧ win1_4.index t (1 : Fin 2) = 0) ∧
    (win1_5.index t (0 : Fin 2) = t.val ∧ win1_5.index t (1 : Fin 2) = 0) ∧
    (win1_6.index t (0 : Fin 2) = 0 ∧ win1_6.index t (1 : Fin 2) = 0) ∧
    (win1_7.index t (0 : Fin 2) = 0 ∧ win1_7.index t (1 : Fin 2) = 0) := by decide +kernel

/-- Row p of block t is a row of the array. -/
theorem row_lt (t : Fin cfg1.N) (p : Fin 5000) : 5000 * t.val + p.val < 1000000 := by
  have hN : cfg1.N = 200 := N_1
  have := t.isLt
  omega

theorem blk0_apply (c : Dev nD) (t : Fin cfg1.N) (p : Fin 5000) (j : Fin 2) :
    iblk1 (F := Ideal) V c 0 t (ix2 p j) = V c main_arg0 (ix2 (n0 := 1000000) (n1 := 2) ⟨5000 * t.val + p.val, row_lt t p⟩ j) := by
  have hi := (idxRow t).1
  unfold iblk1
  rw [View.read_apply]
  show V c main_arg0 _ = V c main_arg0 _
  congr 1
  funext a
  apply Fin.ext
  match a with
  | ⟨0, _⟩ => show win1_0.index t 0 * 5000 + 1 * p.val = 5000 * t.val + p.val; rw [hi.1]; omega
  | ⟨1, _⟩ => show win1_0.index t 1 * 2 + 1 * j.val = j.val; rw [hi.2]; omega

theorem blk1_apply (c : Dev nD) (t : Fin cfg1.N) (p : Fin 5000) (j : Fin 4) :
    iblk1 (F := Ideal) V c 1 t (ix2 p j) = V c main_arg1 (ix2 (n0 := 1000000) (n1 := 4) ⟨5000 * t.val + p.val, row_lt t p⟩ j) := by
  have hi := (idxRow t).2.1
  unfold iblk1
  rw [View.read_apply]
  show V c main_arg1 _ = V c main_arg1 _
  congr 1
  funext a
  apply Fin.ext
  match a with
  | ⟨0, _⟩ => show win1_1.index t 0 * 5000 + 1 * p.val = 5000 * t.val + p.val; rw [hi.1]; omega
  | ⟨1, _⟩ => show win1_1.index t 1 * 4 + 1 * j.val = j.val; rw [hi.2]; omega

theorem blk2_apply (c : Dev nD) (t : Fin cfg1.N) (p : Fin 5000) (j : Fin 4) :
    iblk1 (F := Ideal) V c 2 t (ix2 p j) = V c main_arg2 (ix2 (n0 := 1000000) (n1 := 4) ⟨5000 * t.val + p.val, row_lt t p⟩ j) := by
  have hi := (idxRow t).2.2.1
  unfold iblk1
  rw [View.read_apply]
  show V c main_arg2 _ = V c main_arg2 _
  congr 1
  funext a
  apply Fin.ext
  match a with
  | ⟨0, _⟩ => show win1_2.index t 0 * 5000 + 1 * p.val = 5000 * t.val + p.val; rw [hi.1]; omega
  | ⟨1, _⟩ => show win1_2.index t 1 * 4 + 1 * j.val = j.val; rw [hi.2]; omega

theorem blk3_apply (c : Dev nD) (t : Fin cfg1.N) (p : Fin 5000) (j : Fin 2) :
    iblk1 (F := Ideal) V c 3 t (ix2 p j) = V c main_v25 (ix2 (n0 := 1000000) (n1 := 2) ⟨5000 * t.val + p.val, row_lt t p⟩ j) := by
  have hi := (idxRow t).2.2.2.1
  unfold iblk1
  rw [View.read_apply]
  show V c main_v25 _ = V c main_v25 _
  congr 1
  funext a
  apply Fin.ext
  match a with
  | ⟨0, _⟩ => show win1_3.index t 0 * 5000 + 1 * p.val = 5000 * t.val + p.val; rw [hi.1]; omega
  | ⟨1, _⟩ => show win1_3.index t 1 * 2 + 1 * j.val = j.val; rw [hi.2]; omega

theorem blk4_apply (c : Dev nD) (t : Fin cfg1.N) (p : Fin 5000) (j : Fin 1) :
    iblk1 (F := Ideal) V c 4 t (ix2 p j) = V c main_v26 (ix2 (n0 := 1000000) (n1 := 1) ⟨5000 * t.val + p.val, row_lt t p⟩ j) := by
  have hi := (idxRow t).2.2.2.2.1
  unfold iblk1
  rw [View.read_apply]
  show V c main_v26 _ = V c main_v26 _
  congr 1
  funext a
  apply Fin.ext
  match a with
  | ⟨0, _⟩ => show win1_4.index t 0 * 5000 + 1 * p.val = 5000 * t.val + p.val; rw [hi.1]; omega
  | ⟨1, _⟩ => show win1_4.index t 1 * 1 + 1 * j.val = j.val; rw [hi.2]; omega

theorem blk5_apply (c : Dev nD) (t : Fin cfg1.N) (p : Fin 5000) (j : Fin 1) :
    iblk1 (F := Ideal) V c 5 t (ix2 p j) = V c main_v27 (ix2 (n0 := 1000000) (n1 := 1) ⟨5000 * t.val + p.val, row_lt t p⟩ j) := by
  have hi := (idxRow t).2.2.2.2.2.1
  unfold iblk1
  rw [View.read_apply]
  show V c main_v27 _ = V c main_v27 _
  congr 1
  funext a
  apply Fin.ext
  match a with
  | ⟨0, _⟩ => show win1_5.index t 0 * 5000 + 1 * p.val = 5000 * t.val + p.val; rw [hi.1]; omega
  | ⟨1, _⟩ => show win1_5.index t 1 * 1 + 1 * j.val = j.val; rw [hi.2]; omega

theorem blk6_apply (c : Dev nD) (t : Fin cfg1.N) (u : Fin 1) (j : Fin 4) :
    iblk1 (F := Ideal) V c 6 t (ix2 u j) = V c main_arg7 (ix2 (n0 := 1) (n1 := 4) u j) := by
  have hi := (idxRow t).2.2.2.2.2.2.1
  unfold iblk1
  rw [View.read_apply]
  show V c main_arg7 _ = V c main_arg7 _
  congr 1
  funext a
  apply Fin.ext
  match a with
  | ⟨0, _⟩ => show win1_6.index t 0 * 1 + 1 * u.val = u.val; rw [hi.1]; omega
  | ⟨1, _⟩ => show win1_6.index t 1 * 4 + 1 * j.val = j.val; rw [hi.2]; omega

theorem blk7_apply (c : Dev nD) (t : Fin cfg1.N) (u : Fin 1) (j : Fin 4) :
    iblk1 (F := Ideal) V c 7 t (ix2 u j) = V c main_arg8 (ix2 (n0 := 1) (n1 := 4) u j) := by
  have hi := (idxRow t).2.2.2.2.2.2.2
  unfold iblk1
  rw [View.read_apply]
  show V c main_arg8 _ = V c main_arg8 _
  congr 1
  funext a
  apply Fin.ext
  match a with
  | ⟨0, _⟩ => show win1_7.index t 0 * 1 + 1 * u.val = u.val; rw [hi.1]; omega
  | ⟨1, _⟩ => show win1_7.index t 1 * 4 + 1 * j.val = j.val; rw [hi.2]; omega

/-! ## The five block sums, from the blocks' entries

Each block sum is the double sum, over the block's 5000 rows and the summed array's columns, of a term built entry by
entry from the blocks: the last two of four columns are columns 2 + j, the first two are columns j, a row of two
numbers spread over 5000 rows is that row at every row, and a column cut out of two is that column. -/

/-- The squared-error block sum: (e, f) minus the targets' last two columns, squared, times the weights' last two. -/
theorem paySq_eq (x0 : FVec Ideal S5000x2 .f32) (x1 x2 : FVec Ideal S5000x4 .f32) :
    k1_pay13 (F := Ideal) x0 x1 x2 = sc11 (∑ p : Fin 5000, ∑ j : Fin 2,
      (x0 (ix2 p j) - x1 (ix2 p (Cert.Spec.hi j))) * (x0 (ix2 p j) - x1 (ix2 p (Cert.Spec.hi j))) * x2 (ix2 p (Cert.Spec.hi j))) := by
  funext i
  unfold k1_pay13 k1_pay12
  refine (total_read _ _ _ _ _ _ _ i).trans ?_
  refine Finset.sum_congr rfl fun p _ => Finset.sum_congr rfl fun j _ => ?_
  rw [mulf_apply, mulf_apply, subf_apply, slice2_axis1_apply 2 x1 _ p j (Cert.Spec.hi j) rfl,
    slice2_axis1_apply 2 x2 _ p j (Cert.Spec.hi j) rfl]

/-- The weights' block sum: the weights' last two columns. -/
theorem payMask_eq (x2 : FVec Ideal S5000x4 .f32) :
    k1_pay14 (F := Ideal) x2 = sc11 (∑ p : Fin 5000, ∑ j : Fin 2, x2 (ix2 p (Cert.Spec.hi j))) := by
  funext i
  unfold k1_pay14 k1_pay12
  refine (total_read _ _ _ _ _ _ _ i).trans ?_
  refine Finset.sum_congr rfl fun p _ => Finset.sum_congr rfl fun j _ => ?_
  rw [slice2_axis1_apply 2 x2 _ p j (Cert.Spec.hi j) rfl]

/-- The imbalance block sum: the targets' first two columns times (scale + ε) plus mean, plus the node's pair, squared. -/
theorem payPhys_eq (x1 : FVec Ideal S5000x4 .f32) (x3 : FVec Ideal S5000x2 .f32) (x6 x7 : FVec Ideal S1x4 .f32) :
    k1_pay17 (F := Ideal) (k1_pay9 (F := Ideal) x3) (k1_pay15 (F := Ideal) x1 x7) (k1_pay16 (F := Ideal) x6)
      = sc11 (∑ p : Fin 5000, ∑ j : Fin 2,
          ((x1 (ix2 p (Cert.Spec.lo j)) * (x7 (ix2 0 (Cert.Spec.lo j)) + Cert.Spec.eps) + x6 (ix2 0 (Cert.Spec.lo j))) + x3 (ix2 p j))
          * ((x1 (ix2 p (Cert.Spec.lo j)) * (x7 (ix2 0 (Cert.Spec.lo j)) + Cert.Spec.eps) + x6 (ix2 0 (Cert.Spec.lo j))) + x3 (ix2 p j))) := by
  funext i
  unfold k1_pay17 k1_pay9 k1_pay15 k1_pay16
  refine (total_read _ _ _ _ _ _ _ i).trans ?_
  refine Finset.sum_congr rfl fun p _ => Finset.sum_congr rfl fun j _ => ?_
  simp only [mulf_apply, addf_apply, shapeCast_self]
  rw [slice2_axis1_apply 0 x1 _ p j (Cert.Spec.lo j) (Nat.zero_add _).symm,
    broadcastTo_1b_ab_apply _ _ p j, broadcastTo_1b_ab_apply _ _ p j]
  simp only [addf_apply, broadcast_apply]
  rw [slice2_axis1_apply 0 x7 _ (0 : Fin 1) j (Cert.Spec.lo j) (Nat.zero_add _).symm,
    slice2_axis1_apply 0 x6 _ (0 : Fin 1) j (Cert.Spec.lo j) (Nat.zero_add _).symm]
  rfl

/-- The kind-1 indicator of a row of bus kinds: one where the kind is 1, else zero. -/
theorem pay18_apply (v9 : IVec S5000x1 32) (i : S5000x1.Idx) : k1_pay18 (F := Ideal) v9 i = Cert.Spec.isPv (v9 i) := by
  unfold k1_pay18 Cert.Spec.isPv
  show FloatOps.sitofp (F := Ideal) .f32 ((IntOp.cmpi .eq (v9 i) 1#32).setWidth 32) = _
  rw [Cert.LibIdealReal.sitofp_extui_bit, ← Cert.LibIdealReal.uitofp_bit (φ := .f32), Cert.LibIdealReal.uitofp_def]

/-- The de-normalised node value read off the blocks: (e, f) times (scale + ε) plus mean, over the rows' last two columns. -/
theorem efBlock_apply (x0 : FVec Ideal S5000x2 .f32) (x6 x7 : FVec Ideal S1x4 .f32)
    (h7 : S1x4.Slices ![0, 2] S1x2) (hb : S1x2.Broadcasts S5000x2) (p : Fin 5000) (j : Fin 2) :
    addf (mulf x0 (broadcastTo S5000x2 (addf (extractStridedSlice S1x2 ![0, 2] x7 h7)
        (broadcast S1x2 (Scalar.ofBits (F := Ideal) .f32 0x33D6BF95#32))) hb))
      (broadcastTo S5000x2 (extractStridedSlice S1x2 ![0, 2] x6 h7) hb) (ix2 p j)
      = x0 (ix2 p j) * (x7 (ix2 0 (Cert.Spec.hi j)) + Cert.Spec.eps) + x6 (ix2 0 (Cert.Spec.hi j)) := by
  simp only [mulf_apply, addf_apply]
  rw [broadcastTo_1b_ab_apply _ _ p j, broadcastTo_1b_ab_apply _ _ p j]
  simp only [addf_apply, broadcast_apply]
  rw [slice2_axis1_apply 2 x7 _ (0 : Fin 1) j (Cert.Spec.hi j) rfl, slice2_axis1_apply 2 x6 _ (0 : Fin 1) j (Cert.Spec.hi j) rfl]
  rfl

/-- The magnitude block sum: | e'² + f'² − tv² | at the rows whose kind is 1. -/
theorem payPv_eq (x0 : FVec Ideal S5000x2 .f32) (x4 : IVec S5000x1 32) (x5 : FVec Ideal S5000x1 .f32) (x6 x7 : FVec Ideal S1x4 .f32) :
    k1_pay19 (F := Ideal) x0 (k1_pay10 (F := Ideal) x4) (k1_pay11 (F := Ideal) x5) x6 x7
      = sc11 (∑ p : Fin 5000,
          max (((x0 (ix2 p 0) * (x7 (ix2 0 (Cert.Spec.hi 0)) + Cert.Spec.eps) + x6 (ix2 0 (Cert.Spec.hi 0)))
                * (x0 (ix2 p 0) * (x7 (ix2 0 (Cert.Spec.hi 0)) + Cert.Spec.eps) + x6 (ix2 0 (Cert.Spec.hi 0)))
              + (x0 (ix2 p 1) * (x7 (ix2 0 (Cert.Spec.hi 1)) + Cert.Spec.eps) + x6 (ix2 0 (Cert.Spec.hi 1)))
                * (x0 (ix2 p 1) * (x7 (ix2 0 (Cert.Spec.hi 1)) + Cert.Spec.eps) + x6 (ix2 0 (Cert.Spec.hi 1))))
              - x5 (ix2 p 0) * x5 (ix2 p 0))
            (-(((x0 (ix2 p 0) * (x7 (ix2 0 (Cert.Spec.hi 0)) + Cert.Spec.eps) + x6 (ix2 0 (Cert.Spec.hi 0)))
                * (x0 (ix2 p 0) * (x7 (ix2 0 (Cert.Spec.hi 0)) + Cert.Spec.eps) + x6 (ix2 0 (Cert.Spec.hi 0)))
              + (x0 (ix2 p 1) * (x7 (ix2 0 (Cert.Spec.hi 1)) + Cert.Spec.eps) + x6 (ix2 0 (Cert.Spec.hi 1)))
                * (x0 (ix2 p 1) * (x7 (ix2 0 (Cert.Spec.hi 1)) + Cert.Spec.eps) + x6 (ix2 0 (Cert.Spec.hi 1))))
              - x5 (ix2 p 0) * x5 (ix2 p 0)))
          * Cert.Spec.isPv (x4 (ix2 p 0))) := by
  funext i
  unfold k1_pay19 k1_pay10 k1_pay11
  refine (total_read _ _ _ _ _ _ _ i).trans ?_
  refine Finset.sum_congr rfl fun p _ => ?_
  rw [Fin.sum_univ_one]
  simp only [mulf_apply, addf_apply, subf_apply, absf_apply, shapeCast_self, pay18_apply]
  rw [slice2_axis1_apply 0 _ _ p (0 : Fin 1) (0 : Fin 2) rfl, slice2_axis1_apply 1 _ _ p (0 : Fin 1) (1 : Fin 2) rfl,
    efBlock_apply, efBlock_apply]

/-- The count block sum: the kind-1 indicator. -/
theorem payCnt_eq (x4 : IVec S5000x1 32) :
    k1_pay20 (F := Ideal) (k1_pay10 (F := Ideal) x4) = sc11 (∑ p : Fin 5000, Cert.Spec.isPv (x4 (ix2 p 0))) := by
  funext i
  unfold k1_pay20 k1_pay10
  refine (total_read _ _ _ _ _ _ _ i).trans ?_
  refine Finset.sum_congr rfl fun p _ => ?_
  rw [Fin.sum_univ_one, pay18_apply, shapeCast_self]

/-! ## Adding the block sums up

The accumulator starts at zero plus block 0's sum and each later point adds its block's sum, so after point n it holds the
sum of the block sums of points 0 … n. Block t's sum is the sum of a row term over rows 5000·t … 5000·t + 4999; the 200
blocks are the 1 000 000 rows, each once, so after the last point the accumulator holds the sum of the term over all rows. -/

/-- The sum of a row term over the 5000 rows of block t (zero for a t beyond the 200 blocks). -/
def blockSum (f : Fin 1000000 → EReal) (t : ℕ) : EReal :=
  if h : t < 200 then ∑ p : Fin 5000, f ⟨5000 * t + p.val, by have := p.isLt; omega⟩ else 0

/-- The 200 block sums add up to the sum over all rows. -/
theorem sum_blockSum (f : Fin 1000000 → EReal) : ∑ t ∈ Finset.range 200, blockSum f t = ∑ r : Fin 1000000, f r := by
  rw [Finset.sum_range]
  refine Eq.trans (Finset.sum_congr rfl fun b _ => ?_) (Cert.BlockSum.sum_blocks 200 5000 f)
  unfold blockSum
  rw [dif_pos b.isLt]

/-- A sequence of one-element arrays that starts at zero plus the first block sum and adds the next block sum at each
    step holds, after step n, the sum of the first n + 1 block sums. -/
theorem acc_range (acc : (n : ℕ) → n < cfg1.N → FVec Ideal S1x1 .f32) (bs : Fin cfg1.N → FVec Ideal S1x1 .f32)
    (f : Fin 1000000 → EReal)
    (h0 : ∀ h, acc 0 h = addf (F := Ideal) zero11 (bs ⟨0, h⟩))
    (hs : ∀ n (h : n + 1 < cfg1.N), acc (n + 1) h = addf (F := Ideal) (acc n (Nat.lt_of_succ_lt h)) (bs ⟨n + 1, h⟩))
    (hb : ∀ t : Fin cfg1.N, bs t = sc11 (∑ p : Fin 5000, f ⟨5000 * t.val + p.val, row_lt t p⟩)) :
    ∀ n (h : n < cfg1.N), acc n h = sc11 (∑ t ∈ Finset.range (n + 1), blockSum f t) := by
  have hN : cfg1.N = 200 := N_1
  have hbs : ∀ t : Fin cfg1.N, bs t = sc11 (blockSum f t.val) := fun t => by
    rw [hb t]; unfold blockSum; rw [dif_pos (by have := t.isLt; omega)]
  intro n
  induction n with
  | zero =>
    intro h
    rw [h0 h, hbs]
    funext i
    show Ideal.ofBits .f32 0x00000000#32 + blockSum f 0 = ∑ t ∈ Finset.range 1, blockSum f t
    rw [Ideal.ofBits_zero_f32, zero_add, Finset.sum_range_one]
  | succ n ih =>
    intro h
    rw [hs n h, ih, hbs, Finset.sum_range_succ _ (n + 1)]
    rfl

/-- … and after the last step the sum of the row term over all rows. -/
theorem acc_last (acc : (n : ℕ) → n < cfg1.N → FVec Ideal S1x1 .f32) (bs : Fin cfg1.N → FVec Ideal S1x1 .f32)
    (f : Fin 1000000 → EReal)
    (h0 : ∀ h, acc 0 h = addf (F := Ideal) zero11 (bs ⟨0, h⟩))
    (hs : ∀ n (h : n + 1 < cfg1.N), acc (n + 1) h = addf (F := Ideal) (acc n (Nat.lt_of_succ_lt h)) (bs ⟨n + 1, h⟩))
    (hb : ∀ t : Fin cfg1.N, bs t = sc11 (∑ p : Fin 5000, f ⟨5000 * t.val + p.val, row_lt t p⟩))
    (hl : 199 < cfg1.N) : acc 199 hl = sc11 (∑ r : Fin 1000000, f r) :=
  (acc_range acc bs f h0 hs hb 199 hl).trans (congrArg sc11 (sum_blockSum f))

/-! ## The five row terms, and the five sums -/

/-- Row r's squared-error term, its weight term, its imbalance term (each over the two columns), its magnitude term and
    its kind-1 indicator: the specification's summands. -/
def sqRow (pe : Cert.Spec.N2) (ty mk : Cert.Spec.N4) (r : Fin 1000000) : EReal :=
  ∑ j : Fin 2, (pe (ix2 r j) - ty (ix2 r (Cert.Spec.hi j))) * (pe (ix2 r j) - ty (ix2 r (Cert.Spec.hi j))) * mk (ix2 r (Cert.Spec.hi j))
def maskRow (mk : Cert.Spec.N4) (r : Fin 1000000) : EReal := ∑ j : Fin 2, mk (ix2 r (Cert.Spec.hi j))
def physRow (ty : Cert.Spec.N4) (xs xm : Cert.Spec.R4) (nf : Cert.Spec.N2) (r : Fin 1000000) : EReal :=
  ∑ j : Fin 2, Cert.Spec.imbalance ty xs xm nf r j * Cert.Spec.imbalance ty xs xm nf r j
def pvRow (pe : Cert.Spec.N2) (xs xm : Cert.Spec.R4) (tv : Fin 1000000 → EReal) (bt : Fin 1000000 → BitVec 32) (r : Fin 1000000) : EReal :=
  max (Cert.Spec.vmDiff pe xs xm tv r) (-(Cert.Spec.vmDiff pe xs xm tv r)) * Cert.Spec.isPv (bt r)

theorem sumSq_rows (pe : Cert.Spec.N2) (ty mk : Cert.Spec.N4) : Cert.Spec.sumSq pe ty mk = ∑ r, sqRow pe ty mk r := rfl
theorem sumMask_rows (mk : Cert.Spec.N4) : Cert.Spec.sumMask mk = ∑ r, maskRow mk r := rfl
theorem sumPhys_rows (ty : Cert.Spec.N4) (xs xm : Cert.Spec.R4) (nf : Cert.Spec.N2) :
    Cert.Spec.sumPhys ty xs xm nf = ∑ r, physRow ty xs xm nf r := rfl
theorem cnt_rows (bt : Fin 1000000 → BitVec 32) : Cert.Spec.cnt bt = ∑ r, (fun r => Cert.Spec.isPv (bt r)) r := rfl
theorem sumPv_rows (pe : Cert.Spec.N2) (xs xm : Cert.Spec.R4) (tv : Fin 1000000 → EReal) (bt : Fin 1000000 → BitVec 32) :
    Cert.Spec.sumPv pe xs xm tv bt = ∑ r, pvRow pe xs xm tv bt r := rfl

/-- Block t's squared-error sum is the sum of the rows' terms over block t. -/
theorem bsSq_eq (c : Dev nD) (t : Fin cfg1.N) :
    bsSq V c t = sc11 (∑ p : Fin 5000, sqRow (V c main_arg0) (V c main_arg1) (V c main_arg2) ⟨5000 * t.val + p.val, row_lt t p⟩) := by
  unfold bsSq
  refine (paySq_eq (iblk1 V c 0 t) (iblk1 V c 1 t) (iblk1 V c 2 t)).trans (congrArg sc11 ?_)
  refine Finset.sum_congr rfl fun p _ => Finset.sum_congr rfl fun j _ => ?_
  rw [blk0_apply V c t p j, blk1_apply V c t p (Cert.Spec.hi j), blk2_apply V c t p (Cert.Spec.hi j)]

theorem bsMask_eq (c : Dev nD) (t : Fin cfg1.N) :
    bsMask V c t = sc11 (∑ p : Fin 5000, maskRow (V c main_arg2) ⟨5000 * t.val + p.val, row_lt t p⟩) := by
  unfold bsMask
  refine (payMask_eq (iblk1 V c 2 t)).trans (congrArg sc11 ?_)
  refine Finset.sum_congr rfl fun p _ => Finset.sum_congr rfl fun j _ => ?_
  rw [blk2_apply V c t p (Cert.Spec.hi j)]

theorem bsPhys_eq (c : Dev nD) (t : Fin cfg1.N) :
    bsPhys V c t = sc11 (∑ p : Fin 5000,
      physRow (V c main_arg1) (V c main_arg8) (V c main_arg7) (V c main_v25) ⟨5000 * t.val + p.val, row_lt t p⟩) := by
  unfold bsPhys
  refine (payPhys_eq (iblk1 V c 1 t) (iblk1 V c 3 t) (iblk1 V c 6 t) (iblk1 V c 7 t)).trans (congrArg sc11 ?_)
  refine Finset.sum_congr rfl fun p _ => Finset.sum_congr rfl fun j _ => ?_
  rw [blk1_apply V c t p (Cert.Spec.lo j), blk3_apply V c t p j, blk6_apply V c t 0 (Cert.Spec.lo j),
    blk7_apply V c t 0 (Cert.Spec.lo j)]
  rfl

theorem bsPv_eq (c : Dev nD) (t : Fin cfg1.N) :
    bsPv V c t = sc11 (∑ p : Fin 5000,
      pvRow (V c main_arg0) (V c main_arg8) (V c main_arg7) (tvOf V c) (btOf V c) ⟨5000 * t.val + p.val, row_lt t p⟩) := by
  unfold bsPv
  refine (payPv_eq (iblk1 V c 0 t) (iblk1 V c 4 t) (iblk1 V c 5 t) (iblk1 V c 6 t) (iblk1 V c 7 t)).trans (congrArg sc11 ?_)
  refine Finset.sum_congr rfl fun p _ => ?_
  rw [blk0_apply V c t p 0, blk0_apply V c t p 1, blk4_apply V c t p 0, blk5_apply V c t p 0,
    blk6_apply V c t 0 (Cert.Spec.hi 0), blk6_apply V c t 0 (Cert.Spec.hi 1),
    blk7_apply V c t 0 (Cert.Spec.hi 0), blk7_apply V c t 0 (Cert.Spec.hi 1)]
  rfl

theorem bsCnt_eq (c : Dev nD) (t : Fin cfg1.N) :
    bsCnt V c t = sc11 (∑ p : Fin 5000, (fun r => Cert.Spec.isPv (btOf V c r)) ⟨5000 * t.val + p.val, row_lt t p⟩) := by
  unfold bsCnt
  refine (payCnt_eq (iblk1 V c 4 t)).trans (congrArg sc11 ?_)
  refine Finset.sum_congr rfl fun p _ => ?_
  rw [blk4_apply V c t p 0]

theorem sq_final (c : Dev nD) :
    (dat1 (F := Ideal) V c).arrAt 8 cfg1.N = sc11 (Cert.Spec.sumSq (V c main_arg0) (V c main_arg1) (V c main_arg2)) :=
  (arrSq_last V c).trans ((acc_last (accSq V c) (bsSq V c) _ (accSq_zero V c) (accSq_succ V c) (bsSq_eq V c) last_lt).trans
    (congrArg sc11 (sumSq_rows _ _ _).symm))
theorem mask_final (c : Dev nD) :
    (dat1 (F := Ideal) V c).arrAt 9 cfg1.N = sc11 (Cert.Spec.sumMask (V c main_arg2)) :=
  (arrMask_last V c).trans ((acc_last (accMask V c) (bsMask V c) _ (accMask_zero V c) (accMask_succ V c) (bsMask_eq V c) last_lt).trans
    (congrArg sc11 (sumMask_rows _).symm))
theorem phys_final (c : Dev nD) :
    (dat1 (F := Ideal) V c).arrAt 10 cfg1.N
      = sc11 (Cert.Spec.sumPhys (V c main_arg1) (V c main_arg8) (V c main_arg7) (V c main_v25)) :=
  (arrPhys_last V c).trans ((acc_last (accPhys V c) (bsPhys V c) _ (accPhys_zero V c) (accPhys_succ V c) (bsPhys_eq V c) last_lt).trans
    (congrArg sc11 (sumPhys_rows _ _ _ _).symm))
theorem pv_final (c : Dev nD) :
    (dat1 (F := Ideal) V c).arrAt 11 cfg1.N
      = sc11 (Cert.Spec.sumPv (V c main_arg0) (V c main_arg8) (V c main_arg7) (tvOf V c) (btOf V c)) :=
  (arrPv_last V c).trans ((acc_last (accPv V c) (bsPv V c) _ (accPv_zero V c) (accPv_succ V c) (bsPv_eq V c) last_lt).trans
    (congrArg sc11 (sumPv_rows _ _ _ _ _).symm))
theorem cnt_final (c : Dev nD) :
    (dat1 (F := Ideal) V c).arrAt 12 cfg1.N = sc11 (Cert.Spec.cnt (btOf V c)) :=
  (arrCnt_last V c).trans ((acc_last (accCnt V c) (bsCnt V c) (fun r => Cert.Spec.isPv (btOf V c r)) (accCnt_zero V c) (accCnt_succ V c) (bsCnt_eq V c) last_lt).trans
    (congrArg sc11 (cnt_rows _).symm))

end Cert.KernelIdeal.NodeValue

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.HostMid.lean ====
/-
  The host operations before and between the two grids. Before the first: the two rows of end point words are each
  shifted where negative and used to read node rows (clamped into range), giving the rows at the first and at the second
  end points. Between the grids: the first grid's two outputs are each added into a zero table at the rows their
  (unshifted, signed) end point words name, the two tables are added, and the bus kinds and target magnitudes are laid
  out as one-column arrays. No operation writes an argument array.
-/
import proofs.«161120_j88115549044894_1_alg».proof.Proof.Gen.KernelIdeal.Frame
import proofs.«161120_j88115549044894_1_alg».proof.Proof.Spec
import Idealize.ShloMosaic.Lib.Pipeline.Value
import Idealize.ShloMosaic.Lib.ValueIdx
import Idealize.ShloMosaic.PureOps.Ideal.Laws
import proofs.«161120_j88115549044894_1_alg».proof.Proof.LibScatterGather2
import proofs.«161120_j88115549044894_1_alg».proof.Proof.LibBroadcastInDim

noncomputable section

open Idealize.ShloMosaic Idealize.ShloMosaic.TcCoe Idealize.SL.Sem Idealize.ShloMosaic.ValueIdx
open Idealize.ShloMosaic.Pipeline (Dat)

namespace Cert.KernelIdeal.HostMid

open Cert.KernelIdeal Cert.KernelIdeal.Gen

variable (m : (ℓ : Loc nD τ sig) → Buf (Elt Ideal) ℓ) (ρ : Dev nD → PrngReg)

/-! ## Buffers the host operations leave alone -/

/-- A buffer none of the listed operations writes holds after them what it held before: every operation's result
    buffer is another one. -/
macro "not_written" : tactic => `(tactic|
  (refine StableHlo.after_of_forall_not_mem _ _ (List.forall_iff_forall_mem.mp ?_)
   simp only [hostOps0, hostOps1, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes,
     StableHlo.binaryIndexed_writes, Finset.mem_singleton]
   repeat' apply And.intro
   all_goals exact StableHlo.devRef_ne_of_ne (by decide)))

/-- Entering the first grid, a buffer the first stretch of host operations does not write is as launched. -/
theorem W1_arg (c : Dev nD) (b : Ref sig .tc)
    (h : StableHlo.after hostOps0 (W0 m ρ c) (Proc.devRef .tc b) = W0 m ρ c (Proc.devRef .tc b)) :
    W1 m ρ c (Proc.devRef .tc b) = m ((c : Thread nD τ).loc b) := h

/-- Leaving the first grid, a buffer that is none of its arrays and that the first stretch does not write is as
    launched. -/
theorem W2_arg (c : Dev nD) (b : Ref sig .tc) (hne : ∀ w, Pipeline.arrRef spec0 w ≠ b)
    (h : StableHlo.after hostOps0 (W0 m ρ c) (Proc.devRef .tc b) = W0 m ρ c (Proc.devRef .tc b)) :
    W2 m ρ c (Proc.devRef .tc b) = m ((c : Thread nD τ).loc b) :=
  (W2_of_ne m ρ c b hne).trans (W1_arg m ρ c b h)

/-- Entering the second grid, such a buffer is still as launched when the second stretch does not write it either. -/
theorem W3_arg (c : Dev nD) (b : Ref sig .tc) (hne : ∀ w, Pipeline.arrRef spec0 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W3 m ρ c (Proc.devRef .tc b) = m ((c : Thread nD τ).loc b) :=
  h1.trans (W2_arg m ρ c b hne h0)

/-! ## The end point words -/

/-- One row of the two rows of end point words, as a vector. -/
def wordRow (off : Fin 2 → Nat) (h : S2x4000000.Slices off S1x4000000) (ei : S2x4000000.Idx → BitVec 32) :
    IVec S4000000 32 :=
  shapeCast S4000000 (extractStridedSlice S1x4000000 off ei h) shapeCasts_S1x4000000_S4000000

/-- Entry `e` of row `s` is the word at `(s, e)`: the slice starts at row `s`, column 0, and dropping the unit axis
    keeps the position. -/
theorem wordRow_apply (off : Fin 2 → Nat) (h : S2x4000000.Slices off S1x4000000) (ei : S2x4000000.Idx → BitVec 32)
    (s : Fin 2) (h0 : off 0 = s.val) (h1 : off 1 = 0) (e : Fin 4000000) :
    wordRow off h ei (ix1 e) = ei (ix2 (n0 := 2) (n1 := 4000000) s e) := by
  unfold wordRow
  refine (shapeCast_apply _ shapeCasts_S1x4000000_S4000000 (ix1 e) (ix2 (n0 := 1) (n1 := 4000000) 0 e) ?_).trans ?_
  · rw [Shape.rowMajor_val_two, Shape.rowMajor_val_one]
    show 0 * 4000000 + e.val = e.val
    omega
  · refine extractStridedSlice_apply off ei h (ix2 (n0 := 1) (n1 := 4000000) 0 e) (ix2 (n0 := 2) (n1 := 4000000) s e)
      fun a => ?_
    match a with
    | ⟨0, _⟩ => show s.val = off 0 + 0; omega
    | ⟨1, _⟩ => show e.val = off 1 + e.val; omega

/-- The words made ready for reading rows: each shifted by the row count where negative. -/
def shifted (w : IVec S4000000 32) : IVec S4000000 32 :=
  select (cmpi .slt w (broadcastInDim S4000000 ![] bcast_S_S4000000 (constantI S_ 32 0#32)))
    (addi w (broadcastInDim S4000000 ![] bcast_S_S4000000 (constantI S_ 32 1000000#32))) w

/-- Entry by entry that is the specification's shift of one word. -/
theorem shifted_apply (w : IVec S4000000 32) (i : S4000000.Idx) : shifted w i = Cert.Spec.normw (w i) := rfl

/-- Reading the node rows at the shifted words of row `s` gives the specification's rows at the end points `s`:
    at `(e, j)` the gather reads column `j` of the row its word names, the word read signed and clamped into the rows. -/
theorem gather_rows (pe : Cert.Spec.N2) (ei : Cert.Spec.EI) (off : Fin 2 → Nat) (h : S2x4000000.Slices off S1x4000000)
    (s : Fin 2) (h0 : off 0 = s.val) (h1 : off 1 = 0) :
    Host.gather gather_S1000000x2_S4000000x1_S4000000x2_1_0_n_n_0_1_12 pe
        (broadcastInDim S4000000x1 ![0] bcast_S4000000_S4000000x1_0 (shifted (wordRow off h ei)))
      = Cert.Spec.gath pe ei s := by
  funext i
  obtain ⟨e, j, rfl⟩ : ∃ (e : Fin 4000000) (j : Fin 2), i = ix2 e j := ⟨i 0, i 1, eq_ix2 i⟩
  refine (Cert.LibScatterGather2.gather_apply_clamp gather_S1000000x2_S4000000x1_S4000000x2_1_0_n_n_0_1_12 rfl rfl rfl rfl rfl pe _ e j
    (by decide)).trans ?_
  have hw : broadcastInDim S4000000x1 ![0] bcast_S4000000_S4000000x1_0 (shifted (wordRow off h ei))
      (ix2 (n0 := 4000000) (n1 := 1) e (0 : Fin 1)) = Cert.Spec.normw (ei (ix2 (n0 := 2) (n1 := 4000000) s e)) := by
    rw [Cert.LibBroadcastInDim.vec_col_apply, shifted_apply, wordRow_apply off h ei s h0 h1]
  refine congrArg (fun r : Fin 1000000 => pe (ix2 r j)) (Fin.ext ?_)
  show min (broadcastInDim S4000000x1 ![0] bcast_S4000000_S4000000x1_0 (shifted (wordRow off h ei))
      (ix2 (n0 := 4000000) (n1 := 1) e (0 : Fin 1))).toInt.toNat (1000000 - 1)
    = min (Cert.Spec.normw (ei (ix2 (n0 := 2) (n1 := 4000000) s e))).toInt.toNat 999999
  rw [hw]

/-! ## What the first grid is entered with -/

theorem V1_xi (c : Dev nD) :
    V1 m ρ c main_v10 = Cert.Spec.gath (m ((c : Thread nD τ).loc main_arg0)) (m ((c : Thread nD τ).loc main_arg3)) 0 := by
  have h : V1 m ρ c main_v10
      = Host.gather gather_S1000000x2_S4000000x1_S4000000x2_1_0_n_n_0_1_12 (m ((c : Thread nD τ).loc main_arg0))
          (broadcastInDim S4000000x1 ![0] bcast_S4000000_S4000000x1_0
            (shifted (wordRow ![0, 0] slices_S2x4000000_S1x4000000_0_0 (m ((c : Thread nD τ).loc main_arg3))))) := by
    show StableHlo.after hostOps0 (W0 m ρ c) (Proc.devRef .tc main_v10) = _
    after_results
    rfl
  exact h.trans (gather_rows _ _ ![0, 0] slices_S2x4000000_S1x4000000_0_0 0 rfl rfl)
theorem V1_xj (c : Dev nD) :
    V1 m ρ c main_v17 = Cert.Spec.gath (m ((c : Thread nD τ).loc main_arg0)) (m ((c : Thread nD τ).loc main_arg3)) 1 := by
  have h : V1 m ρ c main_v17
      = Host.gather gather_S1000000x2_S4000000x1_S4000000x2_1_0_n_n_0_1_12 (m ((c : Thread nD τ).loc main_arg0))
          (broadcastInDim S4000000x1 ![0] bcast_S4000000_S4000000x1_0
            (shifted (wordRow ![1, 0] slices_S2x4000000_S1x4000000_1_0 (m ((c : Thread nD τ).loc main_arg3))))) := by
    show StableHlo.after hostOps0 (W0 m ρ c) (Proc.devRef .tc main_v17) = _
    after_results
    rfl
  exact h.trans (gather_rows _ _ ![1, 0] slices_S2x4000000_S1x4000000_1_0 1 rfl rfl)
theorem V1_ea (c : Dev nD) : V1 m ρ c main_arg4 = m ((c : Thread nD τ).loc main_arg4) :=
  W1_arg m ρ c main_arg4 (by not_written)
theorem V1_em (c : Dev nD) : V1 m ρ c main_arg9 = m ((c : Thread nD τ).loc main_arg9) :=
  W1_arg m ρ c main_arg9 (by not_written)
theorem V1_es (c : Dev nD) : V1 m ρ c main_arg10 = m ((c : Thread nD τ).loc main_arg10) :=
  W1_arg m ρ c main_arg10 (by not_written)

/-! ## What the second grid is entered with -/

theorem V3_pe (c : Dev nD) : V3 m ρ c main_arg0 = m ((c : Thread nD τ).loc main_arg0) :=
  W3_arg m ρ c main_arg0 (by decide) (by not_written) (by not_written)
theorem V3_ty (c : Dev nD) : V3 m ρ c main_arg1 = m ((c : Thread nD τ).loc main_arg1) :=
  W3_arg m ρ c main_arg1 (by decide) (by not_written) (by not_written)
theorem V3_mk (c : Dev nD) : V3 m ρ c main_arg2 = m ((c : Thread nD τ).loc main_arg2) :=
  W3_arg m ρ c main_arg2 (by decide) (by not_written) (by not_written)
theorem V3_xm (c : Dev nD) : V3 m ρ c main_arg7 = m ((c : Thread nD τ).loc main_arg7) :=
  W3_arg m ρ c main_arg7 (by decide) (by not_written) (by not_written)
theorem V3_xs (c : Dev nD) : V3 m ρ c main_arg8 = m ((c : Thread nD τ).loc main_arg8) :=
  W3_arg m ρ c main_arg8 (by decide) (by not_written) (by not_written)
/-- A vector laid out as one column: entry `(r, 0)` of the column is entry `r` of the vector, the two having the same
    row-major position. -/
theorem col_of_vec {α : Type} (x : (⟨1, ![1000000]⟩ : Shape).Idx → α) (r : Fin 1000000) :
    shapeCast S1000000x1 x shapeCasts_S1000000_S1000000x1 (ix2 (n0 := 1000000) (n1 := 1) r 0) = x (ix1 r) := by
  refine shapeCast_apply x shapeCasts_S1000000_S1000000x1 (ix2 (n0 := 1000000) (n1 := 1) r 0) (ix1 r) ?_
  rw [Shape.rowMajor_val_two, Shape.rowMajor_val_one]
  show r.val = r.val * 1 + 0
  omega

/-! ## The two accumulating scatters -/

/-- Adding the update rows into a zero table at the rows the words of row `s` name (read signed, unshifted): entry
    `(u, j)` is the sum, over the edges whose word is `u`, of the update's column `j`. -/
theorem scatter_rows (ei : Cert.Spec.EI) (upd : Cert.Spec.E2) (off : Fin 2 → Nat) (h : S2x4000000.Slices off S1x4000000)
    (s : Fin 2) (h0 : off 0 = s.val) (h1 : off 1 = 0) (u : Fin 1000000) (j : Fin 2) :
    Host.scatterAdd (F := Ideal) scatter_S1000000x2_S4000000x1_S4000000x2_1_0_0_1
        (broadcastInDim S1000000x2 ![] bcast_S_S1000000x2 (constant (F := Ideal) S_ .f32 0x00000000#32))
        (broadcastInDim S4000000x1 ![0] bcast_S4000000_S4000000x1_0 (wordRow off h ei)) upd
        (ix2 (n0 := 1000000) (n1 := 2) u j)
      = ∑ e ∈ Finset.univ.filter (fun e : Fin 4000000 => (ei (ix2 (n0 := 2) (n1 := 4000000) s e)).toInt = (u.val : ℤ)),
          upd (ix2 (n0 := 4000000) (n1 := 2) e j) := by
  refine (Cert.LibScatterGather2.scatterAdd_apply scatter_S1000000x2_S4000000x1_S4000000x2_1_0_0_1 rfl rfl rfl rfl _ _ upd u j).trans ?_
  have hz : broadcastInDim S1000000x2 ![] bcast_S_S1000000x2 (constant (F := Ideal) S_ .f32 0x00000000#32)
      (ix2 (n0 := 1000000) (n1 := 2) u j) = (0 : EReal) := Ideal.ofBits_zero_f32
  have hcol : ∀ e : Fin 4000000, broadcastInDim S4000000x1 ![0] bcast_S4000000_S4000000x1_0 (wordRow off h ei)
      (ix2 (n0 := 4000000) (n1 := 1) e (0 : Fin 1)) = ei (ix2 (n0 := 2) (n1 := 4000000) s e) := fun e =>
    (Cert.LibBroadcastInDim.vec_col_apply _ _ e 0).trans (wordRow_apply off h ei s h0 h1 e)
  rw [hz, zero_add]
  simp only [hcol]

/-- The summed pairs, from the first grid's two output arrays. -/
theorem V3_flow (c : Dev nD) :
    V3 m ρ c main_v25
      = Cert.Spec.nodeFlow (m ((c : Thread nD τ).loc main_arg3))
          ((dat0 (F := Ideal) (V1 m ρ) c).arrAt 5 cfg0.N) ((dat0 (F := Ideal) (V1 m ρ) c).arrAt 6 cfg0.N) := by
  -- the two rows of words, as the first stretch of host operations leaves them and the first grid does not touch them
  have hw0 : W2 m ρ c (Proc.devRef .tc main_v1)
      = wordRow ![0, 0] slices_S2x4000000_S1x4000000_0_0 (m ((c : Thread nD τ).loc main_arg3)) := by
    refine (W2_of_ne m ρ c main_v1 (by decide)).trans ?_
    show StableHlo.after hostOps0 (W0 m ρ c) (Proc.devRef .tc main_v1) = _
    after_results
    rfl
  have hw1 : W2 m ρ c (Proc.devRef .tc main_v3)
      = wordRow ![1, 0] slices_S2x4000000_S1x4000000_1_0 (m ((c : Thread nD τ).loc main_arg3)) := by
    refine (W2_of_ne m ρ c main_v3 (by decide)).trans ?_
    show StableHlo.after hostOps0 (W0 m ρ c) (Proc.devRef .tc main_v3) = _
    after_results
    rfl
  -- the first grid's two output arrays
  have hf : W2 m ρ c (Proc.devRef .tc main_v18_0) = (dat0 (F := Ideal) (V1 m ρ) c).arrAt 5 cfg0.N := W2_arr m ρ c 5
  have hb : W2 m ρ c (Proc.devRef .tc main_v18_1) = (dat0 (F := Ideal) (V1 m ρ) c).arrAt 6 cfg0.N := W2_arr m ρ c 6
  have h : V3 m ρ c main_v25
      = addf (Host.scatterAdd (F := Ideal) scatter_S1000000x2_S4000000x1_S4000000x2_1_0_0_1
            (broadcastInDim S1000000x2 ![] bcast_S_S1000000x2 (constant (F := Ideal) S_ .f32 0x00000000#32))
            (broadcastInDim S4000000x1 ![0] bcast_S4000000_S4000000x1_0 (W2 m ρ c (Proc.devRef .tc main_v1)))
            (W2 m ρ c (Proc.devRef .tc main_v18_0)))
          (Host.scatterAdd (F := Ideal) scatter_S1000000x2_S4000000x1_S4000000x2_1_0_0_1
            (broadcastInDim S1000000x2 ![] bcast_S_S1000000x2 (constant (F := Ideal) S_ .f32 0x00000000#32))
            (broadcastInDim S4000000x1 ![0] bcast_S4000000_S4000000x1_0 (W2 m ρ c (Proc.devRef .tc main_v3)))
            (W2 m ρ c (Proc.devRef .tc main_v18_1))) := by
    show StableHlo.after hostOps1 (W2 m ρ c) (Proc.devRef .tc main_v25) = _
    after_results
  rw [h, hw0, hw1, hf, hb]
  funext i
  obtain ⟨u, j, rfl⟩ : ∃ (u : Fin 1000000) (j : Fin 2), i = ix2 u j := ⟨i 0, i 1, eq_ix2 i⟩
  refine (addf_apply _ _ _).trans ?_
  rw [scatter_rows _ _ ![0, 0] slices_S2x4000000_S1x4000000_0_0 0 rfl rfl,
    scatter_rows _ _ ![1, 0] slices_S2x4000000_S1x4000000_1_0 1 rfl rfl]
  rfl
theorem V3_bt (c : Dev nD) (r : Fin 1000000) :
    V3 m ρ c main_v26 (ix2 (n0 := 1000000) (n1 := 1) r 0) = m ((c : Thread nD τ).loc main_arg5) (ix1 r) := by
  -- the bus kinds as one column: the launch array's entry `r` sits at `(r, 0)`
  have h : V3 m ρ c main_v26
      = fun i => shapeCast S1000000x1 (W2 m ρ c (Proc.devRef .tc main_arg5)) shapeCasts_S1000000_S1000000x1 i := by
    show StableHlo.after hostOps1 (W2 m ρ c) (Proc.devRef .tc main_v26) = _
    after_results
    rfl
  rw [h, W2_arg m ρ c main_arg5 (by decide) (by not_written)]
  exact col_of_vec _ r
theorem V3_tv (c : Dev nD) (r : Fin 1000000) :
    V3 m ρ c main_v27 (ix2 (n0 := 1000000) (n1 := 1) r 0) = m ((c : Thread nD τ).loc main_arg6) (ix1 r) := by
  -- the target magnitudes as one column, likewise
  have h : V3 m ρ c main_v27
      = fun i => shapeCast S1000000x1 (W2 m ρ c (Proc.devRef .tc main_arg6)) shapeCasts_S1000000_S1000000x1 i := by
    show StableHlo.after hostOps1 (W2 m ρ c) (Proc.devRef .tc main_v27) = _
    after_results
    rfl
  rw [h, W2_arg m ρ c main_arg6 (by decide) (by not_written)]
  exact col_of_vec _ r

end Cert.KernelIdeal.HostMid

end
-- ==== Proof.KernelSide.lean ====
/-
  The kernel program's run, read: its four results are the specification's four results of the launch arrays.
  The fold through @main is opened from the end: the host operations after the second grid apply the specification's
  closing functions to the five one-element outputs; each output is the specification's sum over the arrays the second
  grid is entered with; those are the launch arrays, except the summed pairs, which are the two scatter-added outputs of
  the first grid; and those outputs are the specification's pairs of the rows read at the edges' end points.
-/
import proofs.«161120_j88115549044894_1_alg».proof.Proof.KRun
import proofs.«161120_j88115549044894_1_alg».proof.Proof.KTail
import proofs.«161120_j88115549044894_1_alg».proof.Proof.EdgeValue
import proofs.«161120_j88115549044894_1_alg».proof.Proof.NodeSums
import proofs.«161120_j88115549044894_1_alg».proof.Proof.HostMid

noncomputable section

open Idealize.ShloMosaic Idealize.ShloMosaic.TcCoe Idealize.SL.Sem Idealize.ShloMosaic.ValueIdx

namespace Cert.KernelIdeal.KSide

open Cert.KernelIdeal Cert.KernelIdeal.Gen Cert.KernelIdeal.KTail

variable (m : (ℓ : Loc nD τ sig) → Buf (Elt Ideal) ℓ) (ρ : Dev nD → PrngReg)

/-- The bus kinds and the target magnitudes of the launch memory, one per node. -/
abbrev btM (c : Dev nD) : Fin 1000000 → BitVec 32 := fun r => m ((c : Thread nD τ).loc main_arg5) (ix1 r)
abbrev tvM (c : Dev nD) : Fin 1000000 → EReal := fun r => m ((c : Thread nD τ).loc main_arg6) (ix1 r)

theorem s11_sc11 (x : EReal) : s11 (NodeValue.sc11 x) = Cert.Spec.sc x := rfl

theorem bt_eq (c : Dev nD) : NodeValue.btOf (V3 m ρ) c = btM m c := funext fun r => HostMid.V3_bt m ρ c r
theorem tv_eq (c : Dev nD) : NodeValue.tvOf (V3 m ρ) c = tvM m c := funext fun r => HostMid.V3_tv m ρ c r

/-! ## The five scalars -/

theorem oSq_eq (c : Dev nD) :
    oSq m ρ c = Cert.Spec.sc (Cert.Spec.sumSq (m ((c : Thread nD τ).loc main_arg0)) (m ((c : Thread nD τ).loc main_arg1))
      (m ((c : Thread nD τ).loc main_arg2))) := by
  unfold oSq
  rw [NodeValue.sq_final (V3 m ρ) c, HostMid.V3_pe m ρ c, HostMid.V3_ty m ρ c, HostMid.V3_mk m ρ c]
  exact s11_sc11 _

theorem oMask_eq (c : Dev nD) :
    oMask m ρ c = Cert.Spec.sc (Cert.Spec.sumMask (m ((c : Thread nD τ).loc main_arg2))) := by
  unfold oMask
  rw [NodeValue.mask_final (V3 m ρ) c, HostMid.V3_mk m ρ c]
  exact s11_sc11 _

/-- The summed pairs the second grid is entered with are the specification's. -/
theorem flow_eq (c : Dev nD) :
    V3 m ρ c main_v25
      = Cert.Spec.nodeFlowOf (m ((c : Thread nD τ).loc main_arg0)) (m ((c : Thread nD τ).loc main_arg3))
          (m ((c : Thread nD τ).loc main_arg4)) (m ((c : Thread nD τ).loc main_arg10)) (m ((c : Thread nD τ).loc main_arg9)) := by
  rw [HostMid.V3_flow m ρ c, EdgeValue.fwd_final (V1 m ρ) c, EdgeValue.bwd_final (V1 m ρ) c,
    HostMid.V1_xi m ρ c, HostMid.V1_xj m ρ c, HostMid.V1_ea m ρ c, HostMid.V1_em m ρ c, HostMid.V1_es m ρ c]
  rfl

theorem oPhys_eq (c : Dev nD) :
    oPhys m ρ c = Cert.Spec.sc (Cert.Spec.sumPhys (m ((c : Thread nD τ).loc main_arg1)) (m ((c : Thread nD τ).loc main_arg8))
      (m ((c : Thread nD τ).loc main_arg7))
      (Cert.Spec.nodeFlowOf (m ((c : Thread nD τ).loc main_arg0)) (m ((c : Thread nD τ).loc main_arg3))
        (m ((c : Thread nD τ).loc main_arg4)) (m ((c : Thread nD τ).loc main_arg10)) (m ((c : Thread nD τ).loc main_arg9)))) := by
  unfold oPhys
  rw [NodeValue.phys_final (V3 m ρ) c, flow_eq m ρ c, HostMid.V3_ty m ρ c, HostMid.V3_xs m ρ c, HostMid.V3_xm m ρ c]
  exact s11_sc11 _

theorem oPv_eq (c : Dev nD) :
    oPv m ρ c = Cert.Spec.sc (Cert.Spec.sumPv (m ((c : Thread nD τ).loc main_arg0)) (m ((c : Thread nD τ).loc main_arg8))
      (m ((c : Thread nD τ).loc main_arg7)) (tvM m c) (btM m c)) := by
  unfold oPv
  rw [NodeValue.pv_final (V3 m ρ) c, bt_eq m ρ c, tv_eq m ρ c, HostMid.V3_pe m ρ c, HostMid.V3_xs m ρ c, HostMid.V3_xm m ρ c]
  exact s11_sc11 _

theorem oCnt_eq (c : Dev nD) : oCnt m ρ c = Cert.Spec.sc (Cert.Spec.cnt (btM m c)) := by
  unfold oCnt
  rw [NodeValue.cnt_final (V3 m ρ) c, bt_eq m ρ c]
  exact s11_sc11 _

/-! ## The run -/

/-- Every weakly fair execution of the kernel program terminates, nothing faulting, with its four results at the
    specification's four results of the launch arrays, and the launch arrays unchanged. -/
theorem run : θ_run defs (onTc (τ := τ) (main (F := Ideal))) ⟨m, fun _ => 0, ρ⟩ (fun r => ∀ c : Dev nD,
      r.2.mem ((c.tc : Thread nD τ).loc main_v45)
        = Cert.Spec.rTotal (m ((c : Thread nD τ).loc main_arg0)) (m ((c : Thread nD τ).loc main_arg1)) (m ((c : Thread nD τ).loc main_arg2))
            (m ((c : Thread nD τ).loc main_arg3)) (m ((c : Thread nD τ).loc main_arg4)) (btM m c) (tvM m c)
            (m ((c : Thread nD τ).loc main_arg7)) (m ((c : Thread nD τ).loc main_arg8)) (m ((c : Thread nD τ).loc main_arg9))
            (m ((c : Thread nD τ).loc main_arg10))
      ∧ r.2.mem ((c.tc : Thread nD τ).loc main_v35)
        = Cert.Spec.rMse (m ((c : Thread nD τ).loc main_arg0)) (m ((c : Thread nD τ).loc main_arg1)) (m ((c : Thread nD τ).loc main_arg2))
      ∧ r.2.mem ((c.tc : Thread nD τ).loc main_v36)
        = Cert.Spec.rPhys (m ((c : Thread nD τ).loc main_arg0)) (m ((c : Thread nD τ).loc main_arg1)) (m ((c : Thread nD τ).loc main_arg3))
            (m ((c : Thread nD τ).loc main_arg4)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_v40)
        = Cert.Spec.rPv (m ((c : Thread nD τ).loc main_arg0)) (btM m c) (tvM m c) (m ((c : Thread nD τ).loc main_arg7))
            (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨h45, h35, h36, h40, hargs⟩ := h c
    refine ⟨h45.trans ?_, h35.trans ?_, h36.trans ?_, h40.trans ?_, hargs⟩
    · rw [W7_total m ρ c, oSq_eq m ρ c, oMask_eq m ρ c, oPhys_eq m ρ c, oPv_eq m ρ c, oCnt_eq m ρ c]; rfl
    · rw [W7_mse m ρ c, oSq_eq m ρ c, oMask_eq m ρ c]; rfl
    · rw [W7_phys m ρ c, oPhys_eq m ρ c]; rfl
    · rw [W7_pv m ρ c, oPv_eq m ρ c, oCnt_eq m ρ c]; rfl)
    (Cert.KernelIdeal.GenR.run_named (F := Ideal) m ρ)

end Cert.KernelIdeal.KSide

end
-- ==== Proof.RefImports.lean ====
/-
  The reference program's run (every result buffer at the composed term of its host operations) together with those
  operations read one at a time at an index: the two facts every statement about the reference's values rests on.
-/
import proofs.«161120_j88115549044894_1_alg».proof.Proof.RefRunP
import proofs.«161120_j88115549044894_1_alg».proof.Proof.RefReadP
-- ==== Proof.RefSimple.lean ====
/-
  The reference's four plain sums. Each is a whole-array sum from zero of an entrywise expression of the inputs: the
  weighted squared error and the weights over the nodes' last two columns, and over the nodes the absolute magnitude
  error times the kind-1 indicator and the indicator itself. Read entry by entry they are the specification's sums: a sum
  over the index set of a two-column array is the double sum over rows and columns, and zero plus a sum is the sum.
-/
import proofs.«161120_j88115549044894_1_alg».proof.Proof.RefImports
import proofs.«161120_j88115549044894_1_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

/-! ## Index sets and the slices' index maps -/

namespace Simple

/-- The index set of a one-axis array is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The targets' last two columns: entry (r, j) of the slice is entry (r, 2 + j) of the four-column array. -/
theorem idx_hi0 (r : Fin 1000000) (j : Fin 2) : idx_main_v0 (ix2 r j) = ix2 r (Cert.Spec.hi j) :=
  funext fun a => Fin.ext (by match a with | ⟨0, _⟩ => rfl | ⟨1, _⟩ => rfl)

/-- The weights' last two columns: entry (r, j) of the slice is entry (r, 2 + j) of the four-column array. -/
theorem idx_hi (r : Fin 1000000) (j : Fin 2) : idx_main_v1 (ix2 r j) = ix2 r (Cert.Spec.hi j) :=
  funext fun a => Fin.ext (by match a with | ⟨0, _⟩ => rfl | ⟨1, _⟩ => rfl)

/-- Column 0 of a two-column array, taken apart as a one-axis array: its entry r is entry (r, 0). -/
theorem idx_col0 (r : Fin 1000000) : idx_main_v97 (idx_main_v98 (ix1 r)) = ix2 r (0 : Fin 2) :=
  funext fun a => Fin.ext (by match a with | ⟨0, _⟩ => exact Nat.div_one _ | ⟨1, _⟩ => rfl)

/-- Column 1 of a two-column array, taken apart as a one-axis array: its entry r is entry (r, 1). -/
theorem idx_col1 (r : Fin 1000000) : idx_main_v100 (idx_main_v101 (ix1 r)) = ix2 r (1 : Fin 2) :=
  funext fun a => Fin.ext (by match a with | ⟨0, _⟩ => exact Nat.div_one _ | ⟨1, _⟩ => rfl)

/-- The scale row's last two columns repeated down the rows: entry (r, j) is entry (0, 2 + j) of the row. -/
theorem idx_std (r : Fin 1000000) (j : Fin 2) :
    idx_main_v89 (idx_main_v92 (ix2 r j)) = ix2 (0 : Fin 1) (Cert.Spec.hi j) :=
  funext fun a => Fin.ext (by match a with | ⟨0, _⟩ => rfl | ⟨1, _⟩ => rfl)

/-- The mean row's last two columns repeated down the rows: entry (r, j) is entry (0, 2 + j) of the row. -/
theorem idx_mean (r : Fin 1000000) (j : Fin 2) :
    idx_main_v94 (idx_main_v95 (ix2 r j)) = ix2 (0 : Fin 1) (Cert.Spec.hi j) :=
  funext fun a => Fin.ext (by match a with | ⟨0, _⟩ => rfl | ⟨1, _⟩ => rfl)

/-- The de-normalised node value: entry (r, j) is the node value times (scale + the small constant) plus the mean,
    scale and mean taken at column 2 + j. -/
theorem ef_apply (x0 : (⟨S1000000x2, .f32⟩ : BufTy).Contents (Elt Ideal)) (x7 x8 : (⟨S1x4, .f32⟩ : BufTy).Contents (Elt Ideal))
    (r : Fin 1000000) (j : Fin 2) :
    val_main_v96 (F := Ideal) x0 x7 x8 (ix2 r j) = Cert.Spec.efReal x0 x8 x7 r j := by
  rw [val_main_v96_apply, val_main_v93_apply, val_main_v92_apply, val_main_v91_apply, val_main_v89_apply,
    val_main_v90_apply, val_main_cst_10_apply, val_main_v95_apply, val_main_v94_apply, idx_std, idx_mean]
  rfl

end Simple

open Simple

/-! ## The four sums -/

/-- Zero plus the sum over all entries (r, j) of (e − t)² · w, with t and w at column 2 + j. -/
theorem sq_eq (x0 : (⟨S1000000x2, .f32⟩ : BufTy).Contents (Elt Ideal)) (x1 x2 : (⟨S1000000x4, .f32⟩ : BufTy).Contents (Elt Ideal)) :
    val_main_v5 (F := Ideal) x0 x1 x2 = Cert.Spec.sc (Cert.Spec.sumSq x0 x1 x2) := by
  funext i
  rw [val_main_v5_apply, val_main_cst_apply, Ideal.ofBits_def, Ideal.ofBits_zero_f32, zero_add, sum_idx2]
  unfold Cert.Spec.sc Cert.Spec.sumSq
  refine Finset.sum_congr rfl fun r _ => Finset.sum_congr rfl fun j _ => ?_
  rw [val_main_v4_apply, val_main_v3_apply, val_main_v2_apply, val_main_v1_apply, val_main_v0_apply, idx_hi, idx_hi0]
  rfl

/-- Zero plus the sum over all entries (r, j) of the weight at column 2 + j. -/
theorem mask_eq (x2 : (⟨S1000000x4, .f32⟩ : BufTy).Contents (Elt Ideal)) :
    val_main_v6 (F := Ideal) x2 = Cert.Spec.sc (Cert.Spec.sumMask x2) := by
  funext i
  rw [val_main_v6_apply, val_main_cst_0_apply, Ideal.ofBits_def, Ideal.ofBits_zero_f32, zero_add, sum_idx2]
  unfold Cert.Spec.sc Cert.Spec.sumMask
  refine Finset.sum_congr rfl fun r _ => Finset.sum_congr rfl fun j _ => ?_
  rw [val_main_v1_apply, idx_hi]

/-- Zero plus the sum over the nodes of the indicator "the kind word equals 1", the one-bit comparison read as 0 or 1. -/
theorem cnt_eq (x5 : (⟨S1000000, .i32⟩ : BufTy).Contents (Elt Ideal)) :
    val_main_v107 (F := Ideal) x5 = Cert.Spec.sc (Cert.Spec.cnt (fun r => x5 (ix1 r))) := by
  funext i
  rw [val_main_v107_apply, val_main_cst_12_apply, Ideal.ofBits_def, Ideal.ofBits_zero_f32, zero_add, sum_idx1]
  unfold Cert.Spec.sc Cert.Spec.cnt
  refine Finset.sum_congr rfl fun r _ => ?_
  rw [val_main_v106_apply, val_main_v105_apply, val_main_v104_apply, val_main_c_11_apply]
  rfl

/-- Zero plus the sum over the nodes of |e'² + f'² − v²| times the kind-1 indicator: e' and f' are the de-normalised
    node value's two columns, each read at row r, and the absolute value is the larger of a number and its negation. -/
theorem pv_eq (x0 : (⟨S1000000x2, .f32⟩ : BufTy).Contents (Elt Ideal)) (x5 : (⟨S1000000, .i32⟩ : BufTy).Contents (Elt Ideal))
    (x6 : (⟨S1000000, .f32⟩ : BufTy).Contents (Elt Ideal)) (x7 x8 : (⟨S1x4, .f32⟩ : BufTy).Contents (Elt Ideal)) :
    val_main_v112 (F := Ideal) x0 x5 x6 x7 x8
      = Cert.Spec.sc (Cert.Spec.sumPv x0 x8 x7 (fun r => x6 (ix1 r)) (fun r => x5 (ix1 r))) := by
  funext i
  rw [val_main_v112_apply, val_main_cst_13_apply, Ideal.ofBits_def, Ideal.ofBits_zero_f32, zero_add, sum_idx1]
  unfold Cert.Spec.sc Cert.Spec.sumPv
  refine Finset.sum_congr rfl fun r _ => ?_
  rw [val_main_v111_apply, val_main_v110_apply, val_main_v109_apply, val_main_v103_apply, val_main_v99_apply,
    val_main_v102_apply, val_main_v98_apply, val_main_v101_apply, val_main_v97_apply, val_main_v100_apply,
    val_main_v108_apply, val_main_v106_apply, val_main_v105_apply, val_main_v104_apply, val_main_c_11_apply,
    idx_col0, idx_col1, ef_apply, ef_apply]
  rfl

end Cert.ReferenceIdeal.RefValue

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.LibSumSplit.lean ====
/-
  A finite sum over `Fin c` with `c = a + b` is the sum over its first `a` positions plus the sum over its last `b`.

  This is the law by which a matrix product against a matrix whose rows are two blocks laid one over the other is the
  sum of the two products against the blocks.
-/
import Mathlib.Algebra.BigOperators.Fin

namespace Cert.LibSumSplit

open scoped BigOperators

/-- The sum over `Fin c`, `c = a + b`, split at `a`: position `k < a` on the left, position `a + k` on the right. -/
theorem sum_split {M : Type} [AddCommMonoid M] (a b c : Nat) (h : c = a + b) (f : Fin c → M) :
    ∑ k : Fin c, f k
      = (∑ k : Fin a, f ⟨k.val, by have := k.isLt; omega⟩) + ∑ k : Fin b, f ⟨a + k.val, by have := k.isLt; omega⟩ := by
  subst h
  exact Fin.sum_univ_add f

end Cert.LibSumSplit
-- ==== Proof.RefPhys.lean ====
/-
  The reference's power imbalance. It lists every edge twice, once per direction: positions 0 … 3 999 999 are the edges
  with the first end point receiving, positions 4 000 000 … 7 999 999 the same edges with the second end point receiving.
  For each position it reads the two end points' node rows, computes the pair (P, Q) from them and the edge's (g, b), and
  adds the pair into the receiving node's row of a zero table. A sum over the 8 000 000 positions is the sum over the first
  half plus the sum over the second half, so a node's row ends at what the edges send forward to it plus what they send
  backward: the specification's summed pair. The imbalance sum is then the whole-array sum of the squared de-normalised
  target plus that pair.
-/
import proofs.«161120_j88115549044894_1_alg».proof.Proof.RefImports
import proofs.«161120_j88115549044894_1_alg».proof.Proof.Spec
import proofs.«161120_j88115549044894_1_alg».proof.Proof.LibScatterGather2
import proofs.«161120_j88115549044894_1_alg».proof.Proof.LibCells
import proofs.«161120_j88115549044894_1_alg».proof.Proof.LibSumSplit
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

namespace Phys

/-! ## The two lists of end point words

The 8 000 000 positions list every edge twice. The receiving end point's word at position `q` is the edge's first word on
the first half and its second word on the second half; the other end point's word is the opposite one. -/

abbrev X0 : Type := (⟨S1000000x2, .f32⟩ : BufTy).Contents (Elt Ideal)
abbrev X1 : Type := (⟨S1000000x4, .f32⟩ : BufTy).Contents (Elt Ideal)
abbrev X3 : Type := (⟨S2x4000000, .i32⟩ : BufTy).Contents (Elt Ideal)
abbrev X4 : Type := (⟨S4000000x2, .f32⟩ : BufTy).Contents (Elt Ideal)
abbrev XR4 : Type := (⟨S1x4, .f32⟩ : BufTy).Contents (Elt Ideal)
abbrev XR2 : Type := (⟨S1x2, .f32⟩ : BufTy).Contents (Elt Ideal)

/-- The first row of the end point words, flattened, at position `e`; the three lemmas after it are the second row and
    the two copies of the rows that the list of the other end points is built from. -/
theorem row0_flat (x3 : X3) (e : Fin 4000000) :
    val_main_v25 (F := Ideal) x3 (ix1 e) = x3 (ix2 (0 : Fin 2) e) := by
  rw [val_main_v25_apply, val_main_v24_apply]
  refine congrArg x3 ?_
  funext a
  match a with
  | ⟨0, _⟩ => exact Fin.ext rfl
  | ⟨1, _⟩ => exact Fin.ext (Nat.mod_eq_of_lt e.isLt)

theorem row1_flat (x3 : X3) (e : Fin 4000000) :
    val_main_v27 (F := Ideal) x3 (ix1 e) = x3 (ix2 (1 : Fin 2) e) := by
  rw [val_main_v27_apply, val_main_v26_apply]
  refine congrArg x3 ?_
  funext a
  match a with
  | ⟨0, _⟩ => exact Fin.ext rfl
  | ⟨1, _⟩ => exact Fin.ext (Nat.mod_eq_of_lt e.isLt)

theorem row1_flat' (x3 : X3) (e : Fin 4000000) :
    val_main_v30 (F := Ideal) x3 (ix1 e) = x3 (ix2 (1 : Fin 2) e) := by
  rw [val_main_v30_apply, val_main_v29_apply]
  refine congrArg x3 ?_
  funext a
  match a with
  | ⟨0, _⟩ => exact Fin.ext rfl
  | ⟨1, _⟩ => exact Fin.ext (Nat.mod_eq_of_lt e.isLt)

theorem row0_flat' (x3 : X3) (e : Fin 4000000) :
    val_main_v32 (F := Ideal) x3 (ix1 e) = x3 (ix2 (0 : Fin 2) e) := by
  rw [val_main_v32_apply, val_main_v31_apply]
  refine congrArg x3 ?_
  funext a
  match a with
  | ⟨0, _⟩ => exact Fin.ext rfl
  | ⟨1, _⟩ => exact Fin.ext (Nat.mod_eq_of_lt e.isLt)

/-- Two vectors of 4 000 000 laid end to end, read on the first half. -/
theorem cat1_lo {α : Type} (a b : S4000000.Idx → α) (q : Fin 8000000) (e : Fin 4000000) (h : q.val = e.val) :
    concatenate S8000000 0 [⟨S4000000, a⟩, ⟨S4000000, b⟩] concatenates_S4000000_S4000000_S8000000_d0 (ix1 q) = a (ix1 e) :=
  concatenate_pair_apply_left 0 a b concatenates_S4000000_S4000000_S8000000_d0 (ix1 q) rfl (ix1 e)
    (fun c => match c with | ⟨0, _⟩ => h.symm)

/-- … and on the second half. -/
theorem cat1_hi {α : Type} (a b : S4000000.Idx → α) (q : Fin 8000000) (e : Fin 4000000) (h : q.val = 4000000 + e.val) :
    concatenate S8000000 0 [⟨S4000000, a⟩, ⟨S4000000, b⟩] concatenates_S4000000_S4000000_S8000000_d0 (ix1 q) = b (ix1 e) :=
  concatenate_pair_apply_right 0 a b concatenates_S4000000_S4000000_S8000000_d0 (ix1 q) rfl rfl (ix1 e)
    (fun c hc => match c with | ⟨0, _⟩ => absurd rfl hc)
    (by show e.val + 4000000 = q.val; omega)

theorem recv_lo (x3 : X3) (q : Fin 8000000) (e : Fin 4000000) (h : q.val = e.val) :
    val_main_v28 (F := Ideal) x3 (ix1 q) = x3 (ix2 (0 : Fin 2) e) := by
  unfold val_main_v28
  rw [cat1_lo _ _ q e h, row0_flat]

theorem recv_hi (x3 : X3) (q : Fin 8000000) (e : Fin 4000000) (h : q.val = 4000000 + e.val) :
    val_main_v28 (F := Ideal) x3 (ix1 q) = x3 (ix2 (1 : Fin 2) e) := by
  unfold val_main_v28
  rw [cat1_hi _ _ q e h, row1_flat]

theorem othr_lo (x3 : X3) (q : Fin 8000000) (e : Fin 4000000) (h : q.val = e.val) :
    val_main_v33 (F := Ideal) x3 (ix1 q) = x3 (ix2 (1 : Fin 2) e) := by
  unfold val_main_v33
  rw [cat1_lo _ _ q e h, row1_flat']

theorem othr_hi (x3 : X3) (q : Fin 8000000) (e : Fin 4000000) (h : q.val = 4000000 + e.val) :
    val_main_v33 (F := Ideal) x3 (ix1 q) = x3 (ix2 (0 : Fin 2) e) := by
  unfold val_main_v33
  rw [cat1_hi _ _ q e h, row0_flat']

/-! ## The rows read at the end points

A word is shifted by the row count when negative, then (inside the row read) clamped into the rows: the row the
specification calls `rowOf`. -/

/-- The shifted receiving word. -/
theorem shift_recv (x3 : X3) (q : Fin 8000000) :
    val_main_v39 (F := Ideal) x3 (ix1 q) = Cert.Spec.normw (val_main_v28 (F := Ideal) x3 (ix1 q)) := by
  rw [val_main_v39_apply, val_main_v36_apply, val_main_v38_apply, val_main_v35_apply, val_main_v37_apply]
  rfl

/-- The shifted other word. -/
theorem shift_othr (x3 : X3) (q : Fin 8000000) :
    val_main_v46 (F := Ideal) x3 (ix1 q) = Cert.Spec.normw (val_main_v33 (F := Ideal) x3 (ix1 q)) := by
  rw [val_main_v46_apply, val_main_v43_apply, val_main_v45_apply, val_main_v42_apply, val_main_v44_apply]
  rfl

theorem col_recv (x3 : X3) (q : Fin 8000000) :
    val_main_v40 (F := Ideal) x3 (ix2 q (0 : Fin 1)) = Cert.Spec.normw (val_main_v28 (F := Ideal) x3 (ix1 q)) := by
  rw [val_main_v40_apply, ← shift_recv]
  refine congrArg (val_main_v39 (F := Ideal) x3) ?_
  funext a
  match a with
  | ⟨0, _⟩ => exact Fin.ext rfl

theorem col_othr (x3 : X3) (q : Fin 8000000) :
    val_main_v47 (F := Ideal) x3 (ix2 q (0 : Fin 1)) = Cert.Spec.normw (val_main_v33 (F := Ideal) x3 (ix1 q)) := by
  rw [val_main_v47_apply, ← shift_othr]
  refine congrArg (val_main_v46 (F := Ideal) x3) ?_
  funext a
  match a with
  | ⟨0, _⟩ => exact Fin.ext rfl

/-- The receiving end point's row: row `rowOf` of the receiving word. -/
theorem rows_recv (x0 : X0) (x3 : X3) (q : Fin 8000000) (j : Fin 2) :
    val_main_v41 (F := Ideal) x0 x3 (ix2 q j)
      = x0 (ix2 (Cert.Spec.rowOf (val_main_v28 (F := Ideal) x3 (ix1 q))) j) := by
  unfold val_main_v41
  refine (Cert.LibScatterGather2.gather_apply_clamp _ rfl rfl rfl rfl rfl x0 _ q j (by omega)).trans ?_
  refine congrArg x0 (congrArg (fun r => ix2 r j) (Fin.ext ?_))
  show min (val_main_v40 (F := Ideal) x3 (ix2 q (0 : Fin 1))).toInt.toNat (1000000 - 1) = _
  rw [col_recv]
  rfl

/-- The other end point's row: row `rowOf` of the other word. -/
theorem rows_othr (x0 : X0) (x3 : X3) (q : Fin 8000000) (j : Fin 2) :
    val_main_v48 (F := Ideal) x0 x3 (ix2 q j)
      = x0 (ix2 (Cert.Spec.rowOf (val_main_v33 (F := Ideal) x3 (ix1 q))) j) := by
  unfold val_main_v48
  refine (Cert.LibScatterGather2.gather_apply_clamp _ rfl rfl rfl rfl rfl x0 _ q j (by omega)).trans ?_
  refine congrArg x0 (congrArg (fun r => ix2 r j) (Fin.ext ?_))
  show min (val_main_v47 (F := Ideal) x3 (ix2 q (0 : Fin 1))).toInt.toNat (1000000 - 1) = _
  rw [col_othr]
  rfl

/-- A column of an 8 000 000 × 2 array, flattened: the slice's and the reshape's index maps composed. -/
theorem flat_col0 (q : Fin 8000000) : idx_main_v49 (idx_main_v50 (ix1 q)) = ix2 q (0 : Fin 2) := by
  funext a
  match a with
  | ⟨0, _⟩ => exact Fin.ext (Nat.div_one q.val)
  | ⟨1, _⟩ => exact Fin.ext rfl

theorem flat_col1 (q : Fin 8000000) : idx_main_v51 (idx_main_v52 (ix1 q)) = ix2 q (1 : Fin 2) := by
  funext a
  match a with
  | ⟨0, _⟩ => exact Fin.ext (Nat.div_one q.val)
  | ⟨1, _⟩ => exact Fin.ext rfl

theorem ei_at (x0 : X0) (x3 : X3) (q : Fin 8000000) :
    val_main_v50 (F := Ideal) x0 x3 (ix1 q) = x0 (ix2 (Cert.Spec.rowOf (val_main_v28 (F := Ideal) x3 (ix1 q))) 0) := by
  rw [val_main_v50_apply, val_main_v49_apply, flat_col0, rows_recv]

theorem fi_at (x0 : X0) (x3 : X3) (q : Fin 8000000) :
    val_main_v52 (F := Ideal) x0 x3 (ix1 q) = x0 (ix2 (Cert.Spec.rowOf (val_main_v28 (F := Ideal) x3 (ix1 q))) 1) := by
  rw [val_main_v52_apply, val_main_v51_apply, flat_col1, rows_recv]

theorem ej_at (x0 : X0) (x3 : X3) (q : Fin 8000000) :
    val_main_v54 (F := Ideal) x0 x3 (ix1 q) = x0 (ix2 (Cert.Spec.rowOf (val_main_v33 (F := Ideal) x3 (ix1 q))) 0) := by
  rw [val_main_v54_apply, val_main_v53_apply]
  exact (congrArg (val_main_v48 (F := Ideal) x0 x3) (flat_col0 q)).trans (rows_othr x0 x3 q 0)

theorem fj_at (x0 : X0) (x3 : X3) (q : Fin 8000000) :
    val_main_v56 (F := Ideal) x0 x3 (ix1 q) = x0 (ix2 (Cert.Spec.rowOf (val_main_v33 (F := Ideal) x3 (ix1 q))) 1) := by
  rw [val_main_v56_apply, val_main_v55_apply]
  exact (congrArg (val_main_v48 (F := Ideal) x0 x3) (flat_col1 q)).trans (rows_othr x0 x3 q 1)

/-! ## The edge attributes, twice

Each half of the doubled attribute table is the de-normalised attribute table itself. -/

/-- The de-normalised attributes of edge `e`, column `j`: the attribute times the scale plus the small constant, plus
    the mean. -/
theorem attr_at (x4 : X4) (x9 x10 : XR2) (e : Fin 4000000) (j : Fin 2) :
    val_main_v23 (F := Ideal) x4 x9 x10 (ix2 e j) = Cert.Spec.gb x4 x10 x9 e j := by
  rw [val_main_v23_apply, val_main_v21_apply, val_main_v20_apply, val_main_v19_apply, val_main_v18_apply,
    val_main_v22_apply]
  have h : idx_main_v20 (ix2 e j) = ix2 (0 : Fin 1) j := by
    funext a
    match a with
    | ⟨0, _⟩ => exact Fin.ext rfl
    | ⟨1, _⟩ => exact Fin.ext rfl
  have h' : idx_main_v22 (ix2 e j) = ix2 (0 : Fin 1) j := h
  rw [h, h']
  rfl

/-- Two tables of 4 000 000 rows laid one over the other, read on the first half. -/
theorem cat2_lo {α : Type} (a b : S4000000x2.Idx → α) (q : Fin 8000000) (e : Fin 4000000) (j : Fin 2) (h : q.val = e.val) :
    concatenate S8000000x2 0 [⟨S4000000x2, a⟩, ⟨S4000000x2, b⟩] concatenates_S4000000x2_S4000000x2_S8000000x2_d0 (ix2 q j)
      = a (ix2 e j) :=
  concatenate_pair_apply_left 0 a b concatenates_S4000000x2_S4000000x2_S8000000x2_d0 (ix2 q j) rfl (ix2 e j)
    (fun c => match c with | ⟨0, _⟩ => h.symm | ⟨1, _⟩ => rfl)

/-- … and on the second half. -/
theorem cat2_hi {α : Type} (a b : S4000000x2.Idx → α) (q : Fin 8000000) (e : Fin 4000000) (j : Fin 2)
    (h : q.val = 4000000 + e.val) :
    concatenate S8000000x2 0 [⟨S4000000x2, a⟩, ⟨S4000000x2, b⟩] concatenates_S4000000x2_S4000000x2_S8000000x2_d0 (ix2 q j)
      = b (ix2 e j) :=
  concatenate_pair_apply_right 0 a b concatenates_S4000000x2_S4000000x2_S8000000x2_d0 (ix2 q j) rfl rfl (ix2 e j)
    (fun c hc => match c with | ⟨0, _⟩ => absurd rfl hc | ⟨1, _⟩ => rfl)
    (by show e.val + 4000000 = q.val; omega)

theorem attr2_lo (x4 : X4) (x9 x10 : XR2) (q : Fin 8000000) (e : Fin 4000000) (j : Fin 2) (h : q.val = e.val) :
    val_main_v34 (F := Ideal) x4 x9 x10 (ix2 q j) = Cert.Spec.gb x4 x10 x9 e j := by
  unfold val_main_v34
  rw [cat2_lo _ _ q e j h, attr_at]

theorem attr2_hi (x4 : X4) (x9 x10 : XR2) (q : Fin 8000000) (e : Fin 4000000) (j : Fin 2) (h : q.val = 4000000 + e.val) :
    val_main_v34 (F := Ideal) x4 x9 x10 (ix2 q j) = Cert.Spec.gb x4 x10 x9 e j := by
  unfold val_main_v34
  rw [cat2_hi _ _ q e j h, attr_at]

theorem g_at (x4 : X4) (x9 x10 : XR2) (q : Fin 8000000) :
    val_main_v58 (F := Ideal) x4 x9 x10 (ix1 q) = val_main_v34 (F := Ideal) x4 x9 x10 (ix2 q 0) := by
  rw [val_main_v58_apply, val_main_v57_apply]
  exact congrArg (val_main_v34 (F := Ideal) x4 x9 x10) (flat_col0 q)

theorem b_at (x4 : X4) (x9 x10 : XR2) (q : Fin 8000000) :
    val_main_v60 (F := Ideal) x4 x9 x10 (ix1 q) = val_main_v34 (F := Ideal) x4 x9 x10 (ix2 q 1) := by
  rw [val_main_v60_apply, val_main_v59_apply]
  exact congrArg (val_main_v34 (F := Ideal) x4 x9 x10) (flat_col1 q)

/-! ## The pair a position sends

From the receiving end point's (e, f), the other end point's (e, f) and the edge's (g, b) the reference computes P and Q
by the same products, sums and differences as the specification's `flowP` and `flowQ`, then sets the two side by side. -/

theorem p_at (x0 : X0) (x3 : X3) (x4 : X4) (x9 x10 : XR2) (q : Fin 8000000) :
    val_main_v73 (F := Ideal) x0 x3 x4 x9 x10 (ix1 q)
      = Cert.Spec.flowP (val_main_v50 (F := Ideal) x0 x3 (ix1 q)) (val_main_v52 (F := Ideal) x0 x3 (ix1 q))
          (val_main_v54 (F := Ideal) x0 x3 (ix1 q)) (val_main_v56 (F := Ideal) x0 x3 (ix1 q))
          (val_main_v58 (F := Ideal) x4 x9 x10 (ix1 q)) (val_main_v60 (F := Ideal) x4 x9 x10 (ix1 q)) := by
  rw [val_main_v73_apply, val_main_v71_apply, val_main_v72_apply, val_main_v70_apply, val_main_v69_apply,
    val_main_v67_apply, val_main_v68_apply, val_main_v63_apply, val_main_v61_apply, val_main_v62_apply,
    val_main_v66_apply, val_main_v64_apply, val_main_v65_apply]
  rfl

theorem q_at (x0 : X0) (x3 : X3) (x4 : X4) (x9 x10 : XR2) (q : Fin 8000000) :
    val_main_v78 (F := Ideal) x0 x3 x4 x9 x10 (ix1 q)
      = Cert.Spec.flowQ (val_main_v50 (F := Ideal) x0 x3 (ix1 q)) (val_main_v52 (F := Ideal) x0 x3 (ix1 q))
          (val_main_v54 (F := Ideal) x0 x3 (ix1 q)) (val_main_v56 (F := Ideal) x0 x3 (ix1 q))
          (val_main_v58 (F := Ideal) x4 x9 x10 (ix1 q)) (val_main_v60 (F := Ideal) x4 x9 x10 (ix1 q)) := by
  rw [val_main_v78_apply, val_main_v76_apply, val_main_v77_apply, val_main_v74_apply, val_main_v75_apply,
    val_main_v69_apply, val_main_v67_apply, val_main_v68_apply, val_main_v63_apply, val_main_v61_apply,
    val_main_v62_apply, val_main_v66_apply, val_main_v64_apply, val_main_v65_apply]
  rfl

theorem unit_col (q : Fin 8000000) : idx_main_v79 (ix2 q (0 : Fin 1)) = ix1 q := by
  funext a
  match a with
  | ⟨0, _⟩ => exact Fin.ext rfl

theorem pair0_at (x0 : X0) (x3 : X3) (x4 : X4) (x9 x10 : XR2) (q : Fin 8000000) :
    val_main_v81 (F := Ideal) x0 x3 x4 x9 x10 (ix2 q (0 : Fin 2)) = val_main_v73 (F := Ideal) x0 x3 x4 x9 x10 (ix1 q) := by
  unfold val_main_v81
  rw [Cert.LibCells.concat_cols_apply0, val_main_v79_apply, unit_col]

theorem pair1_at (x0 : X0) (x3 : X3) (x4 : X4) (x9 x10 : XR2) (q : Fin 8000000) :
    val_main_v81 (F := Ideal) x0 x3 x4 x9 x10 (ix2 q (1 : Fin 2)) = val_main_v78 (F := Ideal) x0 x3 x4 x9 x10 (ix1 q) := by
  unfold val_main_v81
  rw [Cert.LibCells.concat_cols_apply1, val_main_v80_apply]
  exact congrArg (val_main_v78 (F := Ideal) x0 x3 x4 x9 x10) (unit_col q)

/-- The specification's pair at column 0 is P, at column 1 is Q. -/
theorem msg_P (xi xj ea : Cert.Spec.E2) (es em : Cert.Spec.R2) (e : Fin 4000000) :
    Cert.Spec.msg xi xj ea es em (ix2 e (0 : Fin 2))
      = Cert.Spec.flowP (xi (ix2 e 0)) (xi (ix2 e 1)) (xj (ix2 e 0)) (xj (ix2 e 1))
          (Cert.Spec.gb ea es em e 0) (Cert.Spec.gb ea es em e 1) := if_pos rfl

theorem msg_Q (xi xj ea : Cert.Spec.E2) (es em : Cert.Spec.R2) (e : Fin 4000000) :
    Cert.Spec.msg xi xj ea es em (ix2 e (1 : Fin 2))
      = Cert.Spec.flowQ (xi (ix2 e 0)) (xi (ix2 e 1)) (xj (ix2 e 0)) (xj (ix2 e 1))
          (Cert.Spec.gb ea es em e 0) (Cert.Spec.gb ea es em e 1) :=
  if_neg (fun h => absurd h (by decide : ¬ ((1 : Fin 2).val = 0)))

theorem fin2_cases (c : Fin 2) : c = 0 ∨ c = 1 :=
  match c with
  | ⟨0, _⟩ => Or.inl rfl
  | ⟨1, _⟩ => Or.inr rfl

/-- On the first half the pair is what edge `e` sends its first end point. -/
theorem pair_lo (x0 : X0) (x3 : X3) (x4 : X4) (x9 x10 : XR2) (q : Fin 8000000) (e : Fin 4000000) (c : Fin 2)
    (h : q.val = e.val) :
    val_main_v81 (F := Ideal) x0 x3 x4 x9 x10 (ix2 q c) = Cert.Spec.fwdOf x0 x3 x4 x10 x9 (ix2 e c) := by
  unfold Cert.Spec.fwdOf
  rcases fin2_cases c with rfl | rfl
  · rw [pair0_at, p_at, ei_at, fi_at, ej_at, fj_at, g_at, b_at, recv_lo x3 q e h, othr_lo x3 q e h,
      attr2_lo x4 x9 x10 q e 0 h, attr2_lo x4 x9 x10 q e 1 h, msg_P]
    rfl
  · rw [pair1_at, q_at, ei_at, fi_at, ej_at, fj_at, g_at, b_at, recv_lo x3 q e h, othr_lo x3 q e h,
      attr2_lo x4 x9 x10 q e 0 h, attr2_lo x4 x9 x10 q e 1 h, msg_Q]
    rfl

/-- On the second half the pair is what edge `e` sends its second end point. -/
theorem pair_hi (x0 : X0) (x3 : X3) (x4 : X4) (x9 x10 : XR2) (q : Fin 8000000) (e : Fin 4000000) (c : Fin 2)
    (h : q.val = 4000000 + e.val) :
    val_main_v81 (F := Ideal) x0 x3 x4 x9 x10 (ix2 q c) = Cert.Spec.bwdOf x0 x3 x4 x10 x9 (ix2 e c) := by
  unfold Cert.Spec.bwdOf
  rcases fin2_cases c with rfl | rfl
  · rw [pair0_at, p_at, ei_at, fi_at, ej_at, fj_at, g_at, b_at, recv_hi x3 q e h, othr_hi x3 q e h,
      attr2_hi x4 x9 x10 q e 0 h, attr2_hi x4 x9 x10 q e 1 h, msg_P]
    rfl
  · rw [pair1_at, q_at, ei_at, fi_at, ej_at, fj_at, g_at, b_at, recv_hi x3 q e h, othr_hi x3 q e h,
      attr2_hi x4 x9 x10 q e 0 h, attr2_hi x4 x9 x10 q e 1 h, msg_Q]
    rfl

/-! ## The nodes' summed pairs

The pairs are added into a zero table at the rows the receiving words name, read signed and unshifted. A sum over the
8 000 000 positions is the sum over the first half plus the sum over the second half; on the first half position `e` is
edge `e` sending to its first end point, on the second half position `4 000 000 + e` is edge `e` sending to its second. -/

theorem key_at (x3 : X3) (q : Fin 8000000) :
    val_main_v83 (F := Ideal) x3 (ix2 q (0 : Fin 1)) = val_main_v28 (F := Ideal) x3 (ix1 q) := by
  rw [val_main_v83_apply]
  refine congrArg (val_main_v28 (F := Ideal) x3) ?_
  funext a
  match a with
  | ⟨0, _⟩ => exact Fin.ext rfl

theorem zero_tab (i : S1000000x2.Idx) : val_main_v82 (F := Ideal) i = 0 := by
  rw [val_main_v82_apply]
  exact Ideal.ofBits_zero_f32

theorem term_lo (x0 : X0) (x3 : X3) (x4 : X4) (x9 x10 : XR2) (u : Fin 1000000) (j : Fin 2) (e : Fin 4000000)
    (q : Fin 8000000) (h : q.val = e.val) :
    (if (val_main_v83 (F := Ideal) x3 (ix2 q (0 : Fin 1))).toInt = (u.val : ℤ)
        then val_main_v81 (F := Ideal) x0 x3 x4 x9 x10 (ix2 q j) else 0)
      = if (x3 (ix2 (0 : Fin 2) e)).toInt = (u.val : ℤ) then Cert.Spec.fwdOf x0 x3 x4 x10 x9 (ix2 e j) else 0 := by
  rw [key_at, recv_lo x3 q e h, pair_lo x0 x3 x4 x9 x10 q e j h]

theorem term_hi (x0 : X0) (x3 : X3) (x4 : X4) (x9 x10 : XR2) (u : Fin 1000000) (j : Fin 2) (e : Fin 4000000)
    (q : Fin 8000000) (h : q.val = 4000000 + e.val) :
    (if (val_main_v83 (F := Ideal) x3 (ix2 q (0 : Fin 1))).toInt = (u.val : ℤ)
        then val_main_v81 (F := Ideal) x0 x3 x4 x9 x10 (ix2 q j) else 0)
      = if (x3 (ix2 (1 : Fin 2) e)).toInt = (u.val : ℤ) then Cert.Spec.bwdOf x0 x3 x4 x10 x9 (ix2 e j) else 0 := by
  rw [key_at, recv_hi x3 q e h, pair_hi x0 x3 x4 x9 x10 q e j h]

/-- A node's row of the table: what the edges send it forward plus what they send it backward. -/
theorem flow_at (x0 : X0) (x3 : X3) (x4 : X4) (x9 x10 : XR2) (u : Fin 1000000) (j : Fin 2) :
    val_main_v84 (F := Ideal) x0 x3 x4 x9 x10 (ix2 u j) = Cert.Spec.nodeFlowOf x0 x3 x4 x10 x9 (ix2 u j) := by
  unfold val_main_v84
  refine (Cert.LibScatterGather2.scatterAdd_apply _ rfl rfl rfl rfl _ _ _ u j).trans ?_
  rw [zero_tab, zero_add, Finset.sum_filter, Cert.LibSumSplit.sum_split 4000000 4000000 8000000 rfl]
  unfold Cert.Spec.nodeFlowOf Cert.Spec.nodeFlow
  refine congrArg₂ (· + ·) ?_ ?_
  · rw [Finset.sum_filter]
    exact Finset.sum_congr rfl (fun e _ => term_lo x0 x3 x4 x9 x10 u j e ⟨e.val, by have := e.isLt; omega⟩ rfl)
  · rw [Finset.sum_filter]
    exact Finset.sum_congr rfl (fun e _ => term_hi x0 x3 x4 x9 x10 u j e ⟨4000000 + e.val, by have := e.isLt; omega⟩ rfl)

/-! ## The imbalance sum

The de-normalised first two target columns plus the node's summed pair, squared, summed over rows and columns. -/

theorem target_at (x1 : X1) (x7 x8 : XR4) (r : Fin 1000000) (c : Fin 2) :
    val_main_v17 (F := Ideal) x1 x7 x8 (ix2 r c)
      = x1 (ix2 r (Cert.Spec.lo c)) * (x8 (ix2 0 (Cert.Spec.lo c)) + Cert.Spec.eps) + x7 (ix2 0 (Cert.Spec.lo c)) := by
  rw [val_main_v17_apply, val_main_v14_apply, val_main_v9_apply, val_main_v13_apply, val_main_v12_apply,
    val_main_v10_apply, val_main_v11_apply, val_main_v16_apply, val_main_v15_apply]
  have h9 : idx_main_v9 (ix2 r c) = ix2 r (Cert.Spec.lo c) := by
    funext a
    match a with
    | ⟨0, _⟩ => exact Fin.ext rfl
    | ⟨1, _⟩ => exact Fin.ext rfl
  have h13 : idx_main_v10 (idx_main_v13 (ix2 r c)) = ix2 (0 : Fin 1) (Cert.Spec.lo c) := by
    funext a
    match a with
    | ⟨0, _⟩ => exact Fin.ext rfl
    | ⟨1, _⟩ => exact Fin.ext rfl
  have h16 : idx_main_v15 (idx_main_v16 (ix2 r c)) = ix2 (0 : Fin 1) (Cert.Spec.lo c) := h13
  rw [h9, h13, h16]
  rfl

theorem zero_init (i : S_.Idx) : val_main_cst_8 (F := Ideal) i = 0 := Ideal.ofBits_zero_f32

theorem sq_at (x0 : X0) (x1 : X1) (x3 : X3) (x4 : X4) (x7 x8 : XR4) (x9 x10 : XR2) (r : Fin 1000000) (c : Fin 2) :
    val_main_v86 (F := Ideal) x0 x1 x3 x4 x7 x8 x9 x10 (ix2 r c)
      = Cert.Spec.imbalance x1 x8 x7 (Cert.Spec.nodeFlowOf x0 x3 x4 x10 x9) r c
        * Cert.Spec.imbalance x1 x8 x7 (Cert.Spec.nodeFlowOf x0 x3 x4 x10 x9) r c := by
  rw [val_main_v86_apply, val_main_v85_apply, target_at, flow_at]
  rfl

end Phys

open Phys

theorem phys_eq (x0 : (⟨S1000000x2, .f32⟩ : BufTy).Contents (Elt Ideal)) (x1 : (⟨S1000000x4, .f32⟩ : BufTy).Contents (Elt Ideal))
    (x3 : (⟨S2x4000000, .i32⟩ : BufTy).Contents (Elt Ideal)) (x4 : (⟨S4000000x2, .f32⟩ : BufTy).Contents (Elt Ideal))
    (x7 x8 : (⟨S1x4, .f32⟩ : BufTy).Contents (Elt Ideal)) (x9 x10 : (⟨S1x2, .f32⟩ : BufTy).Contents (Elt Ideal)) :
    val_main_v87 (F := Ideal) x0 x1 x3 x4 x7 x8 x9 x10
      = Cert.Spec.sc (Cert.Spec.sumPhys x1 x8 x7 (Cert.Spec.nodeFlowOf x0 x3 x4 x10 x9)) := by
  funext i
  rw [val_main_v87_apply, zero_init, zero_add, sum_idx2]
  unfold Cert.Spec.sc Cert.Spec.sumPhys
  exact Finset.sum_congr rfl (fun r _ => Finset.sum_congr rfl (fun c _ => sq_at x0 x1 x3 x4 x7 x8 x9 x10 r c))

end Cert.ReferenceIdeal.RefValue

end
-- ==== Proof.RefSide.lean ====
/-
  The reference program's run, read: its four results are the specification's four results of the launch arrays.
  Its closing operations are the specification's closing functions word for word, applied to its five whole-array sums,
  and each of those is the specification's sum.
-/
import proofs.«161120_j88115549044894_1_alg».proof.Proof.RefSimple
import proofs.«161120_j88115549044894_1_alg».proof.Proof.RefPhys

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

/-! ## The four results as stages -/

theorem mse_eq (x0 : (⟨S1000000x2, .f32⟩ : BufTy).Contents (Elt Ideal)) (x1 x2 : (⟨S1000000x4, .f32⟩ : BufTy).Contents (Elt Ideal)) :
    val_main_v8 (F := Ideal) x0 x1 x2 = Cert.Spec.rMse x0 x1 x2 := by
  unfold val_main_v8 val_main_v7 val_main_cst_1
  rw [sq_eq, mask_eq]
  rfl

theorem lphys_eq (x0 : (⟨S1000000x2, .f32⟩ : BufTy).Contents (Elt Ideal)) (x1 : (⟨S1000000x4, .f32⟩ : BufTy).Contents (Elt Ideal))
    (x3 : (⟨S2x4000000, .i32⟩ : BufTy).Contents (Elt Ideal)) (x4 : (⟨S4000000x2, .f32⟩ : BufTy).Contents (Elt Ideal))
    (x7 x8 : (⟨S1x4, .f32⟩ : BufTy).Contents (Elt Ideal)) (x9 x10 : (⟨S1x2, .f32⟩ : BufTy).Contents (Elt Ideal)) :
    val_main_v88 (F := Ideal) x0 x1 x3 x4 x7 x8 x9 x10 = Cert.Spec.rPhys x0 x1 x3 x4 x7 x8 x9 x10 := by
  unfold val_main_v88 val_main_cst_9
  rw [phys_eq]
  rfl

theorem lpv_eq (x0 : (⟨S1000000x2, .f32⟩ : BufTy).Contents (Elt Ideal)) (x5 : (⟨S1000000, .i32⟩ : BufTy).Contents (Elt Ideal))
    (x6 : (⟨S1000000, .f32⟩ : BufTy).Contents (Elt Ideal)) (x7 x8 : (⟨S1x4, .f32⟩ : BufTy).Contents (Elt Ideal)) :
    val_main_v116 (F := Ideal) x0 x5 x6 x7 x8
      = Cert.Spec.rPv x0 (fun r => x5 (ix1 r)) (fun r => x6 (ix1 r)) x7 x8 := by
  unfold val_main_v116 val_main_v113 val_main_v115 val_main_v114 val_main_call0_v0 val_main_cst_14 val_main_cst_15 val_main_cst_16
  rw [pv_eq, cnt_eq]
  rfl

theorem total_eq (x0 : (⟨S1000000x2, .f32⟩ : BufTy).Contents (Elt Ideal)) (x1 x2 : (⟨S1000000x4, .f32⟩ : BufTy).Contents (Elt Ideal))
    (x3 : (⟨S2x4000000, .i32⟩ : BufTy).Contents (Elt Ideal)) (x4 : (⟨S4000000x2, .f32⟩ : BufTy).Contents (Elt Ideal))
    (x5 : (⟨S1000000, .i32⟩ : BufTy).Contents (Elt Ideal)) (x6 : (⟨S1000000, .f32⟩ : BufTy).Contents (Elt Ideal))
    (x7 x8 : (⟨S1x4, .f32⟩ : BufTy).Contents (Elt Ideal)) (x9 x10 : (⟨S1x2, .f32⟩ : BufTy).Contents (Elt Ideal)) :
    val_main_v121 (F := Ideal) x0 x1 x2 x3 x4 x5 x6 x7 x8 x9 x10
      = Cert.Spec.rTotal x0 x1 x2 x3 x4 (fun r => x5 (ix1 r)) (fun r => x6 (ix1 r)) x7 x8 x9 x10 := by
  unfold val_main_v121 val_main_v119 val_main_v120 val_main_v117 val_main_v118 val_main_cst_17 val_main_cst_18 val_main_cst_19
  rw [mse_eq, lphys_eq, lpv_eq]
  rfl

/-! ## The run -/

/-- Every weakly fair execution of the reference program terminates, nothing faulting, with its four results at the
    specification's four results of the launch arrays, and the launch arrays unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v121)
        = Cert.Spec.rTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (fun r => (m ((c.tc : Thread nD τ).loc main_arg5)) (ix1 r)) (fun r => (m ((c.tc : Thread nD τ).loc main_arg6)) (ix1 r)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v8) = Cert.Spec.rMse (m ((c.tc : Thread nD τ).loc main_arg0)) (m ((c.tc : Thread nD τ).loc main_arg1)) (m ((c.tc : Thread nD τ).loc main_arg2))
      ∧ r.2.mem ((c.tc : Thread nD τ).loc main_v88)
        = Cert.Spec.rPhys (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v116)
        = Cert.Spec.rPv (m ((c.tc : Thread nD τ).loc main_arg0)) (fun r => (m ((c.tc : Thread nD τ).loc main_arg5)) (ix1 r)) (fun r => (m ((c.tc : Thread nD τ).loc main_arg6)) (ix1 r)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨h121, h8, h88, h116, hargs⟩ := h c
    refine ⟨h121.trans ((val_main_v121_eq (F := Ideal) m c).trans (total_eq ..)),
      h8.trans ((val_main_v8_eq (F := Ideal) ..).trans (mse_eq ..)),
      h88.trans ((val_main_v88_eq (F := Ideal) m c).trans (lphys_eq ..)),
      h116.trans ((val_main_v116_eq (F := Ideal) ..).trans (lpv_eq ..)), hargs⟩)
    (Cert.ReferenceIdeal.ValueP.run (F := Ideal) m ρ)

end Cert.ReferenceIdeal.RefValue

end
-- ==== Proof.lean ====
/-
  A four-part loss over a graph of 1 000 000 nodes and 4 000 000 edges — a weighted squared error, a power imbalance,
  a voltage-magnitude error over the nodes of one kind, and their weighted total — computed two ways.
  The kernel program reads the node rows at both end points of every edge, computes per edge (in a first grid of 625
  blocks of 6400 edges) the pair it sends to each end point, adds the pairs into the nodes' rows with two scatter-adds,
  and accumulates (in a second grid of 200 blocks of 5000 nodes) five sums, which a few scalar operations turn into the
  four results. The reference lists every edge twice, once per direction, scatters once, and takes whole-array sums.
  Over the extended reals both compute the specification's four results (Proof/Spec.lean): the per-edge and per-node
  terms are the same expressions, and the two programs differ only in how the same finite sums are grouped — by blocks
  against all at once, by direction against both directions in one list — which addition's commutativity and
  associativity, valid for all extended reals, makes immaterial. No input needs to be finite for that.
  The three frames are the two generated frame certificates and the reference's run with its results dropped; the
  idealization rewrote nothing, so `preserves` is `True`.
-/
import proofs.«161120_j88115549044894_1_alg».proof.Defs
import proofs.«161120_j88115549044894_1_alg».proof.Proof.Gen.Kernel
import proofs.«161120_j88115549044894_1_alg».proof.Proof.Gen.Kernel.Skeleton
import proofs.«161120_j88115549044894_1_alg».proof.Proof.Gen.Kernel.Launch
import proofs.«161120_j88115549044894_1_alg».proof.Proof.Gen.Kernel.Points
import proofs.«161120_j88115549044894_1_alg».proof.Proof.Gen.Kernel.Frame
import proofs.«161120_j88115549044894_1_alg».proof.Proof.Gen.KernelIdeal
import proofs.«161120_j88115549044894_1_alg».proof.Proof.Gen.KernelIdeal.Skeleton
import proofs.«161120_j88115549044894_1_alg».proof.Proof.Gen.KernelIdeal.Launch
import proofs.«161120_j88115549044894_1_alg».proof.Proof.Gen.KernelIdeal.Points
import proofs.«161120_j88115549044894_1_alg».proof.Proof.Gen.KernelIdeal.Frame
import proofs.«161120_j88115549044894_1_alg».proof.Proof.Gen.ReferenceIdeal
import proofs.«161120_j88115549044894_1_alg».proof.Proof.Gen.Pre_finite_inputs
import proofs.«161120_j88115549044894_1_alg».proof.Proof.KernelSide
import proofs.«161120_j88115549044894_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference's run with its four results dropped. -/
theorem frame_ri : Cert.frame_ReferenceIdeal := fun m ρ _ =>
  (θ_run Cert.ReferenceIdeal.defs _ _).mono (fun _ h c => (h c).2.2.2.2) (Cert.ReferenceIdeal.RefValue.run m ρ)

theorem preserves : Cert.preserves_Kernel_KernelIdeal := trivial

/-- Both programs end with the specification's four results of launch arrays that agree. -/
theorem algebraic : Cert.algebraic_KernelIdeal_ReferenceIdeal := by
  intro m ρ m' ρ' _ hagree
  refine ⟨_, _, _, _, Cert.KernelIdeal.KSide.run m ρ, ?_⟩
  refine (θ_run Cert.ReferenceIdeal.defs _ _).mono (fun r h c => ?_) (Cert.ReferenceIdeal.RefValue.run m' ρ')
  obtain ⟨h0, h1, h2, h3, hargs⟩ := h c
  obtain ⟨a0, a1, a2, a3, a4, a5, a6, a7, a8, a9, a10⟩ := hagree c
  refine ⟨h0.trans ?_, h1.trans ?_, h2.trans ?_, h3.trans ?_, hargs⟩
  · rw [a0, a1, a2, a3, a4, a5, a6, a7, a8, a9, a10]
  · rw [a0, a1, a2]
  · rw [a0, a1, a3, a4, a7, a8, a9, a10]
  · rw [a0, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
